-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S1x1024 : Shape := ⟨2, ![1, 1024]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1 : Shape := ⟨2, ![1024, 1]⟩

abbrev nBuf : Space → Nat
  | .hbm => 20
  | .vmem => 25
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S4x2048x1024, .bf16⟩
  | .hbm, ⟨17, _⟩ => ⟨S4x2048x1024, .bf16⟩
  | .hbm, ⟨18, _⟩ => ⟨S4x2048x1024, .bf16⟩
  | .hbm, ⟨19, _⟩ => ⟨S4x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x1024x1024, .bf16⟩
  | .local _ .vmem, ⟨17, _⟩ => ⟨S1x1024x1024, .bf16⟩
  | .local _ .vmem, ⟨18, _⟩ => ⟨S1x1024x1024, .bf16⟩
  | .local _ .vmem, ⟨19, _⟩ => ⟨S1x1024x1024, .bf16⟩
  | .local _ .vmem, ⟨20, _⟩ => ⟨S1x1024x1024, .f32⟩
  | .local _ .vmem, ⟨21, _⟩ => ⟨S1x1024x1024, .f32⟩
  | .local _ .vmem, ⟨22, _⟩ => ⟨S1024x1, .f32⟩
  | .local _ .vmem, ⟨23, _⟩ => ⟨S1024x1, .f32⟩
  | .local _ .vmem, ⟨24, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨3, ![4, 2, 2], ![false, false, false]⟩

def k1_cond3 (i : grid1.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_2 : BitVec 32 := 0#32
  let v8 : BitVec 1 := Scalar.cmpi .ne v7 c0_i32_2
  v8

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  iota_S1024x1024_d0_w32 : S1024x1024.Iotas .tc 32 [0]
  iota_S1024x1024_d1_w32 : S1024x1024.Iotas .tc 32 [1]
  reduces_S1024x1024_S1024 : S1024x1024.Reduces [1] S1024
  shapeCasts_S1024_S1024x1 : S1024.ShapeCasts S1024x1
  broadcasts_S1024x1_S1024x1024 : S1024x1.Broadcasts S1024x1024
  shapeCasts_S1024x1024_S1x1024x1024 : S1024x1024.ShapeCasts S1x1024x1024
  dot_S512x1024_S1024x1024_S512x1024_1_0_0_1_n_n_wf : DotDims.WF S512x1024 S1024x1024 S512x1024 [1] [0] [0] [1] [] []
  dot_S1024x1024_S1024x1024_S1024x1024_1_1_0_0_n_n_wf : DotDims.WF S1024x1024 S1024x1024 S1024x1024 [1] [1] [0] [0] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x2048x1024.size a
  hwx0_0 : ∀ i : grid0.Coords, EltTy.bits .f32 = 32 ∨ (Rect.block (s := S4x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x1024.size a ≤ S4x2048x1024.size a
  hwx0_7 : ∀ i : grid0.Coords, EltTy.bits .bf16 = 32 ∨ (Rect.block (s := S4x2048x1024) S1x512x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512x1024.size a ≤ S4x2048x1024.size a
  hwx0_8 : ∀ i : grid0.Coords, EltTy.bits .bf16 = 32 ∨ (Rect.block (s := S4x2048x1024) S1x512x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512x1024.size a ≤ S4x2048x1024.size a
  hwx0_9 : ∀ i : grid0.Coords, EltTy.bits .bf16 = 32 ∨ (Rect.block (s := S4x2048x1024) S1x512x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x2048x1024.size a
  hwx1_0 : ∀ i : grid1.Coords, EltTy.bits .bf16 = 32 ∨ (Rect.block (s := S4x2048x1024) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S4x2048x1024.size a
  hwx1_1 : ∀ i : grid1.Coords, EltTy.bits .bf16 = 32 ∨ (Rect.block (s := S4x2048x1024) S1x1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S4x2048x1024.size a
  hwx1_2 : ∀ i : grid1.Coords, EltTy.bits .bf16 = 32 ∨ (Rect.block (s := S4x2048x1024) S1x1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x2048x1024.size a
  hwx1_3 : ∀ i : grid1.Coords, EltTy.bits .f32 = 32 ∨ (Rect.block (s := S4x2048x1024) S1x1024x1024.size (cc1_transform_3 i) (hinb1_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9_0) S1x512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v9_1) S1x512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v9_2) S1x512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v9_0) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9_1) S1x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9_2) S1x1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x2048 : Shape := ⟨3, ![4, 2048, 2048]⟩
abbrev S_ : Shape := ⟨0, ![]⟩
abbrev S2048x2048 : Shape := ⟨2, ![2048, 2048]⟩
abbrev S1x2048x2048 : Shape := ⟨3, ![1, 2048, 2048]⟩
abbrev S4x2048 : Shape := ⟨2, ![4, 2048]⟩
abbrev S4x2048x1 : Shape := ⟨3, ![4, 2048, 1]⟩

abbrev nBuf : Space → Nat
  | .hbm => 55
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x2048x1024, .f32⟩
  | .hbm, ⟨8, _⟩ => ⟨S1x1x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x2048x2048, .f32⟩
  | .hbm, ⟨20, _⟩ => ⟨S_, .f32⟩
  | .hbm, ⟨21, _⟩ => ⟨S4x2048x2048, .f32⟩
  | .hbm, ⟨22, _⟩ => ⟨S4x2048x2048, .f32⟩
  | .hbm, ⟨23, _⟩ => ⟨S_, .i1⟩
  | .hbm, ⟨24, _⟩ => ⟨S2048x2048, .i1⟩
  | .hbm, ⟨25, _⟩ => ⟨S2048x2048, .i32⟩
  | .hbm, ⟨26, _⟩ => ⟨S_, .i32⟩
  | .hbm, ⟨27, _⟩ => ⟨S2048x2048, .i32⟩
  | .hbm, ⟨28, _⟩ => ⟨S2048x2048, .i32⟩
  | .hbm, ⟨29, _⟩ => ⟨S2048x2048, .i32⟩
  | .hbm, ⟨30, _⟩ => ⟨S2048x2048, .i1⟩
  | .hbm, ⟨31, _⟩ => ⟨S_, .i1⟩
  | .hbm, ⟨32, _⟩ => ⟨S2048x2048, .i1⟩
  | .hbm, ⟨33, _⟩ => ⟨S2048x2048, .i1⟩
  | .hbm, ⟨34, _⟩ => ⟨S1x2048x2048, .i1⟩
  | .hbm, ⟨35, _⟩ => ⟨S_, .f32⟩
  | .hbm, ⟨36, _⟩ => ⟨S_, .f32⟩
  | .hbm, ⟨37, _⟩ => ⟨S4x2048x2048, .i1⟩
  | .hbm, ⟨38, _⟩ => ⟨S4x2048x2048, .f32⟩
  | .hbm, ⟨39, _⟩ => ⟨S4x2048x2048, .f32⟩
  | .hbm, ⟨40, _⟩ => ⟨S_, .f32⟩
  | .hbm, ⟨41, _⟩ => ⟨S4x2048, .f32⟩
  | .hbm, ⟨42, _⟩ => ⟨S_, .f32⟩
  | .hbm, ⟨43, _⟩ => ⟨S4x2048, .f32⟩
  | .hbm, ⟨44, _⟩ => ⟨S4x2048, .f32⟩
  | .hbm, ⟨45, _⟩ => ⟨S4x2048x1, .f32⟩
  | .hbm, ⟨46, _⟩ => ⟨S4x2048x2048, .f32⟩
  | .hbm, ⟨47, _⟩ => ⟨S4x2048x2048, .f32⟩
  | .hbm, ⟨48, _⟩ => ⟨S4x2048x2048, .f32⟩
  | .hbm, ⟨49, _⟩ => ⟨S_, .f32⟩
  | .hbm, ⟨50, _⟩ => ⟨S4x2048, .f32⟩
  | .hbm, ⟨51, _⟩ => ⟨S4x2048x1, .f32⟩
  | .hbm, ⟨52, _⟩ => ⟨S4x2048x2048, .f32⟩
  | .hbm, ⟨53, _⟩ => ⟨S4x2048x2048, .f32⟩
  | .hbm, ⟨54, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_call0_v0 : Ref sig .tc := ⟨.hbm, 25, rfl⟩
abbrev main_call0_c : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_c_0 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v18 : Ref sig .tc := ⟨.hbm, 39, rfl⟩
abbrev main_cst_1 : Ref sig .tc := ⟨.hbm, 40, rfl⟩
abbrev main_v19 : Ref sig .tc := ⟨.hbm, 41, rfl⟩
abbrev main_cst_2 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_3 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S4x2048x2048_0_1_2 : S1x2048x2048.BroadcastsInDim S4x2048x2048 (![0, 1, 2] : Fin 3 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.KbR0.lean ====
/- Region 0 of @main (the fused projection call, pipeline 0) at a parameter `V`: the buffer contents the region
   is entered with. Each window's block at a point, what the body leaves in each output window's buffer as the
   canonical contents of its one covering store over the input blocks, the body's triple, the pipeline's proof
   data and the body obligation at every point. Generic in the float instance. -/
import proofs.«402828_j13597866459507_3_alg».proof.Proof.Gen.Kernel.Launch
import proofs.«402828_j13597866459507_3_alg».proof.Proof.Gen.Kernel.Skeleton
import proofs.«402828_j13597866459507_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural look recurses once per coordinate of the long axes
set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place: unfetched, the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s and whose body leaves the block in place: unfetched, the block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for any proof
    data whose array is `V`'s and whose body leaves the block in place: unfetched, the block index has not moved. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev rX : Rect S1x512x1024 := Rect.unit (s := S1x512x1024) ![0, 0, 0] S1x512x1024.size inb_S1x512x1024_S1x512x1024_0_0_0
abbrev rW : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0

/-! ## What the body leaves in each output window's buffer -/

/-- Window 7's staging buffer after the body, from the input windows' blocks: its one store as a piece. -/
def out0_7 (x0 : Vec F S1x512x1024 .f32) (x1 : Vec F S1024x1024 .bf16) (x2 : Vec F S1x1024 .f32) : Vec F S1x512x1024 .bf16 :=
  View.canon [⟨rX, k0_pay4 (View.ld x0 rX) (View.ld x1 rW) (View.ld x2 rB)⟩]

/-- Window 8's staging buffer after the body. -/
def out0_8 (x0 : Vec F S1x512x1024 .f32) (x3 : Vec F S1024x1024 .bf16) (x4 : Vec F S1x1024 .f32) : Vec F S1x512x1024 .bf16 :=
  View.canon [⟨rX, k0_pay5 (View.ld x0 rX) (View.ld x3 rW) (View.ld x4 rB)⟩]

/-- Window 9's staging buffer after the body. -/
def out0_9 (x0 : Vec F S1x512x1024 .f32) (x5 : Vec F S1024x1024 .bf16) (x6 : Vec F S1x1024 .f32) : Vec F S1x512x1024 .bf16 :=
  View.canon [⟨rX, k0_pay1 (k0_pay3 (View.ld x0 rX) (View.ld x5 rW) (View.ld x6 rB))⟩]

/-- The one store tiles the buffer, so it covers it. -/
theorem cover0 (p0 : Vec F S1x512x1024 .bf16) (y : S1x512x1024.Idx) :
    ∃ pc ∈ ([⟨rX, p0⟩] : List (View.Piece (Elt F) S1x512x1024 .bf16)), y ∈ pc.1.set :=
  View.cover_of_tiled [⟨rX, p0⟩] S1x512x1024.size (by rfl) y

/-! ## The body's triple -/

set_option maxHeartbeats 4000000 in
/-- The kernel body on whole staging memrefs, the inputs' at read contents `x·` and the outputs' at anything, runs to
    the continuation holding the inputs' as they were and each output's at `out0_·` of the inputs'. -/
theorem sound_kernel0 (c : Dev nD) (E : Set ℕ) (i : grid0.Coords) (arg2 : Memref sig .tc .vmem S1x512x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x512x1024 .bf16) (harg9 : arg9.IsWhole) (arg10 : Memref sig .tc .vmem S1x512x1024 .bf16) (harg10 : arg10.IsWhole) (arg11 : Memref sig .tc .vmem S1x512x1024 .bf16) (harg11 : arg11.IsWhole)
    (x0 : Vec F S1x512x1024 .f32) (x1 : Vec F S1024x1024 .bf16) (x2 : Vec F S1x1024 .f32) (x3 : Vec F S1024x1024 .bf16) (x4 : Vec F S1x1024 .f32) (x5 : Vec F S1024x1024 .bf16) (x6 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out0_7 x0 x1 x2) ∗ owns (c : Thread nD τ) arg10 fullShare (out0_8 x0 x3 x4) ∗ owns (c : Thread nD τ) arg11 fullShare (out0_9 x0 x5 x6)) -∗ K ⟨⟩))
      ⊢ wp frame (wpE (defs₀ (F := F)) Variants.none c none) E (cc0__qkv_kernel i arg2 harg2 arg3 harg3 arg4 harg4 arg5 harg5 arg6 harg6 arg7 harg7 arg8 harg8 arg9 harg9 arg10 harg10 arg11 harg11) K := by
  sl_unfold [cc0__qkv_kernel]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0 _)
  isplitl [H8]
  · iexists _; isplitr
    swap; · iexact H8
    ipureintro
    exact View.read_writes_eq_canon _ _ _ (cover0 _)
  iexists _; isplitr
  swap; · iexact H9
  ipureintro
  exact View.read_writes_eq_canon _ _ _ (cover0 _)

/-! ## The pipeline's proof data -/

/-- The proof data of pipeline 0 on core `c`: the arrays as the region finds them (`V`); after the body at
    point `t` each input's buffer at its block and each output's at `out0_·` of the input blocks; the scoped rest and
    the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t)
    | ⟨8, _⟩ => out0_8 (iblk0 V c 0 t) (iblk0 V c 3 t) (iblk0 V c 4 t)
    | ⟨9, _⟩ => out0_9 (iblk0 V c 0 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) := by dsimp only [dat0]
theorem after0_8 (c : Dev nD) (t : Fin cfg0.N) : (dat0 V c).after 8 t = out0_8 (iblk0 V c 0 t) (iblk0 V c 3 t) (iblk0 V c 4 t) := by dsimp only [dat0]
theorem after0_9 (c : Dev nD) (t : Fin cfg0.N) : (dat0 V c).after 9 t = out0_9 (iblk0 V c 0 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 4000000 in
/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.Kernel.R0

end
-- ==== Proof.KbBound.lean ====
/-
  What the TensorCore's unscoped buffers hold before and after the projection call.

  At launch they hold the launch memory; the nine host operations (three weight transposes, their casts, three bias
  reshapes) write nine buffers of their own and leave every other buffer alone; the projection call then leaves each
  of its windowed arrays at what its write-backs leave and every other buffer as it found it.
-/
import proofs.«402828_j13597866459507_3_alg».proof.Proof.KbR0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between @main's items -/

/-- At launch. -/
abbrev Wl : Dev nD → Valuation τ sig (Elt F) := fun c b => m (c, b)
/-- After the host operations (the projection call's entry). -/
abbrev Wh : Dev nD → Valuation τ sig (Elt F) := fun c => StableHlo.after hostOps0 (Wl m c)
/-- The same read at the TensorCore's references. -/
abbrev Vh : (c : Dev nD) → (b : Ref sig .tc) → Buf (Elt F) ((c : Thread nD τ).loc b) := fun c b => Wh m c b
/-- After the projection call: its arrays at what its write-backs leave, every other buffer as entered. -/
def Wq (c : Dev nD) : Valuation τ sig (Elt F) :=
  Pipeline.withArrays spec0 c (Wh m c) fun w => (R0.dat0 (Vh m) c).arrAt w cfg0.N
theorem Wq_arr (c : Dev nD) (w : Fin cfg0.W) :
    Wq m c (Proc.devRef .tc (Pipeline.arrRef spec0 w)) = (R0.dat0 (Vh m) c).arrAt w cfg0.N := by
  unfold Wq; exact Pipeline.withArrays_arr spec0 launch0.win.arr_inj c _ _ w
theorem Wq_of_ne (c : Dev nD) (b : Ref sig .tc) (hb : ∀ w, Pipeline.arrRef spec0 w ≠ b) :
    Wq m c (Proc.devRef .tc b) = Wh m c (Proc.devRef .tc b) := by
  unfold Wq; exact Pipeline.withArrays_of_ne spec0 c _ _ b hb
/-- The same read at the TensorCore's references (the attention call's entry: no host operation lies between). -/
abbrev Vq : (c : Dev nD) → (b : Ref sig .tc) → Buf (Elt F) ((c : Thread nD τ).loc b) := fun c b => Wq m c b
theorem hF0 (c : Dev nD) (w : Fin cfg0.W) : (R0.dat0 (Vh m) c).arrAt w cfg0.N = Vq m c (Pipeline.arrRef spec0 w) :=
  (Wq_arr m c w).symm
theorem hrest0 (c : Dev nD) : ∀ b, b ∉ Finset.univ.image (Pipeline.arrRef spec0) → Vq m c b = Vh m c b :=
  fun b hb => Wq_of_ne m c b fun w e => hb (Finset.mem_image.mpr ⟨w, Finset.mem_univ _, e⟩)

/-! ## The host operations leave every other buffer alone -/

/-- The host operations write only the nine buffers they define. -/
theorem after_host_keeps (c : Dev nD) (b : Ref sig .tc)
    (hb : b ∉ ([main_v0, main_v1, main_v2, main_v3, main_v4, main_v5, main_v6, main_v7, main_v8] : List (Ref sig .tc))) :
    Wh m c (Proc.devRef .tc b) = Wl m c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes,
      StableHlo.ternary_writes, StableHlo.quaternary_writes, StableHlo.reshape_writes, StableHlo.binaryIndexed_writes, Finset.mem_singleton]
    simp only [List.mem_cons, List.mem_nil_iff, or_false, not_or] at hb
    obtain ⟨h0, h1, h2, h3, h4, h5, h6, h7, h8⟩ := hb
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7,
      StableHlo.devRef_ne_of_ne h8⟩))

end Cert.Kernel.Run

end
-- ==== Proof.KbR1Defs.lean ====
/-
  The attention kernel's carried state, point by point.

  The second pallas_call visits the grid (batch, query tile, key tile) = 4 × 2 × 2 with the key tile innermost and
  keeps, between points, three scratch arrays for the current query tile: each row's running maximum, its running
  sum of exponentials and its running weighted sum.  At key tile 0 it resets them (-∞, 0, 0) and folds the tile
  in; at key tile 1 it folds the tile in only when the query tile is the second one (for the first query tile the
  second key tile lies wholly after every query row); and at key tile 1 it writes the quotient of the weighted sum
  by the sum into the output block.  Here: the state after each point as a recursion over the points, in terms of
  the body's named values, and the block written.
-/
import proofs.«402828_j13597866459507_3_alg».proof.Proof.Gen.Kernel.Launch
import proofs.«402828_j13597866459507_3_alg».proof.Proof.Gen.Kernel.Skeleton
import proofs.«402828_j13597866459507_3_alg».proof.Proof.Gen.Kernel.Points

noncomputable section

namespace Cert.Kernel.R1

open Idealize.ShloMosaic Idealize.ShloMosaic.TcCoe
open Idealize.SL Idealize.SL.Sem
open Cert.Kernel Cert.Kernel.Gen

variable {F : FTy → Type} [FloatOps F]

/-- The running state of a query tile: per row the maximum so far ([1024, 1]), the sum of exponentials so far
    ([1024, 1]) and the weighted sum so far ([1024, 1024]). -/
abbrev St (F : FTy → Type) [FloatOps F] : Type := Vec F S1024x1 .f32 × Vec F S1024x1 .f32 × Vec F S1024x1024 .f32

/-- The state a key sweep starts from: maximum -∞, sums zero. -/
def reset : St F := (k1_pay1, k1_pay2, k1_pay3)

/-- One key tile folded into the state, at grid point `i`: `qb`, `kb`, `vb` the query, key and value blocks. -/
def upd (i : grid1.Coords) (qb kb vb : Vec F S1x1024x1024 .bf16) (s : St F) : St F :=
  (k1_pay6 (k1_pay10 (BitVec.ofNat 32 (i 1).val) (BitVec.ofNat 32 (i 2).val) qb kb s.1),
   k1_pay4 (k1_pay13 (BitVec.ofNat 32 (i 1).val) (BitVec.ofNat 32 (i 2).val) qb kb s.1 s.1 s.2.1),
   k1_pay5 (k1_pay8 vb) (k1_pay11 (BitVec.ofNat 32 (i 1).val) (BitVec.ofNat 32 (i 2).val) qb kb s.1 s.1)
     (k1_pay12 (BitVec.ofNat 32 (i 1).val) (BitVec.ofNat 32 (i 2).val) qb kb s.1) s.2.2)

/-- What a point does to the state: at key tile 0, reset and fold; at key tile 1 of the first query tile, nothing;
    at key tile 1 of the second query tile, fold. -/
def stepSt (i : grid1.Coords) (qb kb vb : Vec F S1x1024x1024 .bf16) (s : St F) : St F :=
  if (i 2).val = 0 then upd i qb kb vb reset
  else if (i 1).val = 0 then s
  else upd i qb kb vb s

/-- The block written at key tile 1: the weighted sum divided by the sum, row by row. -/
def out1_3 (s : St F) : Vec F S1x1024x1024 .f32 := k1_pay7 s.2.2 s.2.1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The state after point `n`: the point's step on what the point before left (point 0 is at key tile 0, which
    resets, so what it starts from does not matter). -/
def scAt (c : Dev nD) : (n : ℕ) → n < cfg1.N → St F
  | 0, hn => stepSt (grid1.coords ⟨0, hn⟩) (iblk1 V c 0 ⟨0, hn⟩) (iblk1 V c 1 ⟨0, hn⟩) (iblk1 V c 2 ⟨0, hn⟩) reset
  | n + 1, hn => stepSt (grid1.coords ⟨n + 1, hn⟩) (iblk1 V c 0 ⟨n + 1, hn⟩) (iblk1 V c 1 ⟨n + 1, hn⟩) (iblk1 V c 2 ⟨n + 1, hn⟩)
      (scAt c n (Nat.lt_of_succ_lt hn))

theorem scAt_zero (c : Dev nD) (hn : 0 < cfg1.N) :
    scAt V c 0 hn = stepSt (grid1.coords ⟨0, hn⟩) (iblk1 V c 0 ⟨0, hn⟩) (iblk1 V c 1 ⟨0, hn⟩) (iblk1 V c 2 ⟨0, hn⟩) reset := rfl

theorem scAt_succ (c : Dev nD) (n : ℕ) (hn : n + 1 < cfg1.N) :
    scAt V c (n + 1) hn = stepSt (grid1.coords ⟨n + 1, hn⟩) (iblk1 V c 0 ⟨n + 1, hn⟩) (iblk1 V c 1 ⟨n + 1, hn⟩) (iblk1 V c 2 ⟨n + 1, hn⟩)
      (scAt V c n (Nat.lt_of_succ_lt hn)) := rfl

end Cert.Kernel.R1

end
-- ==== Proof.KbR1Runs.lean ====
/-
  The attention kernel's body, run at one grid point in each of its three control cases.

  The body branches three times on the grid coordinates (batch, query tile, key tile): at key tile 0 it resets the
  three scratch arrays; when the key tile is not after the query tile it folds the tile into them; at key tile 1
  it writes the quotient block.  Over the 2 × 2 (query tile, key tile) points that leaves three cases: key tile 0
  (reset, fold, no write), key tile 1 of query tile 0 (no fold, write) and key tile 1 of query tile 1 (fold,
  write).  Each case is a triple over whole buffers: the three input blocks stay, the scratch goes from a state
  to the state after the point, the output block is kept or written.  Generic in the float instance.
-/
import proofs.«402828_j13597866459507_3_alg».proof.Proof.KbR1Defs
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of these extents: the structural look recurses once per coordinate of the long axes
set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions, from the coordinates -/

/-- "Key tile 0": the condition of the reset. -/
abbrev cond1 (i : grid1.Coords) : Prop :=
  (Scalar.cmpi .ne (Scalar.extui (Scalar.cmpi .eq (BitVec.ofNat 32 (i 2).val) 0#32)) 0#32) = 1#1
/-- "The key tile is not after the query tile": the condition of the fold. -/
abbrev cond2 (i : grid1.Coords) : Prop :=
  (Scalar.cmpi .ne (Scalar.extui (Scalar.cmpi .sle (BitVec.ofNat 32 (i 2).val) (BitVec.ofNat 32 (i 1).val))) 0#32) = 1#1
/-- "Key tile 1": the condition of the write. -/
abbrev cond3 (i : grid1.Coords) : Prop := k1_cond3 i = 1#1

/-- The query-tile coordinate is 0 or 1. -/
theorem qi_cases (i : grid1.Coords) : (i 1).val = 0 ∨ (i 1).val = 1 := by
  have h : (i 1).val < 2 := (i 1).isLt
  omega

theorem cond1_of_zero (i : grid1.Coords) (h2 : (i 2).val = 0) : cond1 i := by
  unfold cond1; rw [h2]; decide
theorem not_cond1_of_one (i : grid1.Coords) (h2 : (i 2).val = 1) : ¬cond1 i := by
  unfold cond1; rw [h2]; decide
theorem cond2_of_zero (i : grid1.Coords) (h2 : (i 2).val = 0) : cond2 i := by
  unfold cond2; rw [h2]; rcases qi_cases i with h | h <;> rw [h] <;> decide
theorem not_cond2_of_one_zero (i : grid1.Coords) (h2 : (i 2).val = 1) (h1 : (i 1).val = 0) : ¬cond2 i := by
  unfold cond2; rw [h2, h1]; decide
theorem cond2_of_one_one (i : grid1.Coords) (h2 : (i 2).val = 1) (h1 : (i 1).val = 1) : cond2 i := by
  unfold cond2; rw [h2, h1]; decide
theorem not_cond3_of_zero (i : grid1.Coords) (h2 : (i 2).val = 0) : ¬cond3 i := by
  unfold cond3 k1_cond3; rw [h2]; decide
theorem cond3_of_one (i : grid1.Coords) (h2 : (i 2).val = 1) : cond3 i := by
  unfold cond3 k1_cond3; rw [h2]; decide

/-! ## Whole-buffer loads and stores, at zero offsets -/

theorem hz2 : (![0, 0] : Fin 2 → Nat) = fun _ => 0 := funext fun a => by fin_cases a <;> rfl
theorem hz3 : (![0, 0, 0] : Fin 3 → Nat) = fun _ => 0 := funext fun a => by fin_cases a <;> rfl

/-- One store through a whole-buffer rectangle covers the buffer. -/
theorem cover_unit {S : Shape} {e : EltTy} {off : Fin S.rank → Nat} (h : off = fun _ => 0)
    (inb : ∀ a, off a + S.size a ≤ S.size a) (w : S.Idx → Elt F e) (L : List (View.Piece (Elt F) S e)) (y : S.Idx) :
    ∃ pc ∈ ((⟨Rect.unit off S.size inb, w⟩ : View.Piece (Elt F) S e) :: L), y ∈ pc.1.set :=
  ⟨_, List.mem_cons_self, View.mem_set_unit_zero h inb y⟩

/-- A load of a whole buffer reads its contents. -/
theorem readAt_whole {S : Shape} {e : EltTy} (m : Memref sig .tc .vmem S e) (f : m.view.ty.Contents (Elt F))
    {off : Fin S.rank → Nat} (h : off = fun _ => 0) (inb : ∀ a, off a + S.size a ≤ S.size a) :
    m.view.readAt (Elt F) (Rect.unit off S.size inb).toLoadRect f = m.view.read (Elt F) f :=
  View.ld_unit_zero h inb _

/-- A load of a whole buffer after one store of the whole buffer reads the stored block. -/
theorem readCov_whole {S : Shape} {e : EltTy} (m : Memref sig .tc .vmem S e)
    {off : Fin S.rank → Nat} (h : off = fun _ => 0) (inb : ∀ a, off a + S.size a ≤ S.size a) (w : S.Idx → Elt F e) :
    m.view.readCov [(⟨Rect.unit off S.size inb, w⟩ : View.Piece (Elt F) S e)] (Rect.unit off S.size inb).toLoadRect = w :=
  View.readCov_unit_zero m.view h inb w

/-- What a whole buffer reads after stores of which the last is of the whole buffer: that store's block. -/
theorem read_writes_whole {S : Shape} {e : EltTy} (m : Memref sig .tc .vmem S e) (f : m.view.ty.Contents (Elt F))
    {off : Fin S.rank → Nat} (h : off = fun _ => 0) (inb : ∀ a, off a + S.size a ≤ S.size a) (w : S.Idx → Elt F e)
    (L : List (View.Piece (Elt F) S e)) :
    m.view.read (Elt F) (m.view.writes (Elt F) f ((⟨Rect.unit off S.size inb, w⟩ : View.Piece (Elt F) S e) :: L)) = w :=
  (View.read_writes_eq_canon _ _ _ (cover_unit h inb w L)).trans (View.canon_cons_unit_zero h inb w L)

set_option maxHeartbeats 4000000 in
/-- Key tile 1 of query tile 0: the tile lies wholly after the query rows, so nothing is folded; the output block is
    written from the state as it stands, which stays. -/
theorem sound_kernel1_B (c : Dev nD) (E : Set ℕ) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole)
    (qb kb vb : Vec F S1x1024x1024 .bf16) (d6 : Vec F S1x1024x1024 .f32) (s : St F) (K : PUnit → sProp 𝕄) (h2 : (i 2).val = 1) (h1 : (i 1).val = 0) :
    iprop(owns (c : Thread nD τ) arg3 fullShare qb ∗ owns (c : Thread nD τ) arg4 fullShare kb ∗ owns (c : Thread nD τ) arg5 fullShare vb ∗ owns (c : Thread nD τ) arg6 fullShare d6 ∗ owns (c : Thread nD τ) arg7 fullShare s.1 ∗ owns (c : Thread nD τ) arg8 fullShare s.2.1 ∗ owns (c : Thread nD τ) arg9 fullShare s.2.2
        ∗ (iprop(owns (c : Thread nD τ) arg3 fullShare qb ∗ owns (c : Thread nD τ) arg4 fullShare kb ∗ owns (c : Thread nD τ) arg5 fullShare vb ∗ owns (c : Thread nD τ) arg6 fullShare (out1_3 s) ∗ owns (c : Thread nD τ) arg7 fullShare (s).1 ∗ owns (c : Thread nD τ) arg8 fullShare (s).2.1 ∗ owns (c : Thread nD τ) arg9 fullShare (s).2.2) -∗ K ⟨⟩))
      ⊢ wp frame (wpE (defs₀ (F := F)) Variants.none c none) E (cc1__flash_kernel i arg3 harg3 arg4 harg4 arg5 harg5 arg6 harg6 arg7 harg7 arg8 harg8 arg9 harg9) K := by
  have hc1 := not_cond1_of_one i h2
  have hc2 := not_cond2_of_one_zero i h2 h1
  have hc3 := cond3_of_one i h2
  obtain ⟨s1, s2, s3⟩ := s
  simp only [cc1__flash_kernel_eq_skeleton]; unfold cc1__flash_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  sl_exec (disch := first | sl_exact hc1 | sl_exact hc2 | sl_exact hc3)
  sl_step
  iapply Hk
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists _; isplitr
    swap; · iexact H6
    ipureintro
    refine (View.read_writes_eq_canon _ _ _ (cover_unit hz3 _ _ _)).trans ?_
    refine (View.canon_unit_zero hz3 _ _).trans ?_
    exact congrArg₂ k1_pay7 ((View.ld_unit_zero (S := S1024x1024) hz2 _ _).trans hf9)
      ((View.ld_unit_zero (S := S1024x1) hz2 _ _).trans hf8)
  isplitl [H7]
  · iexists f7; isplitr; · ipureintro; exact hf7
    iexact H7
  isplitl [H8]
  · iexists f8; isplitr; · ipureintro; exact hf8
    iexact H8
  iexists f9; isplitr; · ipureintro; exact hf9
  iexact H9

set_option maxHeartbeats 4000000 in
/-- Key tile 0: the scratch is reset, the tile folded in; the output block is not touched. -/
theorem sound_kernel1_A (c : Dev nD) (E : Set ℕ) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole)
    (qb kb vb : Vec F S1x1024x1024 .bf16) (d6 : Vec F S1x1024x1024 .f32) (s : St F) (K : PUnit → sProp 𝕄) (h2 : (i 2).val = 0) :
    iprop(owns (c : Thread nD τ) arg3 fullShare qb ∗ owns (c : Thread nD τ) arg4 fullShare kb ∗ owns (c : Thread nD τ) arg5 fullShare vb ∗ owns (c : Thread nD τ) arg6 fullShare d6 ∗ owns (c : Thread nD τ) arg7 fullShare s.1 ∗ owns (c : Thread nD τ) arg8 fullShare s.2.1 ∗ owns (c : Thread nD τ) arg9 fullShare s.2.2
        ∗ (iprop(owns (c : Thread nD τ) arg3 fullShare qb ∗ owns (c : Thread nD τ) arg4 fullShare kb ∗ owns (c : Thread nD τ) arg5 fullShare vb ∗ owns (c : Thread nD τ) arg6 fullShare d6 ∗ owns (c : Thread nD τ) arg7 fullShare (upd i qb kb vb reset).1 ∗ owns (c : Thread nD τ) arg8 fullShare (upd i qb kb vb reset).2.1 ∗ owns (c : Thread nD τ) arg9 fullShare (upd i qb kb vb reset).2.2) -∗ K ⟨⟩))
      ⊢ wp frame (wpE (defs₀ (F := F)) Variants.none c none) E (cc1__flash_kernel i arg3 harg3 arg4 harg4 arg5 harg5 arg6 harg6 arg7 harg7 arg8 harg8 arg9 harg9) K := by
  have hc1 := cond1_of_zero i h2
  have hc2 := cond2_of_zero i h2
  have hc3 := not_cond3_of_zero i h2
  simp only [cc1__flash_kernel_eq_skeleton]; unfold cc1__flash_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  sl_exec (disch := first | sl_exact hc1 | sl_exact hc2 | sl_exact hc3)
  sl_step
  iapply Hk
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists _; isplitr
    swap; · iexact H7
    ipureintro
    sl_unfold_run_names
    refine (read_writes_whole arg7 f7 hz2 _ _ _).trans ?_
    rw [readAt_whole arg3 f3 hz3, readAt_whole arg4 f4 hz3, hf3, hf4, readCov_whole arg7 hz2]
    rfl
  isplitl [H8]
  · iexists _; isplitr
    swap; · iexact H8
    ipureintro
    sl_unfold_run_names
    refine (read_writes_whole arg8 f8 hz2 _ _ _).trans ?_
    rw [readAt_whole arg3 f3 hz3, readAt_whole arg4 f4 hz3, hf3, hf4, readCov_whole arg7 hz2, readCov_whole arg8 hz2]
    rfl
  iexists _; isplitr
  swap; · iexact H9
  ipureintro
  sl_unfold_run_names
  refine (read_writes_whole arg9 f9 hz2 _ _ _).trans ?_
  rw [readAt_whole arg3 f3 hz3, readAt_whole arg4 f4 hz3, hf3, hf4, readAt_whole arg5 f5 hz3, hf5, readCov_whole arg7 hz2, readCov_whole arg9 hz2]
  rfl

set_option maxHeartbeats 4000000 in
/-- Key tile 1 of query tile 1: the tile is folded into the state, and the output block written from the new state. -/
theorem sound_kernel1_C (c : Dev nD) (E : Set ℕ) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole)
    (qb kb vb : Vec F S1x1024x1024 .bf16) (d6 : Vec F S1x1024x1024 .f32) (s : St F) (K : PUnit → sProp 𝕄) (h2 : (i 2).val = 1) (h1 : (i 1).val = 1) :
    iprop(owns (c : Thread nD τ) arg3 fullShare qb ∗ owns (c : Thread nD τ) arg4 fullShare kb ∗ owns (c : Thread nD τ) arg5 fullShare vb ∗ owns (c : Thread nD τ) arg6 fullShare d6 ∗ owns (c : Thread nD τ) arg7 fullShare s.1 ∗ owns (c : Thread nD τ) arg8 fullShare s.2.1 ∗ owns (c : Thread nD τ) arg9 fullShare s.2.2
        ∗ (iprop(owns (c : Thread nD τ) arg3 fullShare qb ∗ owns (c : Thread nD τ) arg4 fullShare kb ∗ owns (c : Thread nD τ) arg5 fullShare vb ∗ owns (c : Thread nD τ) arg6 fullShare (out1_3 (upd i qb kb vb s)) ∗ owns (c : Thread nD τ) arg7 fullShare (upd i qb kb vb s).1 ∗ owns (c : Thread nD τ) arg8 fullShare (upd i qb kb vb s).2.1 ∗ owns (c : Thread nD τ) arg9 fullShare (upd i qb kb vb s).2.2) -∗ K ⟨⟩))
      ⊢ wp frame (wpE (defs₀ (F := F)) Variants.none c none) E (cc1__flash_kernel i arg3 harg3 arg4 harg4 arg5 harg5 arg6 harg6 arg7 harg7 arg8 harg8 arg9 harg9) K := by
  have hc1 := not_cond1_of_one i h2
  have hc2 := cond2_of_one_one i h2 h1
  have hc3 := cond3_of_one i h2
  simp only [cc1__flash_kernel_eq_skeleton]; unfold cc1__flash_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  sl_exec (disch := first | sl_exact hc1 | sl_exact hc2 | sl_exact hc3)
  sl_step
  iapply Hk
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists _; isplitr
    swap; · iexact H6
    ipureintro
    sl_unfold_run_names
    refine (read_writes_whole arg6 f6 hz3 _ _ _).trans ?_
    rw [readCov_whole arg9 hz2, readCov_whole arg8 hz2, readAt_whole arg3 f3 hz3, readAt_whole arg4 f4 hz3, hf3, hf4, readAt_whole arg5 f5 hz3, hf5, readAt_whole arg7 f7 hz2, hf7, readAt_whole arg8 f8 hz2, hf8, readAt_whole arg9 f9 hz2, hf9]
    rfl
  isplitl [H7]
  · iexists _; isplitr
    swap; · iexact H7
    ipureintro
    sl_unfold_run_names
    refine (read_writes_whole arg7 f7 hz2 _ _ _).trans ?_
    rw [readAt_whole arg3 f3 hz3, readAt_whole arg4 f4 hz3, hf3, hf4, readAt_whole arg7 f7 hz2, hf7]
    rfl
  isplitl [H8]
  · iexists _; isplitr
    swap; · iexact H8
    ipureintro
    sl_unfold_run_names
    refine (read_writes_whole arg8 f8 hz2 _ _ _).trans ?_
    rw [readAt_whole arg3 f3 hz3, readAt_whole arg4 f4 hz3, hf3, hf4, readAt_whole arg7 f7 hz2, hf7, readAt_whole arg8 f8 hz2, hf8]
    rfl
  iexists _; isplitr
  swap; · iexact H9
  ipureintro
  sl_unfold_run_names
  refine (read_writes_whole arg9 f9 hz2 _ _ _).trans ?_
  rw [readAt_whole arg3 f3 hz3, readAt_whole arg4 f4 hz3, hf3, hf4, readAt_whole arg5 f5 hz3, hf5, readAt_whole arg7 f7 hz2, hf7, readAt_whole arg9 f9 hz2, hf9]
  rfl

end Cert.Kernel.R1

end
-- ==== Proof.KbR1.lean ====
/-
  The attention call as a pipeline: its proof data, its invariant and its body obligation.

  The call visits the grid (batch, query tile, key tile) = 4 × 2 × 2, the key tile innermost, and carries three
  scratch arrays from point to point.  The proof data say what every window's current buffer holds after the body at
  each point: an input window its block; the output window the quotient block of the state after the point.  The
  invariant before a point holds the three scratch arrays at the state the point before left (before the first
  point: at anything), every other scoped buffer that is no staging buffer of this call at some contents, and the
  generator register at some state.  The body obligation follows from the body's three control cases: at key tile
  0 the scratch is reset and the tile folded in, the output window idle and handed back as found; at key tile 1 of
  the first query tile the state stays and the output block is written; at key tile 1 of the second query tile the
  tile is folded in and the output block written.  Generic in the float instance.
-/
import proofs.«402828_j13597866459507_3_alg».proof.Proof.KbR1Runs

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The grid's points -/

/-- The key tile of point `t` is `t mod 2`. -/
theorem coord2 : ∀ t : Fin cfg1.N, ((grid1.coords t) 2).val = t.val % 2 :=
  (by decide +kernel : ∀ t : Fin grid1.N, ((grid1.coords t) 2).val = t.val % 2)

/-- The query tile of point `t` is `(t / 2) mod 2`. -/
theorem coord1 : ∀ t : Fin cfg1.N, ((grid1.coords t) 1).val = (t.val / 2) % 2 :=
  (by decide +kernel : ∀ t : Fin grid1.N, ((grid1.coords t) 1).val = (t.val / 2) % 2)

/-! ## Where the windows are idle -/

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At key tile 0 the output window is idle: the body stores nothing into it there, -/
theorem idleAt1_3 : ∀ t : Fin cfg1.N, t.val % 2 = 0 → cfg1.idle 3 (grid1.coords t) = true :=
  (by decide +kernel : ∀ t : Fin grid1.N, t.val % 2 = 0 → cfg1.idle 3 (grid1.coords t) = true)
/-- and the pipeline does not write its block back. -/
theorem noFlush1_3 (t : Fin cfg1.N) (h : t.val % 2 = 0) : (cfg1.win 3).flush t = false :=
  Bool.eq_false_iff.mpr fun hf => by have := (flush1_3 t).mp hf; omega
/-- At key tile 1 the output window is live. -/
theorem liveAt1_3 : ∀ t : Fin cfg1.N, t.val % 2 = 1 → cfg1.idle 3 (grid1.coords t) = false :=
  (by decide +kernel : ∀ t : Fin grid1.N, t.val % 2 = 1 → cfg1.idle 3 (grid1.coords t) = false)

/-! ## The scratch operands and the invariant -/

/-- The scratch operands: whole scoped buffers of the kernel's own, passed beside the windows. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2

/-- Every scoped buffer of the core that is neither a staging buffer of this call nor one of its three scratch
    arrays (the first call's staging buffers), each at some contents: they ride along untouched. -/
def Rest14 (c : Dev nD) : sProp 𝕄 :=
  Pipeline.scopedRestBut (Ix := Unit) (Name := ℕ) (U := UR sig nD τ) (Lvl := ℕ) (Val := Elt F) spec1 c [cc1_scratch0, cc1_scratch1, cc1_scratch2]

/-- The class's invariant with the three scratch operands as memrefs owned at some contents and the other scoped
    buffers as one assertion: what the body obligation hands the body's runs and takes back. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d)) ∗ Rest14 (F := F) c) ∗ (∃ r, prngReg c r)) := by
  unfold Pipeline.ΦA Rest14
  rw [Pipeline.scopedRest_split_of_list spec1 c [cc1_scratch0, cc1_scratch1, cc1_scratch2] (by decide) (by decide)]
  simp only [bigSepL_cons_cons, bigSepL_singleton, scM1_0, scM1_1, scM1_2, owns_whole]
  try rfl

-- the TensorCore's buffer contents when the region is entered
variable (V : (c : Dev nD) → (b : Ref sig .tc) → Buf (Elt F) ((c : Thread nD τ).loc b))

/-! ## The input windows' buffers -/

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of input window 1 (the key block: its index is the smaller of the key tile and the query tile). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same of input window 2 (the value block, at the key block's index). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The invariant before position `n`: before the first point the class's (every scratch at anything); afterwards
    the three scratch arrays at the state the point before left, the other scoped buffers at anything, and the
    generator register at some state. -/
def Phi1 (c : Dev nD) : (n : ℕ) → n ≤ cfg1.N → sProp 𝕄
  | 0, _ => Pipeline.ΦA spec1 c
  | n + 1, hn => iprop(iprop(iprop(owns (c : Thread nD τ) scM1_0 fullShare (scAt V c n hn).1 ∗ owns (c : Thread nD τ) scM1_1 fullShare (scAt V c n hn).2.1 ∗ owns (c : Thread nD τ) scM1_2 fullShare (scAt V c n hn).2.2) ∗ Rest14 (F := F) c) ∗ (∃ r, prngReg c r))

theorem Phi1_zero (c : Dev nD) (n : ℕ) (h : n ≤ cfg1.N) (hz : n = 0) : Phi1 V c n h = Pipeline.ΦA spec1 c := by
  subst hz; rfl

/-- After point `n` (before point `n + 1`): the scratch at that point's state. -/
theorem Phi1_succ (c : Dev nD) (n : ℕ) (hn : n < cfg1.N) :
    Phi1 V c (n + 1) hn = iprop(iprop(iprop(owns (c : Thread nD τ) scM1_0 fullShare (scAt V c n hn).1 ∗ owns (c : Thread nD τ) scM1_1 fullShare (scAt V c n hn).2.1 ∗ owns (c : Thread nD τ) scM1_2 fullShare (scAt V c n hn).2.2) ∗ Rest14 (F := F) c) ∗ (∃ r, prngReg c r)) := rfl

/-- Before a point that is not the first: the scratch at the state the point before left. -/
theorem Phi1_pos (c : Dev nD) (n : ℕ) (h : n ≤ cfg1.N) (hz : n ≠ 0) :
    Phi1 V c n h = iprop(iprop(iprop(owns (c : Thread nD τ) scM1_0 fullShare (scAt V c (n - 1) (by omega)).1 ∗ owns (c : Thread nD τ) scM1_1 fullShare (scAt V c (n - 1) (by omega)).2.1 ∗ owns (c : Thread nD τ) scM1_2 fullShare (scAt V c (n - 1) (by omega)).2.2) ∗ Rest14 (F := F) c) ∗ (∃ r, prngReg c r)) := by
  cases n with
  | zero => exact absurd rfl hz
  | succ n => rfl

/-! ## The pipeline's proof data -/

/-- The proof data of the attention call on core `c`: the arrays as the region finds them; after the body at point
    `t` each input's buffer at its block and the output's at the quotient block of the state after the point; the
    invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (scAt V c t.val t.isLt)
  Φ t := Phi1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's position. -/
theorem Phi1_castSucc (c : Dev nD) (t : Fin cfg1.N) :
    (dat1 V c).Φ t.castSucc = Phi1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (scAt V c t.val t.isLt) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- A live input window's buffer is left at its block. -/
theorem leaves1_0 (c : Dev nD) (t : Fin cfg1.N) :
    (dat1 V c).leavesExact 0 t = owns (c : Thread nD τ) (st1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (st1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (st1_2 t) fullShare (iblk1 V c 2 t) := by
  unfold Dat.leavesExact; rw [liveAt1_2 t, after1_2]
/-- At key tile 1 the output window's buffer is left at the quotient block of the state after the point. -/
theorem leaves1_3 (c : Dev nD) (t : Fin cfg1.N) (h : t.val % 2 = 1) :
    (dat1 V c).leavesExact 3 t = owns (c : Thread nD τ) (st1_3 t) fullShare (out1_3 (scAt V c t.val t.isLt)) := by
  unfold Dat.leavesExact; rw [liveAt1_3 t h, after1_3]

/-! ## The state after a point, by the point's case -/

/-- After a point that is not the first: the point's step on what the point before left. -/
theorem scAt_pos (c : Dev nD) (t : Fin cfg1.N) (hz : t.val ≠ 0) :
    scAt V c t.val t.isLt = stepSt (grid1.coords t) (iblk1 V c 0 t) (iblk1 V c 1 t) (iblk1 V c 2 t)
      (scAt V c (t.val - 1) (Nat.lt_of_le_of_lt (Nat.sub_le _ _) t.isLt)) := by
  obtain ⟨n, hn⟩ := t
  cases n with
  | zero => exact absurd rfl hz
  | succ n => rfl

/-- At key tile 0: the reset state with the tile folded in. -/
theorem scAt_A (c : Dev nD) (t : Fin cfg1.N) (h2 : ((grid1.coords t) 2).val = 0) :
    scAt V c t.val t.isLt = upd (grid1.coords t) (iblk1 V c 0 t) (iblk1 V c 1 t) (iblk1 V c 2 t) reset := by
  obtain ⟨n, hn⟩ := t
  cases n with
  | zero => exact (scAt_zero V c hn).trans (by unfold stepSt; exact if_pos h2)
  | succ n => exact (scAt_succ V c n hn).trans (by unfold stepSt; exact if_pos h2)

/-- At key tile 1 of the first query tile: the state the point before left. -/
theorem scAt_B (c : Dev nD) (t : Fin cfg1.N) (hz : t.val ≠ 0) (h2 : ((grid1.coords t) 2).val = 1) (h1 : ((grid1.coords t) 1).val = 0) :
    scAt V c t.val t.isLt = scAt V c (t.val - 1) (Nat.lt_of_le_of_lt (Nat.sub_le _ _) t.isLt) :=
  (scAt_pos V c t hz).trans (by unfold stepSt; rw [if_neg (by omega), if_pos h1])

/-- At key tile 1 of the second query tile: the tile folded into the state the point before left. -/
theorem scAt_C (c : Dev nD) (t : Fin cfg1.N) (hz : t.val ≠ 0) (h2 : ((grid1.coords t) 2).val = 1) (h1 : ((grid1.coords t) 1).val = 1) :
    scAt V c t.val t.isLt = upd (grid1.coords t) (iblk1 V c 0 t) (iblk1 V c 1 t) (iblk1 V c 2 t)
      (scAt V c (t.val - 1) (Nat.lt_of_le_of_lt (Nat.sub_le _ _) t.isLt)) :=
  (scAt_pos V c t hz).trans (by unfold stepSt; rw [if_neg (by omega), if_neg (by omega)])

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point. The inputs' memrefs hold their blocks; the point's position says which of the three cases
    it is in; the invariant hands the body the scratch at the state the point before left (at anything before the first
    point, which is at key tile 0 and resets it) and takes it back at this point's state; at key tile 0 the output
    window's buffer is handed back as found, at key tile 1 it holds the quotient block of the point's state; the core
    owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Phi1 V c (t.val + 1) t.isLt from rfl, Phi1_succ]
  rw [leaves1_0, leaves1_1, leaves1_2]
  have hN : t.val < 16 := lt_of_lt_of_eq t.isLt (show cfg1.N = 16 from N_1)
  have hk := coord2 t
  have hq := coord1 t
  by_cases h2 : t.val % 2 = 0
  · -- key tile 0
    rw [Dat.leavesExact_idle (dat1 V c) 3 t (idleAt1_3 t h2) (noFlush1_3 t h2)]
    rw [scAt_A V c t (hk.trans h2)]
    by_cases hz : t.val = 0
    · rw [Phi1_castSucc V c t, Phi1_zero V c _ _ hz, PhiA1_eq]
      iintro ⟨⟨⟨⟨⟨%e0, HS0⟩, ⟨%e1, HS1⟩, ⟨%e2, HS2⟩⟩, HR⟩, Hg⟩, Ho, ⟨%d0, H0⟩, ⟨%d1, H1⟩, ⟨%d2, H2⟩, ⟨%d3, H3⟩⟩
      iapply (sound_kernel1_A c Set.univ (grid1.coords t) _ _ _ _ _ _ _ _ _ _ _ _ _ _ (iblk1 V c 0 t) (iblk1 V c 1 t) (iblk1 V c 2 t)
        ((dat1 V c).before 3 t d3) (e0, e1, e2) _ (hk.trans h2))
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 HR Hg]
      · isplitl [HS0 HS1 HS2 HR]
        · isplitl [HS0 HS1 HS2]
          · isplitl [HS0]; · iexact HS0
            isplitl [HS1]; · iexact HS1
            iexact HS2
          iexact HR
        iexact Hg
      isplitl [Ho]; · iexact Ho
      isplitl [H0]; · iexact H0
      isplitl [H1]; · iexact H1
      isplitl [H2]; · iexact H2
      iexists _; iexact H3
    · rw [Phi1_castSucc V c t, Phi1_pos V c _ _ hz]
      iintro ⟨⟨⟨⟨HS0, HS1, HS2⟩, HR⟩, Hg⟩, Ho, ⟨%d0, H0⟩, ⟨%d1, H1⟩, ⟨%d2, H2⟩, ⟨%d3, H3⟩⟩
      iapply (sound_kernel1_A c Set.univ (grid1.coords t) _ _ _ _ _ _ _ _ _ _ _ _ _ _ (iblk1 V c 0 t) (iblk1 V c 1 t) (iblk1 V c 2 t)
        ((dat1 V c).before 3 t d3) (scAt V c (t.val - 1) (Nat.lt_of_le_of_lt (Nat.sub_le _ _) t.isLt)) _ (hk.trans h2))
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 HR Hg]
      · isplitl [HS0 HS1 HS2 HR]
        · isplitl [HS0 HS1 HS2]
          · isplitl [HS0]; · iexact HS0
            isplitl [HS1]; · iexact HS1
            iexact HS2
          iexact HR
        iexact Hg
      isplitl [Ho]; · iexact Ho
      isplitl [H0]; · iexact H0
      isplitl [H1]; · iexact H1
      isplitl [H2]; · iexact H2
      iexists _; iexact H3
  · have h2' : t.val % 2 = 1 := by omega
    have hz : t.val ≠ 0 := by omega
    rw [leaves1_3 V c t h2']
    rw [Phi1_castSucc V c t, Phi1_pos V c _ _ hz]
    by_cases h1 : (t.val / 2) % 2 = 0
    · -- key tile 1 of the first query tile
      rw [scAt_B V c t hz (hk.trans h2') (hq.trans h1)]
      iintro ⟨⟨⟨⟨HS0, HS1, HS2⟩, HR⟩, Hg⟩, Ho, ⟨%d0, H0⟩, ⟨%d1, H1⟩, ⟨%d2, H2⟩, ⟨%d3, H3⟩⟩
      iapply (sound_kernel1_B c Set.univ (grid1.coords t) _ _ _ _ _ _ _ _ _ _ _ _ _ _ (iblk1 V c 0 t) (iblk1 V c 1 t) (iblk1 V c 2 t)
        ((dat1 V c).before 3 t d3) (scAt V c (t.val - 1) (Nat.lt_of_le_of_lt (Nat.sub_le _ _) t.isLt)) _ (hk.trans h2') (hq.trans h1))
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 HR Hg]
      · isplitl [HS0 HS1 HS2 HR]
        · isplitl [HS0 HS1 HS2]
          · isplitl [HS0]; · iexact HS0
            isplitl [HS1]; · iexact HS1
            iexact HS2
          iexact HR
        iexact Hg
      isplitl [Ho]; · iexact Ho
      isplitl [H0]; · iexact H0
      isplitl [H1]; · iexact H1
      isplitl [H2]; · iexact H2
      iexact H3
    · -- key tile 1 of the second query tile
      have h1' : (t.val / 2) % 2 = 1 := by omega
      rw [scAt_C V c t hz (hk.trans h2') (hq.trans h1')]
      iintro ⟨⟨⟨⟨HS0, HS1, HS2⟩, HR⟩, Hg⟩, Ho, ⟨%d0, H0⟩, ⟨%d1, H1⟩, ⟨%d2, H2⟩, ⟨%d3, H3⟩⟩
      iapply (sound_kernel1_C c Set.univ (grid1.coords t) _ _ _ _ _ _ _ _ _ _ _ _ _ _ (iblk1 V c 0 t) (iblk1 V c 1 t) (iblk1 V c 2 t)
        ((dat1 V c).before 3 t d3) (scAt V c (t.val - 1) (Nat.lt_of_le_of_lt (Nat.sub_le _ _) t.isLt)) _ (hk.trans h2') (hq.trans h1'))
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 HR Hg]
      · isplitl [HS0 HS1 HS2 HR]
        · isplitl [HS0 HS1 HS2]
          · isplitl [HS0]; · iexact HS0
            isplitl [HS1]; · iexact HS1
            iexact HS2
          iexact HR
        iexact Hg
      isplitl [Ho]; · iexact Ho
      isplitl [H0]; · iexact H0
      isplitl [H1]; · iexact H1
      isplitl [H2]; · iexact H2
      iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After any point but the first the invariant gives the class's back: the scratch's named contents are forgotten. -/
theorem Phi1_out (c : Dev nD) (t : Fin (cfg1.N + 1)) (ht : t.val ≠ 0) : (dat1 V c).Φ t ⊢ Pipeline.ΦA spec1 c := by
  rw [show (dat1 V c).Φ t = Phi1 V c t.val (Nat.le_of_lt_succ t.isLt) from rfl, Phi1_pos V c _ _ ht, PhiA1_eq]
  iintro ⟨⟨⟨HS0, HS1, HS2⟩, HR⟩, Hg⟩
  isplitl [HS0 HS1 HS2 HR]
  · isplitl [HS0 HS1 HS2]
    · isplitl [HS0]; · iexists _; iexact HS0
      isplitl [HS1]; · iexists _; iexact HS1
      iexists _; iexact HS2
    iexact HR
  iexact Hg

/-- The same after the last point. -/
theorem hout1 (c : Dev nD) : (dat1 V c).Φ (Fin.last cfg1.N) ⊢ Pipeline.ΦA spec1 c :=
  Phi1_out V c _ (by rw [Fin.val_last]; have : cfg1.N = 16 := N_1; omega)

end Cert.Kernel.R1

end
-- ==== Proof.KbRun.lean ====
/-
  Both pallas_calls run to the end.

  @main is a stretch of nine host operations (three weight transposes, their casts, three bias reshapes), the
  projection call and the attention call.  Between two of these items a TensorCore holds every unscoped buffer at
  contents named here: the launch memory; then what the host operations leave; then, after a call, each of the call's
  windowed arrays at what its write-backs leave and every other buffer as before.  Each call is entered from the
  contents before it and left at the contents after it; the generator register and the core owing nothing ride
  along.  The conclusion: every execution terminates, faults nowhere, and ends with every unscoped buffer at the last
  of these contents — from which the argument arrays are read back unchanged and the result array is what the
  attention call's write-backs leave.
-/
import proofs.«402828_j13597866459507_3_alg».proof.Proof.KbBound
import proofs.«402828_j13597866459507_3_alg».proof.Proof.KbR1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents after the attention call -/

/-- After the attention call. -/
def Wy (c : Dev nD) : Valuation τ sig (Elt F) :=
  Pipeline.withArrays spec1 c (Wq m c) fun w => (R1.dat1 (Vq m) c).arrAt w cfg1.N
theorem Wy_arr (c : Dev nD) (w : Fin cfg1.W) :
    Wy m c (Proc.devRef .tc (Pipeline.arrRef spec1 w)) = (R1.dat1 (Vq m) c).arrAt w cfg1.N := by
  unfold Wy; exact Pipeline.withArrays_arr spec1 launch1.win.arr_inj c _ _ w
theorem Wy_of_ne (c : Dev nD) (b : Ref sig .tc) (hb : ∀ w, Pipeline.arrRef spec1 w ≠ b) :
    Wy m c (Proc.devRef .tc b) = Wq m c (Proc.devRef .tc b) := by
  unfold Wy; exact Pipeline.withArrays_of_ne spec1 c _ _ b hb
abbrev Vy : (c : Dev nD) → (b : Ref sig .tc) → Buf (Elt F) ((c : Thread nD τ).loc b) := fun c b => Wy m c b
theorem hF1 (c : Dev nD) (w : Fin cfg1.W) : (R1.dat1 (Vq m) c).arrAt w cfg1.N = Vy m c (Pipeline.arrRef spec1 w) :=
  (Wy_arr m c w).symm
theorem hrest1 (c : Dev nD) : ∀ b, b ∉ Finset.univ.image (Pipeline.arrRef spec1) → Vy m c b = Vq m c b :=
  fun b hb => Wy_of_ne m c b fun w e => hb (Finset.mem_image.mpr ⟨w, Finset.mem_univ _, e⟩)

/-! ## No item writes an argument array -/

theorem Wy_main_arg0 (c : Dev nD) : Wy m c (Proc.devRef .tc main_arg0) = m ((c : Thread nD τ).loc main_arg0) :=
  calc Wy m c (Proc.devRef .tc main_arg0)
    _ = Wq m c (Proc.devRef .tc main_arg0) := Wy_of_ne m c main_arg0 (by decide)
    _ = Wh m c (Proc.devRef .tc main_arg0) := (Wq_arr m c 0).trans (((R0.dat0 (Vh m) c).arrAt_in 0 rfl _).trans (R0.A_eq0 (Vh m) c 0))
    _ = Wl m c (Proc.devRef .tc main_arg0) := after_host_keeps m c main_arg0 (by decide)
    _ = m ((c : Thread nD τ).loc main_arg0) := rfl

theorem Wy_main_arg1 (c : Dev nD) : Wy m c (Proc.devRef .tc main_arg1) = m ((c : Thread nD τ).loc main_arg1) :=
  calc Wy m c (Proc.devRef .tc main_arg1)
    _ = Wq m c (Proc.devRef .tc main_arg1) := Wy_of_ne m c main_arg1 (by decide)
    _ = Wh m c (Proc.devRef .tc main_arg1) := Wq_of_ne m c main_arg1 (by decide)
    _ = Wl m c (Proc.devRef .tc main_arg1) := after_host_keeps m c main_arg1 (by decide)
    _ = m ((c : Thread nD τ).loc main_arg1) := rfl

theorem Wy_main_arg2 (c : Dev nD) : Wy m c (Proc.devRef .tc main_arg2) = m ((c : Thread nD τ).loc main_arg2) :=
  calc Wy m c (Proc.devRef .tc main_arg2)
    _ = Wq m c (Proc.devRef .tc main_arg2) := Wy_of_ne m c main_arg2 (by decide)
    _ = Wh m c (Proc.devRef .tc main_arg2) := Wq_of_ne m c main_arg2 (by decide)
    _ = Wl m c (Proc.devRef .tc main_arg2) := after_host_keeps m c main_arg2 (by decide)
    _ = m ((c : Thread nD τ).loc main_arg2) := rfl

theorem Wy_main_arg3 (c : Dev nD) : Wy m c (Proc.devRef .tc main_arg3) = m ((c : Thread nD τ).loc main_arg3) :=
  calc Wy m c (Proc.devRef .tc main_arg3)
    _ = Wq m c (Proc.devRef .tc main_arg3) := Wy_of_ne m c main_arg3 (by decide)
    _ = Wh m c (Proc.devRef .tc main_arg3) := Wq_of_ne m c main_arg3 (by decide)
    _ = Wl m c (Proc.devRef .tc main_arg3) := after_host_keeps m c main_arg3 (by decide)
    _ = m ((c : Thread nD τ).loc main_arg3) := rfl

theorem Wy_main_arg4 (c : Dev nD) : Wy m c (Proc.devRef .tc main_arg4) = m ((c : Thread nD τ).loc main_arg4) :=
  calc Wy m c (Proc.devRef .tc main_arg4)
    _ = Wq m c (Proc.devRef .tc main_arg4) := Wy_of_ne m c main_arg4 (by decide)
    _ = Wh m c (Proc.devRef .tc main_arg4) := Wq_of_ne m c main_arg4 (by decide)
    _ = Wl m c (Proc.devRef .tc main_arg4) := after_host_keeps m c main_arg4 (by decide)
    _ = m ((c : Thread nD τ).loc main_arg4) := rfl

theorem Wy_main_arg5 (c : Dev nD) : Wy m c (Proc.devRef .tc main_arg5) = m ((c : Thread nD τ).loc main_arg5) :=
  calc Wy m c (Proc.devRef .tc main_arg5)
    _ = Wq m c (Proc.devRef .tc main_arg5) := Wy_of_ne m c main_arg5 (by decide)
    _ = Wh m c (Proc.devRef .tc main_arg5) := Wq_of_ne m c main_arg5 (by decide)
    _ = Wl m c (Proc.devRef .tc main_arg5) := after_host_keeps m c main_arg5 (by decide)
    _ = m ((c : Thread nD τ).loc main_arg5) := rfl

theorem Wy_main_arg6 (c : Dev nD) : Wy m c (Proc.devRef .tc main_arg6) = m ((c : Thread nD τ).loc main_arg6) :=
  calc Wy m c (Proc.devRef .tc main_arg6)
    _ = Wq m c (Proc.devRef .tc main_arg6) := Wy_of_ne m c main_arg6 (by decide)
    _ = Wh m c (Proc.devRef .tc main_arg6) := Wq_of_ne m c main_arg6 (by decide)
    _ = Wl m c (Proc.devRef .tc main_arg6) := after_host_keeps m c main_arg6 (by decide)
    _ = m ((c : Thread nD τ).loc main_arg6) := rfl

/-! ## The proof data of both calls, and what rides along -/

/-- Neither call has a prefetched table. -/
abbrev adm : (p : Fin 2) → (pcfgs (F := F) p).Adm := fun p => (cfgs p).toPCfg_adm
/-- Each call's proof data at the contents the call is entered from. -/
def pdats : (p : Fin 2) → (c : Dev nD) → Dat τ (Elt F) Unit ℕ (UR sig nD τ) ℕ (Pipeline.pin (pcfgs (F := F)) adm p) c
  | ⟨0, _⟩ => fun c => R0.dat0 (Vh m) c
  | ⟨1, _⟩ => fun c => R1.dat1 (Vq m) c
abbrev 𝒱₀ : Variants := Variants.none
/-- No core owes another anything. -/
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor

/-- The host stretch as a segment over the unscoped references. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (Wl m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last state without the owing: every unscoped buffer at the last contents, the generator register at some state. -/
abbrev Tend (c : Dev nD) : sProp 𝕄 := iprop(StableHlo.held (c : Thread nD τ) (Pipeline.ucRefs τ sig) (Wy m c) ∗ ∃ r, prngReg c r)

/-! ## The two calls as segments -/

set_option backward.isDefEq.respectTransparency.types false in
/-- The projection call: entered with every unscoped buffer at the contents after the host operations, left at the
    contents after it; its arrays split out of the unscoped buffers and put back; the generator register into the
    invariant and out; nothing owed; no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (Vh m) c).loose
  hwaits := Pipeline.hwaits_of_owed_zero _ _ _ _ L lv 0 fun _ _ => rfl
  pre c := iprop(StableHlo.held (c : Thread nD τ) (Pipeline.ucRefs τ sig) (Wh m c) ∗ R c)
  post c := iprop(StableHlo.held (c : Thread nD τ) (Pipeline.ucRefs τ sig) (Wq m c) ∗ R c)
  X c := iprop(∃ r, prngReg c r)
  Y c := iprop(∃ r, prngReg c r)
  Z c := Pipeline.unscopedRest (Ix := Unit) (Name := ℕ) (U := UR sig nD τ) (Lvl := ℕ) spec0 c (Vh m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vh m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vh m c) (Vq m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the launch hands a call beside its arrays — the generator register and the scoped buffers that are no
    staging buffer of the call — is the call's plain invariant. -/
theorem phiA1_of (c : Dev nD) :
    iprop((∃ r, prngReg c r) ∗ Pipeline.prefHeld (pcfgs (F := F) 1).pre c (fun _ => fullShare) (adm (F := F) 1).1
        ∗ Pipeline.scopedRest (Pipeline.pin (pcfgs (F := F)) adm 1).spec c)
      ⊢ (Pipeline.ΦA spec1 c : sProp 𝕄) := by
  unfold Pipeline.ΦA
  iintro ⟨Hp, -, Hr⟩
  isplitl [Hr]; · iexact Hr
  iexact Hp

set_option backward.isDefEq.respectTransparency.types false in
/-- The attention call: entered from the contents after the projection call, left at the last contents. Its
    invariant carries the three scratch arrays from point to point; it starts as the plain invariant and ends as it. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (Vq m) c).loose
  hwaits := Pipeline.hwaits_of_owed_zero _ _ _ _ L lv 1 fun _ _ => rfl
  pre c := iprop(StableHlo.held (c : Thread nD τ) (Pipeline.ucRefs τ sig) (Wq m c) ∗ R c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vq m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vq m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA1_of c).trans (R1.hin1 (Vq m) c)
  hout c := by
    rw [Pipeline.ownSems0_none]
    refine (R1.hout1 (Vq m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vq m c) (Vy m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg0 m), .region (reg0 m), .region (reg1 m) ]

/-- @main is the run of these segments. -/
theorem main_run (c : Dev nD) : main (F := F) c = Pipeline.Seg.run (segs m) := (main_chain c).trans (by chain_rfl)

set_option backward.isDefEq.respectTransparency.types false in
/-- From any memory with zero counters every weakly fair execution of @main terminates, nothing faulting, and every
    final state holds every unscoped buffer at the contents after the attention call. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wy m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wl m c) ∗ R c)) (Tₙ := Tend m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wl m c)
        from Pipeline.unscopedBufs_held c (Wl m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wy m c b)
    (hfin := fun c s' => by
      iintro ⟨⟨Hh, -⟩, HSI⟩
      unfold StableHlo.held
      imodintro
      iapply (pointsTo_read_all (Pipeline.ucRefs τ sig) (fun b => (((c : Thread nD τ)).1, b)) (Wy m c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (Wy_main_arg0 m c),
     (h c _ (mem_uc main_arg1 (by decide))).trans (Wy_main_arg1 m c),
     (h c _ (mem_uc main_arg2 (by decide))).trans (Wy_main_arg2 m c),
     (h c _ (mem_uc main_arg3 (by decide))).trans (Wy_main_arg3 m c),
     (h c _ (mem_uc main_arg4 (by decide))).trans (Wy_main_arg4 m c),
     (h c _ (mem_uc main_arg5 (by decide))).trans (Wy_main_arg5 m c),
     (h c _ (mem_uc main_arg6 (by decide))).trans (Wy_main_arg6 m c)⟩) (run_all m ρ)

/-- The result array ends at what the attention call's write-backs leave. -/
theorem result_eq (r : PUnit × MemSt nD τ sig (Elt F)) (h : ∀ c : Dev nD, ∀ b ∈ Pipeline.ucRefs τ sig, r.2.mem (((c : Thread nD τ)).1, b) = Wy m c b)
    (c : Dev nD) : r.2.mem ((c.tc : Thread nD τ).loc main_v10) = (R1.dat1 (Vq m) c).arrAt 3 cfg1.N :=
  (h c _ (mem_uc main_v10 (by decide))).trans (Wy_arr m c 3)

end Cert.Kernel.Run

end
-- ==== Proof.KiR0.lean ====
/- Region 0 of @main (the fused projection call, pipeline 0) at a parameter `V`: the buffer contents the region
   is entered with. Each window's block at a point, what the body leaves in each output window's buffer as the
   canonical contents of its one covering store over the input blocks, the body's triple, the pipeline's proof
   data and the body obligation at every point. Generic in the float instance. -/
import proofs.«402828_j13597866459507_3_alg».proof.Proof.Gen.KernelIdeal.Launch
import proofs.«402828_j13597866459507_3_alg».proof.Proof.Gen.KernelIdeal.Skeleton
import proofs.«402828_j13597866459507_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural look recurses once per coordinate of the long axes
set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place: unfetched, the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s and whose body leaves the block in place: unfetched, the block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for any proof
    data whose array is `V`'s and whose body leaves the block in place: unfetched, the block index has not moved. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev rX : Rect S1x512x1024 := Rect.unit (s := S1x512x1024) ![0, 0, 0] S1x512x1024.size inb_S1x512x1024_S1x512x1024_0_0_0
abbrev rW : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0

/-! ## What the body leaves in each output window's buffer -/

/-- Window 7's staging buffer after the body, from the input windows' blocks: its one store as a piece. -/
def out0_7 (x0 : Vec F S1x512x1024 .f32) (x1 : Vec F S1024x1024 .bf16) (x2 : Vec F S1x1024 .f32) : Vec F S1x512x1024 .bf16 :=
  View.canon [⟨rX, k0_pay4 (View.ld x0 rX) (View.ld x1 rW) (View.ld x2 rB)⟩]

/-- Window 8's staging buffer after the body. -/
def out0_8 (x0 : Vec F S1x512x1024 .f32) (x3 : Vec F S1024x1024 .bf16) (x4 : Vec F S1x1024 .f32) : Vec F S1x512x1024 .bf16 :=
  View.canon [⟨rX, k0_pay5 (View.ld x0 rX) (View.ld x3 rW) (View.ld x4 rB)⟩]

/-- Window 9's staging buffer after the body. -/
def out0_9 (x0 : Vec F S1x512x1024 .f32) (x5 : Vec F S1024x1024 .bf16) (x6 : Vec F S1x1024 .f32) : Vec F S1x512x1024 .bf16 :=
  View.canon [⟨rX, k0_pay1 (k0_pay3 (View.ld x0 rX) (View.ld x5 rW) (View.ld x6 rB))⟩]

/-- The one store tiles the buffer, so it covers it. -/
theorem cover0 (p0 : Vec F S1x512x1024 .bf16) (y : S1x512x1024.Idx) :
    ∃ pc ∈ ([⟨rX, p0⟩] : List (View.Piece (Elt F) S1x512x1024 .bf16)), y ∈ pc.1.set :=
  View.cover_of_tiled [⟨rX, p0⟩] S1x512x1024.size (by rfl) y

/-! ## The body's triple -/

set_option maxHeartbeats 4000000 in
/-- The kernel body on whole staging memrefs, the inputs' at read contents `x·` and the outputs' at anything, runs to
    the continuation holding the inputs' as they were and each output's at `out0_·` of the inputs'. -/
theorem sound_kernel0 (c : Dev nD) (E : Set ℕ) (i : grid0.Coords) (arg2 : Memref sig .tc .vmem S1x512x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x512x1024 .bf16) (harg9 : arg9.IsWhole) (arg10 : Memref sig .tc .vmem S1x512x1024 .bf16) (harg10 : arg10.IsWhole) (arg11 : Memref sig .tc .vmem S1x512x1024 .bf16) (harg11 : arg11.IsWhole)
    (x0 : Vec F S1x512x1024 .f32) (x1 : Vec F S1024x1024 .bf16) (x2 : Vec F S1x1024 .f32) (x3 : Vec F S1024x1024 .bf16) (x4 : Vec F S1x1024 .f32) (x5 : Vec F S1024x1024 .bf16) (x6 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out0_7 x0 x1 x2) ∗ owns (c : Thread nD τ) arg10 fullShare (out0_8 x0 x3 x4) ∗ owns (c : Thread nD τ) arg11 fullShare (out0_9 x0 x5 x6)) -∗ K ⟨⟩))
      ⊢ wp frame (wpE (defs₀ (F := F)) Variants.none c none) E (cc0__qkv_kernel i arg2 harg2 arg3 harg3 arg4 harg4 arg5 harg5 arg6 harg6 arg7 harg7 arg8 harg8 arg9 harg9 arg10 harg10 arg11 harg11) K := by
  sl_unfold [cc0__qkv_kernel]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0 _)
  isplitl [H8]
  · iexists _; isplitr
    swap; · iexact H8
    ipureintro
    exact View.read_writes_eq_canon _ _ _ (cover0 _)
  iexists _; isplitr
  swap; · iexact H9
  ipureintro
  exact View.read_writes_eq_canon _ _ _ (cover0 _)

/-! ## The pipeline's proof data -/

/-- The proof data of pipeline 0 on core `c`: the arrays as the region finds them (`V`); after the body at
    point `t` each input's buffer at its block and each output's at `out0_·` of the input blocks; the scoped rest and
    the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t)
    | ⟨8, _⟩ => out0_8 (iblk0 V c 0 t) (iblk0 V c 3 t) (iblk0 V c 4 t)
    | ⟨9, _⟩ => out0_9 (iblk0 V c 0 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) := by dsimp only [dat0]
theorem after0_8 (c : Dev nD) (t : Fin cfg0.N) : (dat0 V c).after 8 t = out0_8 (iblk0 V c 0 t) (iblk0 V c 3 t) (iblk0 V c 4 t) := by dsimp only [dat0]
theorem after0_9 (c : Dev nD) (t : Fin cfg0.N) : (dat0 V c).after 9 t = out0_9 (iblk0 V c 0 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 4000000 in
/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.KernelIdeal.R0

end
-- ==== Proof.KiBound.lean ====
/-
  What the TensorCore's unscoped buffers hold before and after the projection call.

  At launch they hold the launch memory; the nine host operations (three weight transposes, their casts, three bias
  reshapes) write nine buffers of their own and leave every other buffer alone; the projection call then leaves each
  of its windowed arrays at what its write-backs leave and every other buffer as it found it.
-/
import proofs.«402828_j13597866459507_3_alg».proof.Proof.KiR0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents between @main's items -/

/-- At launch. -/
abbrev Wl : Dev nD → Valuation τ sig (Elt F) := fun c b => m (c, b)
/-- After the host operations (the projection call's entry). -/
abbrev Wh : Dev nD → Valuation τ sig (Elt F) := fun c => StableHlo.after hostOps0 (Wl m c)
/-- The same read at the TensorCore's references. -/
abbrev Vh : (c : Dev nD) → (b : Ref sig .tc) → Buf (Elt F) ((c : Thread nD τ).loc b) := fun c b => Wh m c b
/-- After the projection call: its arrays at what its write-backs leave, every other buffer as entered. -/
def Wq (c : Dev nD) : Valuation τ sig (Elt F) :=
  Pipeline.withArrays spec0 c (Wh m c) fun w => (R0.dat0 (Vh m) c).arrAt w cfg0.N
theorem Wq_arr (c : Dev nD) (w : Fin cfg0.W) :
    Wq m c (Proc.devRef .tc (Pipeline.arrRef spec0 w)) = (R0.dat0 (Vh m) c).arrAt w cfg0.N := by
  unfold Wq; exact Pipeline.withArrays_arr spec0 launch0.win.arr_inj c _ _ w
theorem Wq_of_ne (c : Dev nD) (b : Ref sig .tc) (hb : ∀ w, Pipeline.arrRef spec0 w ≠ b) :
    Wq m c (Proc.devRef .tc b) = Wh m c (Proc.devRef .tc b) := by
  unfold Wq; exact Pipeline.withArrays_of_ne spec0 c _ _ b hb
/-- The same read at the TensorCore's references (the attention call's entry: no host operation lies between). -/
abbrev Vq : (c : Dev nD) → (b : Ref sig .tc) → Buf (Elt F) ((c : Thread nD τ).loc b) := fun c b => Wq m c b
theorem hF0 (c : Dev nD) (w : Fin cfg0.W) : (R0.dat0 (Vh m) c).arrAt w cfg0.N = Vq m c (Pipeline.arrRef spec0 w) :=
  (Wq_arr m c w).symm
theorem hrest0 (c : Dev nD) : ∀ b, b ∉ Finset.univ.image (Pipeline.arrRef spec0) → Vq m c b = Vh m c b :=
  fun b hb => Wq_of_ne m c b fun w e => hb (Finset.mem_image.mpr ⟨w, Finset.mem_univ _, e⟩)

/-! ## The host operations leave every other buffer alone -/

/-- The host operations write only the nine buffers they define. -/
theorem after_host_keeps (c : Dev nD) (b : Ref sig .tc)
    (hb : b ∉ ([main_v0, main_v1, main_v2, main_v3, main_v4, main_v5, main_v6, main_v7, main_v8] : List (Ref sig .tc))) :
    Wh m c (Proc.devRef .tc b) = Wl m c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes,
      StableHlo.ternary_writes, StableHlo.quaternary_writes, StableHlo.reshape_writes, StableHlo.binaryIndexed_writes, Finset.mem_singleton]
    simp only [List.mem_cons, List.mem_nil_iff, or_false, not_or] at hb
    obtain ⟨h0, h1, h2, h3, h4, h5, h6, h7, h8⟩ := hb
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7,
      StableHlo.devRef_ne_of_ne h8⟩))

end Cert.KernelIdeal.Run

end
-- ==== Proof.KiR1Defs.lean ====
/-
  The attention kernel's carried state, point by point.

  The second pallas_call visits the grid (batch, query tile, key tile) = 4 × 2 × 2 with the key tile innermost and
  keeps, between points, three scratch arrays for the current query tile: each row's running maximum, its running
  sum of exponentials and its running weighted sum.  At key tile 0 it resets them (-∞, 0, 0) and folds the tile
  in; at key tile 1 it folds the tile in only when the query tile is the second one (for the first query tile the
  second key tile lies wholly after every query row); and at key tile 1 it writes the quotient of the weighted sum
  by the sum into the output block.  Here: the state after each point as a recursion over the points, in terms of
  the body's named values, and the block written.
-/
import proofs.«402828_j13597866459507_3_alg».proof.Proof.Gen.KernelIdeal.Launch
import proofs.«402828_j13597866459507_3_alg».proof.Proof.Gen.KernelIdeal.Skeleton
import proofs.«402828_j13597866459507_3_alg».proof.Proof.Gen.KernelIdeal.Points

noncomputable section

namespace Cert.KernelIdeal.R1

open Idealize.ShloMosaic Idealize.ShloMosaic.TcCoe
open Idealize.SL Idealize.SL.Sem
open Cert.KernelIdeal Cert.KernelIdeal.Gen

variable {F : FTy → Type} [FloatOps F] [Named F]

/-- The running state of a query tile: per row the maximum so far ([1024, 1]), the sum of exponentials so far
    ([1024, 1]) and the weighted sum so far ([1024, 1024]). -/
abbrev St (F : FTy → Type) [FloatOps F] : Type := Vec F S1024x1 .f32 × Vec F S1024x1 .f32 × Vec F S1024x1024 .f32

/-- The state a key sweep starts from: maximum -∞, sums zero. -/
def reset : St F := (k1_pay1, k1_pay2, k1_pay3)

/-- One key tile folded into the state, at grid point `i`: `qb`, `kb`, `vb` the query, key and value blocks. -/
def upd (i : grid1.Coords) (qb kb vb : Vec F S1x1024x1024 .bf16) (s : St F) : St F :=
  (k1_pay6 (k1_pay10 (BitVec.ofNat 32 (i 1).val) (BitVec.ofNat 32 (i 2).val) qb kb s.1),
   k1_pay4 (k1_pay13 (BitVec.ofNat 32 (i 1).val) (BitVec.ofNat 32 (i 2).val) qb kb s.1 s.1 s.2.1),
   k1_pay5 (k1_pay8 vb) (k1_pay11 (BitVec.ofNat 32 (i 1).val) (BitVec.ofNat 32 (i 2).val) qb kb s.1 s.1)
     (k1_pay12 (BitVec.ofNat 32 (i 1).val) (BitVec.ofNat 32 (i 2).val) qb kb s.1) s.2.2)

/-- What a point does to the state: at key tile 0, reset and fold; at key tile 1 of the first query tile, nothing;
    at key tile 1 of the second query tile, fold. -/
def stepSt (i : grid1.Coords) (qb kb vb : Vec F S1x1024x1024 .bf16) (s : St F) : St F :=
  if (i 2).val = 0 then upd i qb kb vb reset
  else if (i 1).val = 0 then s
  else upd i qb kb vb s

/-- The block written at key tile 1: the weighted sum divided by the sum, row by row. -/
def out1_3 (s : St F) : Vec F S1x1024x1024 .f32 := k1_pay7 s.2.2 s.2.1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The state after point `n`: the point's step on what the point before left (point 0 is at key tile 0, which
    resets, so what it starts from does not matter). -/
def scAt (c : Dev nD) : (n : ℕ) → n < cfg1.N → St F
  | 0, hn => stepSt (grid1.coords ⟨0, hn⟩) (iblk1 V c 0 ⟨0, hn⟩) (iblk1 V c 1 ⟨0, hn⟩) (iblk1 V c 2 ⟨0, hn⟩) reset
  | n + 1, hn => stepSt (grid1.coords ⟨n + 1, hn⟩) (iblk1 V c 0 ⟨n + 1, hn⟩) (iblk1 V c 1 ⟨n + 1, hn⟩) (iblk1 V c 2 ⟨n + 1, hn⟩)
      (scAt c n (Nat.lt_of_succ_lt hn))

theorem scAt_zero (c : Dev nD) (hn : 0 < cfg1.N) :
    scAt V c 0 hn = stepSt (grid1.coords ⟨0, hn⟩) (iblk1 V c 0 ⟨0, hn⟩) (iblk1 V c 1 ⟨0, hn⟩) (iblk1 V c 2 ⟨0, hn⟩) reset := rfl

theorem scAt_succ (c : Dev nD) (n : ℕ) (hn : n + 1 < cfg1.N) :
    scAt V c (n + 1) hn = stepSt (grid1.coords ⟨n + 1, hn⟩) (iblk1 V c 0 ⟨n + 1, hn⟩) (iblk1 V c 1 ⟨n + 1, hn⟩) (iblk1 V c 2 ⟨n + 1, hn⟩)
      (scAt V c n (Nat.lt_of_succ_lt hn)) := rfl

end Cert.KernelIdeal.R1

end
-- ==== Proof.KiR1Runs.lean ====
/-
  The attention kernel's body, run at one grid point in each of its three control cases.

  The body branches three times on the grid coordinates (batch, query tile, key tile): at key tile 0 it resets the
  three scratch arrays; when the key tile is not after the query tile it folds the tile into them; at key tile 1
  it writes the quotient block.  Over the 2 × 2 (query tile, key tile) points that leaves three cases: key tile 0
  (reset, fold, no write), key tile 1 of query tile 0 (no fold, write) and key tile 1 of query tile 1 (fold,
  write).  Each case is a triple over whole buffers: the three input blocks stay, the scratch goes from a state
  to the state after the point, the output block is kept or written.  Generic in the float instance.
-/
import proofs.«402828_j13597866459507_3_alg».proof.Proof.KiR1Defs
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of these extents: the structural look recurses once per coordinate of the long axes
set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The three conditions, from the coordinates -/

/-- "Key tile 0": the condition of the reset. -/
abbrev cond1 (i : grid1.Coords) : Prop :=
  (Scalar.cmpi .ne (Scalar.extui (Scalar.cmpi .eq (BitVec.ofNat 32 (i 2).val) 0#32)) 0#32) = 1#1
/-- "The key tile is not after the query tile": the condition of the fold. -/
abbrev cond2 (i : grid1.Coords) : Prop :=
  (Scalar.cmpi .ne (Scalar.extui (Scalar.cmpi .sle (BitVec.ofNat 32 (i 2).val) (BitVec.ofNat 32 (i 1).val))) 0#32) = 1#1
/-- "Key tile 1": the condition of the write. -/
abbrev cond3 (i : grid1.Coords) : Prop := k1_cond3 i = 1#1

/-- The query-tile coordinate is 0 or 1. -/
theorem qi_cases (i : grid1.Coords) : (i 1).val = 0 ∨ (i 1).val = 1 := by
  have h : (i 1).val < 2 := (i 1).isLt
  omega

theorem cond1_of_zero (i : grid1.Coords) (h2 : (i 2).val = 0) : cond1 i := by
  unfold cond1; rw [h2]; decide
theorem not_cond1_of_one (i : grid1.Coords) (h2 : (i 2).val = 1) : ¬cond1 i := by
  unfold cond1; rw [h2]; decide
theorem cond2_of_zero (i : grid1.Coords) (h2 : (i 2).val = 0) : cond2 i := by
  unfold cond2; rw [h2]; rcases qi_cases i with h | h <;> rw [h] <;> decide
theorem not_cond2_of_one_zero (i : grid1.Coords) (h2 : (i 2).val = 1) (h1 : (i 1).val = 0) : ¬cond2 i := by
  unfold cond2; rw [h2, h1]; decide
theorem cond2_of_one_one (i : grid1.Coords) (h2 : (i 2).val = 1) (h1 : (i 1).val = 1) : cond2 i := by
  unfold cond2; rw [h2, h1]; decide
theorem not_cond3_of_zero (i : grid1.Coords) (h2 : (i 2).val = 0) : ¬cond3 i := by
  unfold cond3 k1_cond3; rw [h2]; decide
theorem cond3_of_one (i : grid1.Coords) (h2 : (i 2).val = 1) : cond3 i := by
  unfold cond3 k1_cond3; rw [h2]; decide

/-! ## Whole-buffer loads and stores, at zero offsets -/

theorem hz2 : (![0, 0] : Fin 2 → Nat) = fun _ => 0 := funext fun a => by fin_cases a <;> rfl
theorem hz3 : (![0, 0, 0] : Fin 3 → Nat) = fun _ => 0 := funext fun a => by fin_cases a <;> rfl

/-- One store through a whole-buffer rectangle covers the buffer. -/
theorem cover_unit {S : Shape} {e : EltTy} {off : Fin S.rank → Nat} (h : off = fun _ => 0)
    (inb : ∀ a, off a + S.size a ≤ S.size a) (w : S.Idx → Elt F e) (L : List (View.Piece (Elt F) S e)) (y : S.Idx) :
    ∃ pc ∈ ((⟨Rect.unit off S.size inb, w⟩ : View.Piece (Elt F) S e) :: L), y ∈ pc.1.set :=
  ⟨_, List.mem_cons_self, View.mem_set_unit_zero h inb y⟩

/-- A load of a whole buffer reads its contents. -/
theorem readAt_whole {S : Shape} {e : EltTy} (m : Memref sig .tc .vmem S e) (f : m.view.ty.Contents (Elt F))
    {off : Fin S.rank → Nat} (h : off = fun _ => 0) (inb : ∀ a, off a + S.size a ≤ S.size a) :
    m.view.readAt (Elt F) (Rect.unit off S.size inb).toLoadRect f = m.view.read (Elt F) f :=
  View.ld_unit_zero h inb _

/-- A load of a whole buffer after one store of the whole buffer reads the stored block. -/
theorem readCov_whole {S : Shape} {e : EltTy} (m : Memref sig .tc .vmem S e)
    {off : Fin S.rank → Nat} (h : off = fun _ => 0) (inb : ∀ a, off a + S.size a ≤ S.size a) (w : S.Idx → Elt F e) :
    m.view.readCov [(⟨Rect.unit off S.size inb, w⟩ : View.Piece (Elt F) S e)] (Rect.unit off S.size inb).toLoadRect = w :=
  View.readCov_unit_zero m.view h inb w

/-- What a whole buffer reads after stores of which the last is of the whole buffer: that store's block. -/
theorem read_writes_whole {S : Shape} {e : EltTy} (m : Memref sig .tc .vmem S e) (f : m.view.ty.Contents (Elt F))
    {off : Fin S.rank → Nat} (h : off = fun _ => 0) (inb : ∀ a, off a + S.size a ≤ S.size a) (w : S.Idx → Elt F e)
    (L : List (View.Piece (Elt F) S e)) :
    m.view.read (Elt F) (m.view.writes (Elt F) f ((⟨Rect.unit off S.size inb, w⟩ : View.Piece (Elt F) S e) :: L)) = w :=
  (View.read_writes_eq_canon _ _ _ (cover_unit h inb w L)).trans (View.canon_cons_unit_zero h inb w L)

set_option maxHeartbeats 4000000 in
/-- Key tile 1 of query tile 0: the tile lies wholly after the query rows, so nothing is folded; the output block is
    written from the state as it stands, which stays. -/
theorem sound_kernel1_B (c : Dev nD) (E : Set ℕ) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole)
    (qb kb vb : Vec F S1x1024x1024 .bf16) (d6 : Vec F S1x1024x1024 .f32) (s : St F) (K : PUnit → sProp 𝕄) (h2 : (i 2).val = 1) (h1 : (i 1).val = 0) :
    iprop(owns (c : Thread nD τ) arg3 fullShare qb ∗ owns (c : Thread nD τ) arg4 fullShare kb ∗ owns (c : Thread nD τ) arg5 fullShare vb ∗ owns (c : Thread nD τ) arg6 fullShare d6 ∗ owns (c : Thread nD τ) arg7 fullShare s.1 ∗ owns (c : Thread nD τ) arg8 fullShare s.2.1 ∗ owns (c : Thread nD τ) arg9 fullShare s.2.2
        ∗ (iprop(owns (c : Thread nD τ) arg3 fullShare qb ∗ owns (c : Thread nD τ) arg4 fullShare kb ∗ owns (c : Thread nD τ) arg5 fullShare vb ∗ owns (c : Thread nD τ) arg6 fullShare (out1_3 s) ∗ owns (c : Thread nD τ) arg7 fullShare (s).1 ∗ owns (c : Thread nD τ) arg8 fullShare (s).2.1 ∗ owns (c : Thread nD τ) arg9 fullShare (s).2.2) -∗ K ⟨⟩))
      ⊢ wp frame (wpE (defs₀ (F := F)) Variants.none c none) E (cc1__flash_kernel i arg3 harg3 arg4 harg4 arg5 harg5 arg6 harg6 arg7 harg7 arg8 harg8 arg9 harg9) K := by
  have hc1 := not_cond1_of_one i h2
  have hc2 := not_cond2_of_one_zero i h2 h1
  have hc3 := cond3_of_one i h2
  obtain ⟨s1, s2, s3⟩ := s
  simp only [cc1__flash_kernel_eq_skeleton]; unfold cc1__flash_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  sl_exec (disch := first | sl_exact hc1 | sl_exact hc2 | sl_exact hc3)
  sl_step
  iapply Hk
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists _; isplitr
    swap; · iexact H6
    ipureintro
    refine (View.read_writes_eq_canon _ _ _ (cover_unit hz3 _ _ _)).trans ?_
    refine (View.canon_unit_zero hz3 _ _).trans ?_
    exact congrArg₂ k1_pay7 ((View.ld_unit_zero (S := S1024x1024) hz2 _ _).trans hf9)
      ((View.ld_unit_zero (S := S1024x1) hz2 _ _).trans hf8)
  isplitl [H7]
  · iexists f7; isplitr; · ipureintro; exact hf7
    iexact H7
  isplitl [H8]
  · iexists f8; isplitr; · ipureintro; exact hf8
    iexact H8
  iexists f9; isplitr; · ipureintro; exact hf9
  iexact H9

set_option maxHeartbeats 4000000 in
/-- Key tile 0: the scratch is reset, the tile folded in; the output block is not touched. -/
theorem sound_kernel1_A (c : Dev nD) (E : Set ℕ) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole)
    (qb kb vb : Vec F S1x1024x1024 .bf16) (d6 : Vec F S1x1024x1024 .f32) (s : St F) (K : PUnit → sProp 𝕄) (h2 : (i 2).val = 0) :
    iprop(owns (c : Thread nD τ) arg3 fullShare qb ∗ owns (c : Thread nD τ) arg4 fullShare kb ∗ owns (c : Thread nD τ) arg5 fullShare vb ∗ owns (c : Thread nD τ) arg6 fullShare d6 ∗ owns (c : Thread nD τ) arg7 fullShare s.1 ∗ owns (c : Thread nD τ) arg8 fullShare s.2.1 ∗ owns (c : Thread nD τ) arg9 fullShare s.2.2
        ∗ (iprop(owns (c : Thread nD τ) arg3 fullShare qb ∗ owns (c : Thread nD τ) arg4 fullShare kb ∗ owns (c : Thread nD τ) arg5 fullShare vb ∗ owns (c : Thread nD τ) arg6 fullShare d6 ∗ owns (c : Thread nD τ) arg7 fullShare (upd i qb kb vb reset).1 ∗ owns (c : Thread nD τ) arg8 fullShare (upd i qb kb vb reset).2.1 ∗ owns (c : Thread nD τ) arg9 fullShare (upd i qb kb vb reset).2.2) -∗ K ⟨⟩))
      ⊢ wp frame (wpE (defs₀ (F := F)) Variants.none c none) E (cc1__flash_kernel i arg3 harg3 arg4 harg4 arg5 harg5 arg6 harg6 arg7 harg7 arg8 harg8 arg9 harg9) K := by
  have hc1 := cond1_of_zero i h2
  have hc2 := cond2_of_zero i h2
  have hc3 := not_cond3_of_zero i h2
  simp only [cc1__flash_kernel_eq_skeleton]; unfold cc1__flash_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  sl_exec (disch := first | sl_exact hc1 | sl_exact hc2 | sl_exact hc3)
  sl_step
  iapply Hk
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists _; isplitr
    swap; · iexact H7
    ipureintro
    sl_unfold_run_names
    refine (read_writes_whole arg7 f7 hz2 _ _ _).trans ?_
    rw [readAt_whole arg3 f3 hz3, readAt_whole arg4 f4 hz3, hf3, hf4, readCov_whole arg7 hz2]
    rfl
  isplitl [H8]
  · iexists _; isplitr
    swap; · iexact H8
    ipureintro
    sl_unfold_run_names
    refine (read_writes_whole arg8 f8 hz2 _ _ _).trans ?_
    rw [readAt_whole arg3 f3 hz3, readAt_whole arg4 f4 hz3, hf3, hf4, readCov_whole arg7 hz2, readCov_whole arg8 hz2]
    rfl
  iexists _; isplitr
  swap; · iexact H9
  ipureintro
  sl_unfold_run_names
  refine (read_writes_whole arg9 f9 hz2 _ _ _).trans ?_
  rw [readAt_whole arg3 f3 hz3, readAt_whole arg4 f4 hz3, hf3, hf4, readAt_whole arg5 f5 hz3, hf5, readCov_whole arg7 hz2, readCov_whole arg9 hz2]
  rfl

set_option maxHeartbeats 4000000 in
/-- Key tile 1 of query tile 1: the tile is folded into the state, and the output block written from the new state. -/
theorem sound_kernel1_C (c : Dev nD) (E : Set ℕ) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole)
    (qb kb vb : Vec F S1x1024x1024 .bf16) (d6 : Vec F S1x1024x1024 .f32) (s : St F) (K : PUnit → sProp 𝕄) (h2 : (i 2).val = 1) (h1 : (i 1).val = 1) :
    iprop(owns (c : Thread nD τ) arg3 fullShare qb ∗ owns (c : Thread nD τ) arg4 fullShare kb ∗ owns (c : Thread nD τ) arg5 fullShare vb ∗ owns (c : Thread nD τ) arg6 fullShare d6 ∗ owns (c : Thread nD τ) arg7 fullShare s.1 ∗ owns (c : Thread nD τ) arg8 fullShare s.2.1 ∗ owns (c : Thread nD τ) arg9 fullShare s.2.2
        ∗ (iprop(owns (c : Thread nD τ) arg3 fullShare qb ∗ owns (c : Thread nD τ) arg4 fullShare kb ∗ owns (c : Thread nD τ) arg5 fullShare vb ∗ owns (c : Thread nD τ) arg6 fullShare (out1_3 (upd i qb kb vb s)) ∗ owns (c : Thread nD τ) arg7 fullShare (upd i qb kb vb s).1 ∗ owns (c : Thread nD τ) arg8 fullShare (upd i qb kb vb s).2.1 ∗ owns (c : Thread nD τ) arg9 fullShare (upd i qb kb vb s).2.2) -∗ K ⟨⟩))
      ⊢ wp frame (wpE (defs₀ (F := F)) Variants.none c none) E (cc1__flash_kernel i arg3 harg3 arg4 harg4 arg5 harg5 arg6 harg6 arg7 harg7 arg8 harg8 arg9 harg9) K := by
  have hc1 := not_cond1_of_one i h2
  have hc2 := cond2_of_one_one i h2 h1
  have hc3 := cond3_of_one i h2
  simp only [cc1__flash_kernel_eq_skeleton]; unfold cc1__flash_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  sl_exec (disch := first | sl_exact hc1 | sl_exact hc2 | sl_exact hc3)
  sl_step
  iapply Hk
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists _; isplitr
    swap; · iexact H6
    ipureintro
    sl_unfold_run_names
    refine (read_writes_whole arg6 f6 hz3 _ _ _).trans ?_
    rw [readCov_whole arg9 hz2, readCov_whole arg8 hz2, readAt_whole arg3 f3 hz3, readAt_whole arg4 f4 hz3, hf3, hf4, readAt_whole arg5 f5 hz3, hf5, readAt_whole arg7 f7 hz2, hf7, readAt_whole arg8 f8 hz2, hf8, readAt_whole arg9 f9 hz2, hf9]
    rfl
  isplitl [H7]
  · iexists _; isplitr
    swap; · iexact H7
    ipureintro
    sl_unfold_run_names
    refine (read_writes_whole arg7 f7 hz2 _ _ _).trans ?_
    rw [readAt_whole arg3 f3 hz3, readAt_whole arg4 f4 hz3, hf3, hf4, readAt_whole arg7 f7 hz2, hf7]
    rfl
  isplitl [H8]
  · iexists _; isplitr
    swap; · iexact H8
    ipureintro
    sl_unfold_run_names
    refine (read_writes_whole arg8 f8 hz2 _ _ _).trans ?_
    rw [readAt_whole arg3 f3 hz3, readAt_whole arg4 f4 hz3, hf3, hf4, readAt_whole arg7 f7 hz2, hf7, readAt_whole arg8 f8 hz2, hf8]
    rfl
  iexists _; isplitr
  swap; · iexact H9
  ipureintro
  sl_unfold_run_names
  refine (read_writes_whole arg9 f9 hz2 _ _ _).trans ?_
  rw [readAt_whole arg3 f3 hz3, readAt_whole arg4 f4 hz3, hf3, hf4, readAt_whole arg5 f5 hz3, hf5, readAt_whole arg7 f7 hz2, hf7, readAt_whole arg9 f9 hz2, hf9]
  rfl

end Cert.KernelIdeal.R1

end
-- ==== Proof.KiR1.lean ====
/-
  The attention call as a pipeline: its proof data, its invariant and its body obligation.

  The call visits the grid (batch, query tile, key tile) = 4 × 2 × 2, the key tile innermost, and carries three
  scratch arrays from point to point.  The proof data say what every window's current buffer holds after the body at
  each point: an input window its block; the output window the quotient block of the state after the point.  The
  invariant before a point holds the three scratch arrays at the state the point before left (before the first
  point: at anything), every other scoped buffer that is no staging buffer of this call at some contents, and the
  generator register at some state.  The body obligation follows from the body's three control cases: at key tile
  0 the scratch is reset and the tile folded in, the output window idle and handed back as found; at key tile 1 of
  the first query tile the state stays and the output block is written; at key tile 1 of the second query tile the
  tile is folded in and the output block written.  Generic in the float instance.
-/
import proofs.«402828_j13597866459507_3_alg».proof.Proof.KiR1Runs

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The grid's points -/

/-- The key tile of point `t` is `t mod 2`. -/
theorem coord2 : ∀ t : Fin cfg1.N, ((grid1.coords t) 2).val = t.val % 2 :=
  (by decide +kernel : ∀ t : Fin grid1.N, ((grid1.coords t) 2).val = t.val % 2)

/-- The query tile of point `t` is `(t / 2) mod 2`. -/
theorem coord1 : ∀ t : Fin cfg1.N, ((grid1.coords t) 1).val = (t.val / 2) % 2 :=
  (by decide +kernel : ∀ t : Fin grid1.N, ((grid1.coords t) 1).val = (t.val / 2) % 2)

/-! ## Where the windows are idle -/

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At key tile 0 the output window is idle: the body stores nothing into it there, -/
theorem idleAt1_3 : ∀ t : Fin cfg1.N, t.val % 2 = 0 → cfg1.idle 3 (grid1.coords t) = true :=
  (by decide +kernel : ∀ t : Fin grid1.N, t.val % 2 = 0 → cfg1.idle 3 (grid1.coords t) = true)
/-- and the pipeline does not write its block back. -/
theorem noFlush1_3 (t : Fin cfg1.N) (h : t.val % 2 = 0) : (cfg1.win 3).flush t = false :=
  Bool.eq_false_iff.mpr fun hf => by have := (flush1_3 t).mp hf; omega
/-- At key tile 1 the output window is live. -/
theorem liveAt1_3 : ∀ t : Fin cfg1.N, t.val % 2 = 1 → cfg1.idle 3 (grid1.coords t) = false :=
  (by decide +kernel : ∀ t : Fin grid1.N, t.val % 2 = 1 → cfg1.idle 3 (grid1.coords t) = false)

/-! ## The scratch operands and the invariant -/

/-- The scratch operands: whole scoped buffers of the kernel's own, passed beside the windows. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2

/-- Every scoped buffer of the core that is neither a staging buffer of this call nor one of its three scratch
    arrays (the first call's staging buffers), each at some contents: they ride along untouched. -/
def Rest14 (c : Dev nD) : sProp 𝕄 :=
  Pipeline.scopedRestBut (Ix := Unit) (Name := ℕ) (U := UR sig nD τ) (Lvl := ℕ) (Val := Elt F) spec1 c [cc1_scratch0, cc1_scratch1, cc1_scratch2]

/-- The class's invariant with the three scratch operands as memrefs owned at some contents and the other scoped
    buffers as one assertion: what the body obligation hands the body's runs and takes back. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d)) ∗ Rest14 (F := F) c) ∗ (∃ r, prngReg c r)) := by
  unfold Pipeline.ΦA Rest14
  rw [Pipeline.scopedRest_split_of_list spec1 c [cc1_scratch0, cc1_scratch1, cc1_scratch2] (by decide) (by decide)]
  simp only [bigSepL_cons_cons, bigSepL_singleton, scM1_0, scM1_1, scM1_2, owns_whole]
  try rfl

-- the TensorCore's buffer contents when the region is entered
variable (V : (c : Dev nD) → (b : Ref sig .tc) → Buf (Elt F) ((c : Thread nD τ).loc b))

/-! ## The input windows' buffers -/

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of input window 1 (the key block: its index is the smaller of the key tile and the query tile). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same of input window 2 (the value block, at the key block's index). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The invariant before position `n`: before the first point the class's (every scratch at anything); afterwards
    the three scratch arrays at the state the point before left, the other scoped buffers at anything, and the
    generator register at some state. -/
def Phi1 (c : Dev nD) : (n : ℕ) → n ≤ cfg1.N → sProp 𝕄
  | 0, _ => Pipeline.ΦA spec1 c
  | n + 1, hn => iprop(iprop(iprop(owns (c : Thread nD τ) scM1_0 fullShare (scAt V c n hn).1 ∗ owns (c : Thread nD τ) scM1_1 fullShare (scAt V c n hn).2.1 ∗ owns (c : Thread nD τ) scM1_2 fullShare (scAt V c n hn).2.2) ∗ Rest14 (F := F) c) ∗ (∃ r, prngReg c r))

theorem Phi1_zero (c : Dev nD) (n : ℕ) (h : n ≤ cfg1.N) (hz : n = 0) : Phi1 V c n h = Pipeline.ΦA spec1 c := by
  subst hz; rfl

/-- After point `n` (before point `n + 1`): the scratch at that point's state. -/
theorem Phi1_succ (c : Dev nD) (n : ℕ) (hn : n < cfg1.N) :
    Phi1 V c (n + 1) hn = iprop(iprop(iprop(owns (c : Thread nD τ) scM1_0 fullShare (scAt V c n hn).1 ∗ owns (c : Thread nD τ) scM1_1 fullShare (scAt V c n hn).2.1 ∗ owns (c : Thread nD τ) scM1_2 fullShare (scAt V c n hn).2.2) ∗ Rest14 (F := F) c) ∗ (∃ r, prngReg c r)) := rfl

/-- Before a point that is not the first: the scratch at the state the point before left. -/
theorem Phi1_pos (c : Dev nD) (n : ℕ) (h : n ≤ cfg1.N) (hz : n ≠ 0) :
    Phi1 V c n h = iprop(iprop(iprop(owns (c : Thread nD τ) scM1_0 fullShare (scAt V c (n - 1) (by omega)).1 ∗ owns (c : Thread nD τ) scM1_1 fullShare (scAt V c (n - 1) (by omega)).2.1 ∗ owns (c : Thread nD τ) scM1_2 fullShare (scAt V c (n - 1) (by omega)).2.2) ∗ Rest14 (F := F) c) ∗ (∃ r, prngReg c r)) := by
  cases n with
  | zero => exact absurd rfl hz
  | succ n => rfl

/-! ## The pipeline's proof data -/

/-- The proof data of the attention call on core `c`: the arrays as the region finds them; after the body at point
    `t` each input's buffer at its block and the output's at the quotient block of the state after the point; the
    invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (scAt V c t.val t.isLt)
  Φ t := Phi1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's position. -/
theorem Phi1_castSucc (c : Dev nD) (t : Fin cfg1.N) :
    (dat1 V c).Φ t.castSucc = Phi1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (scAt V c t.val t.isLt) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- A live input window's buffer is left at its block. -/
theorem leaves1_0 (c : Dev nD) (t : Fin cfg1.N) :
    (dat1 V c).leavesExact 0 t = owns (c : Thread nD τ) (st1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (st1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (st1_2 t) fullShare (iblk1 V c 2 t) := by
  unfold Dat.leavesExact; rw [liveAt1_2 t, after1_2]
/-- At key tile 1 the output window's buffer is left at the quotient block of the state after the point. -/
theorem leaves1_3 (c : Dev nD) (t : Fin cfg1.N) (h : t.val % 2 = 1) :
    (dat1 V c).leavesExact 3 t = owns (c : Thread nD τ) (st1_3 t) fullShare (out1_3 (scAt V c t.val t.isLt)) := by
  unfold Dat.leavesExact; rw [liveAt1_3 t h, after1_3]

/-! ## The state after a point, by the point's case -/

/-- After a point that is not the first: the point's step on what the point before left. -/
theorem scAt_pos (c : Dev nD) (t : Fin cfg1.N) (hz : t.val ≠ 0) :
    scAt V c t.val t.isLt = stepSt (grid1.coords t) (iblk1 V c 0 t) (iblk1 V c 1 t) (iblk1 V c 2 t)
      (scAt V c (t.val - 1) (Nat.lt_of_le_of_lt (Nat.sub_le _ _) t.isLt)) := by
  obtain ⟨n, hn⟩ := t
  cases n with
  | zero => exact absurd rfl hz
  | succ n => rfl

/-- At key tile 0: the reset state with the tile folded in. -/
theorem scAt_A (c : Dev nD) (t : Fin cfg1.N) (h2 : ((grid1.coords t) 2).val = 0) :
    scAt V c t.val t.isLt = upd (grid1.coords t) (iblk1 V c 0 t) (iblk1 V c 1 t) (iblk1 V c 2 t) reset := by
  obtain ⟨n, hn⟩ := t
  cases n with
  | zero => exact (scAt_zero V c hn).trans (by unfold stepSt; exact if_pos h2)
  | succ n => exact (scAt_succ V c n hn).trans (by unfold stepSt; exact if_pos h2)

/-- At key tile 1 of the first query tile: the state the point before left. -/
theorem scAt_B (c : Dev nD) (t : Fin cfg1.N) (hz : t.val ≠ 0) (h2 : ((grid1.coords t) 2).val = 1) (h1 : ((grid1.coords t) 1).val = 0) :
    scAt V c t.val t.isLt = scAt V c (t.val - 1) (Nat.lt_of_le_of_lt (Nat.sub_le _ _) t.isLt) :=
  (scAt_pos V c t hz).trans (by unfold stepSt; rw [if_neg (by omega), if_pos h1])

/-- At key tile 1 of the second query tile: the tile folded into the state the point before left. -/
theorem scAt_C (c : Dev nD) (t : Fin cfg1.N) (hz : t.val ≠ 0) (h2 : ((grid1.coords t) 2).val = 1) (h1 : ((grid1.coords t) 1).val = 1) :
    scAt V c t.val t.isLt = upd (grid1.coords t) (iblk1 V c 0 t) (iblk1 V c 1 t) (iblk1 V c 2 t)
      (scAt V c (t.val - 1) (Nat.lt_of_le_of_lt (Nat.sub_le _ _) t.isLt)) :=
  (scAt_pos V c t hz).trans (by unfold stepSt; rw [if_neg (by omega), if_neg (by omega)])

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point. The inputs' memrefs hold their blocks; the point's position says which of the three cases
    it is in; the invariant hands the body the scratch at the state the point before left (at anything before the first
    point, which is at key tile 0 and resets it) and takes it back at this point's state; at key tile 0 the output
    window's buffer is handed back as found, at key tile 1 it holds the quotient block of the point's state; the core
    owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Phi1 V c (t.val + 1) t.isLt from rfl, Phi1_succ]
  rw [leaves1_0, leaves1_1, leaves1_2]
  have hN : t.val < 16 := lt_of_lt_of_eq t.isLt (show cfg1.N = 16 from N_1)
  have hk := coord2 t
  have hq := coord1 t
  by_cases h2 : t.val % 2 = 0
  · -- key tile 0
    rw [Dat.leavesExact_idle (dat1 V c) 3 t (idleAt1_3 t h2) (noFlush1_3 t h2)]
    rw [scAt_A V c t (hk.trans h2)]
    by_cases hz : t.val = 0
    · rw [Phi1_castSucc V c t, Phi1_zero V c _ _ hz, PhiA1_eq]
      iintro ⟨⟨⟨⟨⟨%e0, HS0⟩, ⟨%e1, HS1⟩, ⟨%e2, HS2⟩⟩, HR⟩, Hg⟩, Ho, ⟨%d0, H0⟩, ⟨%d1, H1⟩, ⟨%d2, H2⟩, ⟨%d3, H3⟩⟩
      iapply (sound_kernel1_A c Set.univ (grid1.coords t) _ _ _ _ _ _ _ _ _ _ _ _ _ _ (iblk1 V c 0 t) (iblk1 V c 1 t) (iblk1 V c 2 t)
        ((dat1 V c).before 3 t d3) (e0, e1, e2) _ (hk.trans h2))
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 HR Hg]
      · isplitl [HS0 HS1 HS2 HR]
        · isplitl [HS0 HS1 HS2]
          · isplitl [HS0]; · iexact HS0
            isplitl [HS1]; · iexact HS1
            iexact HS2
          iexact HR
        iexact Hg
      isplitl [Ho]; · iexact Ho
      isplitl [H0]; · iexact H0
      isplitl [H1]; · iexact H1
      isplitl [H2]; · iexact H2
      iexists _; iexact H3
    · rw [Phi1_castSucc V c t, Phi1_pos V c _ _ hz]
      iintro ⟨⟨⟨⟨HS0, HS1, HS2⟩, HR⟩, Hg⟩, Ho, ⟨%d0, H0⟩, ⟨%d1, H1⟩, ⟨%d2, H2⟩, ⟨%d3, H3⟩⟩
      iapply (sound_kernel1_A c Set.univ (grid1.coords t) _ _ _ _ _ _ _ _ _ _ _ _ _ _ (iblk1 V c 0 t) (iblk1 V c 1 t) (iblk1 V c 2 t)
        ((dat1 V c).before 3 t d3) (scAt V c (t.val - 1) (Nat.lt_of_le_of_lt (Nat.sub_le _ _) t.isLt)) _ (hk.trans h2))
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 HR Hg]
      · isplitl [HS0 HS1 HS2 HR]
        · isplitl [HS0 HS1 HS2]
          · isplitl [HS0]; · iexact HS0
            isplitl [HS1]; · iexact HS1
            iexact HS2
          iexact HR
        iexact Hg
      isplitl [Ho]; · iexact Ho
      isplitl [H0]; · iexact H0
      isplitl [H1]; · iexact H1
      isplitl [H2]; · iexact H2
      iexists _; iexact H3
  · have h2' : t.val % 2 = 1 := by omega
    have hz : t.val ≠ 0 := by omega
    rw [leaves1_3 V c t h2']
    rw [Phi1_castSucc V c t, Phi1_pos V c _ _ hz]
    by_cases h1 : (t.val / 2) % 2 = 0
    · -- key tile 1 of the first query tile
      rw [scAt_B V c t hz (hk.trans h2') (hq.trans h1)]
      iintro ⟨⟨⟨⟨HS0, HS1, HS2⟩, HR⟩, Hg⟩, Ho, ⟨%d0, H0⟩, ⟨%d1, H1⟩, ⟨%d2, H2⟩, ⟨%d3, H3⟩⟩
      iapply (sound_kernel1_B c Set.univ (grid1.coords t) _ _ _ _ _ _ _ _ _ _ _ _ _ _ (iblk1 V c 0 t) (iblk1 V c 1 t) (iblk1 V c 2 t)
        ((dat1 V c).before 3 t d3) (scAt V c (t.val - 1) (Nat.lt_of_le_of_lt (Nat.sub_le _ _) t.isLt)) _ (hk.trans h2') (hq.trans h1))
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 HR Hg]
      · isplitl [HS0 HS1 HS2 HR]
        · isplitl [HS0 HS1 HS2]
          · isplitl [HS0]; · iexact HS0
            isplitl [HS1]; · iexact HS1
            iexact HS2
          iexact HR
        iexact Hg
      isplitl [Ho]; · iexact Ho
      isplitl [H0]; · iexact H0
      isplitl [H1]; · iexact H1
      isplitl [H2]; · iexact H2
      iexact H3
    · -- key tile 1 of the second query tile
      have h1' : (t.val / 2) % 2 = 1 := by omega
      rw [scAt_C V c t hz (hk.trans h2') (hq.trans h1')]
      iintro ⟨⟨⟨⟨HS0, HS1, HS2⟩, HR⟩, Hg⟩, Ho, ⟨%d0, H0⟩, ⟨%d1, H1⟩, ⟨%d2, H2⟩, ⟨%d3, H3⟩⟩
      iapply (sound_kernel1_C c Set.univ (grid1.coords t) _ _ _ _ _ _ _ _ _ _ _ _ _ _ (iblk1 V c 0 t) (iblk1 V c 1 t) (iblk1 V c 2 t)
        ((dat1 V c).before 3 t d3) (scAt V c (t.val - 1) (Nat.lt_of_le_of_lt (Nat.sub_le _ _) t.isLt)) _ (hk.trans h2') (hq.trans h1'))
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 HR Hg]
      · isplitl [HS0 HS1 HS2 HR]
        · isplitl [HS0 HS1 HS2]
          · isplitl [HS0]; · iexact HS0
            isplitl [HS1]; · iexact HS1
            iexact HS2
          iexact HR
        iexact Hg
      isplitl [Ho]; · iexact Ho
      isplitl [H0]; · iexact H0
      isplitl [H1]; · iexact H1
      isplitl [H2]; · iexact H2
      iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After any point but the first the invariant gives the class's back: the scratch's named contents are forgotten. -/
theorem Phi1_out (c : Dev nD) (t : Fin (cfg1.N + 1)) (ht : t.val ≠ 0) : (dat1 V c).Φ t ⊢ Pipeline.ΦA spec1 c := by
  rw [show (dat1 V c).Φ t = Phi1 V c t.val (Nat.le_of_lt_succ t.isLt) from rfl, Phi1_pos V c _ _ ht, PhiA1_eq]
  iintro ⟨⟨⟨HS0, HS1, HS2⟩, HR⟩, Hg⟩
  isplitl [HS0 HS1 HS2 HR]
  · isplitl [HS0 HS1 HS2]
    · isplitl [HS0]; · iexists _; iexact HS0
      isplitl [HS1]; · iexists _; iexact HS1
      iexists _; iexact HS2
    iexact HR
  iexact Hg

/-- The same after the last point. -/
theorem hout1 (c : Dev nD) : (dat1 V c).Φ (Fin.last cfg1.N) ⊢ Pipeline.ΦA spec1 c :=
  Phi1_out V c _ (by rw [Fin.val_last]; have : cfg1.N = 16 := N_1; omega)

end Cert.KernelIdeal.R1

end
-- ==== Proof.KiRun.lean ====
/-
  Both pallas_calls run to the end.

  @main is a stretch of nine host operations (three weight transposes, their casts, three bias reshapes), the
  projection call and the attention call.  Between two of these items a TensorCore holds every unscoped buffer at
  contents named here: the launch memory; then what the host operations leave; then, after a call, each of the call's
  windowed arrays at what its write-backs leave and every other buffer as before.  Each call is entered from the
  contents before it and left at the contents after it; the generator register and the core owing nothing ride
  along.  The conclusion: every execution terminates, faults nowhere, and ends with every unscoped buffer at the last
  of these contents — from which the argument arrays are read back unchanged and the result array is what the
  attention call's write-backs leave.
-/
import proofs.«402828_j13597866459507_3_alg».proof.Proof.KiBound
import proofs.«402828_j13597866459507_3_alg».proof.Proof.KiR1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents after the attention call -/

/-- After the attention call. -/
def Wy (c : Dev nD) : Valuation τ sig (Elt F) :=
  Pipeline.withArrays spec1 c (Wq m c) fun w => (R1.dat1 (Vq m) c).arrAt w cfg1.N
theorem Wy_arr (c : Dev nD) (w : Fin cfg1.W) :
    Wy m c (Proc.devRef .tc (Pipeline.arrRef spec1 w)) = (R1.dat1 (Vq m) c).arrAt w cfg1.N := by
  unfold Wy; exact Pipeline.withArrays_arr spec1 launch1.win.arr_inj c _ _ w
theorem Wy_of_ne (c : Dev nD) (b : Ref sig .tc) (hb : ∀ w, Pipeline.arrRef spec1 w ≠ b) :
    Wy m c (Proc.devRef .tc b) = Wq m c (Proc.devRef .tc b) := by
  unfold Wy; exact Pipeline.withArrays_of_ne spec1 c _ _ b hb
abbrev Vy : (c : Dev nD) → (b : Ref sig .tc) → Buf (Elt F) ((c : Thread nD τ).loc b) := fun c b => Wy m c b
theorem hF1 (c : Dev nD) (w : Fin cfg1.W) : (R1.dat1 (Vq m) c).arrAt w cfg1.N = Vy m c (Pipeline.arrRef spec1 w) :=
  (Wy_arr m c w).symm
theorem hrest1 (c : Dev nD) : ∀ b, b ∉ Finset.univ.image (Pipeline.arrRef spec1) → Vy m c b = Vq m c b :=
  fun b hb => Wy_of_ne m c b fun w e => hb (Finset.mem_image.mpr ⟨w, Finset.mem_univ _, e⟩)

/-! ## No item writes an argument array -/

theorem Wy_main_arg0 (c : Dev nD) : Wy m c (Proc.devRef .tc main_arg0) = m ((c : Thread nD τ).loc main_arg0) :=
  calc Wy m c (Proc.devRef .tc main_arg0)
    _ = Wq m c (Proc.devRef .tc main_arg0) := Wy_of_ne m c main_arg0 (by decide)
    _ = Wh m c (Proc.devRef .tc main_arg0) := (Wq_arr m c 0).trans (((R0.dat0 (Vh m) c).arrAt_in 0 rfl _).trans (R0.A_eq0 (Vh m) c 0))
    _ = Wl m c (Proc.devRef .tc main_arg0) := after_host_keeps m c main_arg0 (by decide)
    _ = m ((c : Thread nD τ).loc main_arg0) := rfl

theorem Wy_main_arg1 (c : Dev nD) : Wy m c (Proc.devRef .tc main_arg1) = m ((c : Thread nD τ).loc main_arg1) :=
  calc Wy m c (Proc.devRef .tc main_arg1)
    _ = Wq m c (Proc.devRef .tc main_arg1) := Wy_of_ne m c main_arg1 (by decide)
    _ = Wh m c (Proc.devRef .tc main_arg1) := Wq_of_ne m c main_arg1 (by decide)
    _ = Wl m c (Proc.devRef .tc main_arg1) := after_host_keeps m c main_arg1 (by decide)
    _ = m ((c : Thread nD τ).loc main_arg1) := rfl

theorem Wy_main_arg2 (c : Dev nD) : Wy m c (Proc.devRef .tc main_arg2) = m ((c : Thread nD τ).loc main_arg2) :=
  calc Wy m c (Proc.devRef .tc main_arg2)
    _ = Wq m c (Proc.devRef .tc main_arg2) := Wy_of_ne m c main_arg2 (by decide)
    _ = Wh m c (Proc.devRef .tc main_arg2) := Wq_of_ne m c main_arg2 (by decide)
    _ = Wl m c (Proc.devRef .tc main_arg2) := after_host_keeps m c main_arg2 (by decide)
    _ = m ((c : Thread nD τ).loc main_arg2) := rfl

theorem Wy_main_arg3 (c : Dev nD) : Wy m c (Proc.devRef .tc main_arg3) = m ((c : Thread nD τ).loc main_arg3) :=
  calc Wy m c (Proc.devRef .tc main_arg3)
    _ = Wq m c (Proc.devRef .tc main_arg3) := Wy_of_ne m c main_arg3 (by decide)
    _ = Wh m c (Proc.devRef .tc main_arg3) := Wq_of_ne m c main_arg3 (by decide)
    _ = Wl m c (Proc.devRef .tc main_arg3) := after_host_keeps m c main_arg3 (by decide)
    _ = m ((c : Thread nD τ).loc main_arg3) := rfl

theorem Wy_main_arg4 (c : Dev nD) : Wy m c (Proc.devRef .tc main_arg4) = m ((c : Thread nD τ).loc main_arg4) :=
  calc Wy m c (Proc.devRef .tc main_arg4)
    _ = Wq m c (Proc.devRef .tc main_arg4) := Wy_of_ne m c main_arg4 (by decide)
    _ = Wh m c (Proc.devRef .tc main_arg4) := Wq_of_ne m c main_arg4 (by decide)
    _ = Wl m c (Proc.devRef .tc main_arg4) := after_host_keeps m c main_arg4 (by decide)
    _ = m ((c : Thread nD τ).loc main_arg4) := rfl

theorem Wy_main_arg5 (c : Dev nD) : Wy m c (Proc.devRef .tc main_arg5) = m ((c : Thread nD τ).loc main_arg5) :=
  calc Wy m c (Proc.devRef .tc main_arg5)
    _ = Wq m c (Proc.devRef .tc main_arg5) := Wy_of_ne m c main_arg5 (by decide)
    _ = Wh m c (Proc.devRef .tc main_arg5) := Wq_of_ne m c main_arg5 (by decide)
    _ = Wl m c (Proc.devRef .tc main_arg5) := after_host_keeps m c main_arg5 (by decide)
    _ = m ((c : Thread nD τ).loc main_arg5) := rfl

theorem Wy_main_arg6 (c : Dev nD) : Wy m c (Proc.devRef .tc main_arg6) = m ((c : Thread nD τ).loc main_arg6) :=
  calc Wy m c (Proc.devRef .tc main_arg6)
    _ = Wq m c (Proc.devRef .tc main_arg6) := Wy_of_ne m c main_arg6 (by decide)
    _ = Wh m c (Proc.devRef .tc main_arg6) := Wq_of_ne m c main_arg6 (by decide)
    _ = Wl m c (Proc.devRef .tc main_arg6) := after_host_keeps m c main_arg6 (by decide)
    _ = m ((c : Thread nD τ).loc main_arg6) := rfl

/-! ## The proof data of both calls, and what rides along -/

/-- Neither call has a prefetched table. -/
abbrev adm : (p : Fin 2) → (pcfgs (F := F) p).Adm := fun p => (cfgs p).toPCfg_adm
/-- Each call's proof data at the contents the call is entered from. -/
def pdats : (p : Fin 2) → (c : Dev nD) → Dat τ (Elt F) Unit ℕ (UR sig nD τ) ℕ (Pipeline.pin (pcfgs (F := F)) adm p) c
  | ⟨0, _⟩ => fun c => R0.dat0 (Vh m) c
  | ⟨1, _⟩ => fun c => R1.dat1 (Vq m) c
abbrev 𝒱₀ : Variants := Variants.none
/-- No core owes another anything. -/
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor

/-- The host stretch as a segment over the unscoped references. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (Wl m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last state without the owing: every unscoped buffer at the last contents, the generator register at some state. -/
abbrev Tend (c : Dev nD) : sProp 𝕄 := iprop(StableHlo.held (c : Thread nD τ) (Pipeline.ucRefs τ sig) (Wy m c) ∗ ∃ r, prngReg c r)

/-! ## The two calls as segments -/

set_option backward.isDefEq.respectTransparency.types false in
/-- The projection call: entered with every unscoped buffer at the contents after the host operations, left at the
    contents after it; its arrays split out of the unscoped buffers and put back; the generator register into the
    invariant and out; nothing owed; no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (Vh m) c).loose
  hwaits := Pipeline.hwaits_of_owed_zero _ _ _ _ L lv 0 fun _ _ => rfl
  pre c := iprop(StableHlo.held (c : Thread nD τ) (Pipeline.ucRefs τ sig) (Wh m c) ∗ R c)
  post c := iprop(StableHlo.held (c : Thread nD τ) (Pipeline.ucRefs τ sig) (Wq m c) ∗ R c)
  X c := iprop(∃ r, prngReg c r)
  Y c := iprop(∃ r, prngReg c r)
  Z c := Pipeline.unscopedRest (Ix := Unit) (Name := ℕ) (U := UR sig nD τ) (Lvl := ℕ) spec0 c (Vh m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vh m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vh m c) (Vq m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the launch hands a call beside its arrays — the generator register and the scoped buffers that are no
    staging buffer of the call — is the call's plain invariant. -/
theorem phiA1_of (c : Dev nD) :
    iprop((∃ r, prngReg c r) ∗ Pipeline.prefHeld (pcfgs (F := F) 1).pre c (fun _ => fullShare) (adm (F := F) 1).1
        ∗ Pipeline.scopedRest (Pipeline.pin (pcfgs (F := F)) adm 1).spec c)
      ⊢ (Pipeline.ΦA spec1 c : sProp 𝕄) := by
  unfold Pipeline.ΦA
  iintro ⟨Hp, -, Hr⟩
  isplitl [Hr]; · iexact Hr
  iexact Hp

set_option backward.isDefEq.respectTransparency.types false in
/-- The attention call: entered from the contents after the projection call, left at the last contents. Its
    invariant carries the three scratch arrays from point to point; it starts as the plain invariant and ends as it. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (Vq m) c).loose
  hwaits := Pipeline.hwaits_of_owed_zero _ _ _ _ L lv 1 fun _ _ => rfl
  pre c := iprop(StableHlo.held (c : Thread nD τ) (Pipeline.ucRefs τ sig) (Wq m c) ∗ R c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vq m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vq m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA1_of c).trans (R1.hin1 (Vq m) c)
  hout c := by
    rw [Pipeline.ownSems0_none]
    refine (R1.hout1 (Vq m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vq m c) (Vy m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg0 m), .region (reg0 m), .region (reg1 m) ]

/-- @main is the run of these segments. -/
theorem main_run (c : Dev nD) : main (F := F) c = Pipeline.Seg.run (segs m) := (main_chain c).trans (by chain_rfl)

set_option backward.isDefEq.respectTransparency.types false in
/-- From any memory with zero counters every weakly fair execution of @main terminates, nothing faulting, and every
    final state holds every unscoped buffer at the contents after the attention call. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wy m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wl m c) ∗ R c)) (Tₙ := Tend m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wl m c)
        from Pipeline.unscopedBufs_held c (Wl m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wy m c b)
    (hfin := fun c s' => by
      iintro ⟨⟨Hh, -⟩, HSI⟩
      unfold StableHlo.held
      imodintro
      iapply (pointsTo_read_all (Pipeline.ucRefs τ sig) (fun b => (((c : Thread nD τ)).1, b)) (Wy m c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (Wy_main_arg0 m c),
     (h c _ (mem_uc main_arg1 (by decide))).trans (Wy_main_arg1 m c),
     (h c _ (mem_uc main_arg2 (by decide))).trans (Wy_main_arg2 m c),
     (h c _ (mem_uc main_arg3 (by decide))).trans (Wy_main_arg3 m c),
     (h c _ (mem_uc main_arg4 (by decide))).trans (Wy_main_arg4 m c),
     (h c _ (mem_uc main_arg5 (by decide))).trans (Wy_main_arg5 m c),
     (h c _ (mem_uc main_arg6 (by decide))).trans (Wy_main_arg6 m c)⟩) (run_all m ρ)

/-- The result array ends at what the attention call's write-backs leave. -/
theorem result_eq (r : PUnit × MemSt nD τ sig (Elt F)) (h : ∀ c : Dev nD, ∀ b ∈ Pipeline.ucRefs τ sig, r.2.mem (((c : Thread nD τ)).1, b) = Wy m c b)
    (c : Dev nD) : r.2.mem ((c.tc : Thread nD τ).loc main_v10) = (R1.dat1 (Vq m) c).arrAt 3 cfg1.N :=
  (h c _ (mem_uc main_v10 (by decide))).trans (Wy_arr m c 3)

end Cert.KernelIdeal.Run

end
-- ==== Proof.Spec.lean ====
/-
  Causal single-head attention over f32[4, 2048, 1024], as functions of the argument arrays on the extended reals.

  Three linear layers q, k, v = x · Wᵀ + b; the score of query row r against key row c is (q r · k c) / 32 when
  c ≤ r and -∞ otherwise; each query row is the softmax of its scores, applied to the rows of v.  Stated twice:
  as the plain softmax over all 2048 keys (`attn`), and as the running form that visits the keys tile by tile,
  keeping a running maximum, a running sum of exponentials and a running weighted sum rescaled by
  exp (old maximum - new maximum) at each tile (`onlineStep`), the quotient taken once at the end (`onlineOut`).
-/
import Idealize.ShloMosaic.PureOps.Ideal
import Idealize.ShloMosaic.Lib.ValueIdx

noncomputable section

namespace Attn

open Idealize.ShloMosaic Idealize.ShloMosaic.ValueIdx
open scoped BigOperators

/-- The shapes of the activations, of a weight matrix and of a bias. -/
abbrev SX : Shape := ⟨3, ![4, 2048, 1024]⟩
abbrev SW : Shape := ⟨2, ![1024, 1024]⟩
abbrev SB : Shape := ⟨1, ![1024]⟩

/-- The factor 1/√1024 = 1/32, as the word both programs carry. -/
abbrev scale : EReal := Ideal.ofBits .f32 0x3D000000#32

/-- A linear layer at batch `bi`, position `s`, output feature `e`: the row of `x` against row `e` of `W`, plus the bias. -/
def proj (x : SX.Idx → EReal) (W : SW.Idx → EReal) (b : SB.Idx → EReal) (bi : Fin 4) (s : Fin 2048) (e : Fin 1024) : EReal :=
  (∑ h : Fin 1024, x (ix3 bi s h) * W (ix2 e h)) + b (ix1 e)

/-- The causal score of query row `r` against key row `c`: the scaled inner product when the key is not after the
    query, -∞ when it is. -/
def score (q k : Fin 4 → Fin 2048 → Fin 1024 → EReal) (bi : Fin 4) (r c : Fin 2048) : EReal :=
  if c.val ≤ r.val then (∑ e : Fin 1024, q bi r e * k bi c e) * scale else ⊥

/-- The maximum of a finite family of extended reals (-∞ for the empty family). -/
def rowMax {ι : Type} [Fintype ι] (s : ι → EReal) : EReal := (Finset.univ : Finset ι).fold max ⊥ s

/-- The softmax of the scores `s` applied to the rows `v`, at feature `e`: each weight is
    exp (s c - max s) / ∑ exp (s c' - max s). -/
def softmaxAv {ι : Type} [Fintype ι] {d : Nat} (s : ι → EReal) (v : ι → Fin d → EReal) (e : Fin d) : EReal :=
  ∑ c, Ideal.div (Ideal.exp (s c - rowMax s)) (∑ c', Ideal.exp (s c' - rowMax s)) * v c e

/-- Attention at batch `bi`, query row `r`, feature `e`. -/
def attn (q k v : Fin 4 → Fin 2048 → Fin 1024 → EReal) (bi : Fin 4) (r : Fin 2048) (e : Fin 1024) : EReal :=
  softmaxAv (score q k bi r) (v bi) e

/-- The whole result as one function of the seven argument arrays. -/
def G (xs : SX.Idx → EReal) (WQ : SW.Idx → EReal) (bQ : SB.Idx → EReal) (WK : SW.Idx → EReal) (bK : SB.Idx → EReal)
    (WV : SW.Idx → EReal) (bV : SB.Idx → EReal) : SX.Idx → EReal :=
  fun j => attn (proj xs WQ bQ) (proj xs WK bK) (proj xs WV bV) (j 0) (j 1) (j 2)

/-! ## The running form -/

/-- The running state of one query row: the maximum so far, the sum of exponentials so far and the weighted sum so
    far, the last two relative to that maximum. -/
abbrev Run (d : Nat) : Type := EReal × EReal × (Fin d → EReal)

/-- Before any key: maximum -∞, sums zero. -/
def online0 {d : Nat} : Run d := (⊥, 0, fun _ => 0)

/-- One tile of keys folded into the running state. -/
def onlineStep {ι : Type} [Fintype ι] {d : Nat} (s : ι → EReal) (v : ι → Fin d → EReal) (st : Run d) : Run d :=
  (max st.1 (rowMax s),
   Ideal.exp (st.1 - max st.1 (rowMax s)) * st.2.1 + ∑ c, Ideal.exp (s c - max st.1 (rowMax s)),
   fun e => Ideal.exp (st.1 - max st.1 (rowMax s)) * st.2.2 e + ∑ c, Ideal.exp (s c - max st.1 (rowMax s)) * v c e)

/-- The quotient taken at the end. -/
def onlineOut {d : Nat} (st : Run d) (e : Fin d) : EReal := Ideal.div (st.2.2 e) st.2.1

/-- Key tile `t` (keys 1024 t … 1024 t + 1023) of query row `r`: its scores and its rows of `v`. -/
def tileS (q k : Fin 4 → Fin 2048 → Fin 1024 → EReal) (bi : Fin 4) (r : Fin 2048) (t : Fin 2) (c : Fin 1024) : EReal :=
  score q k bi r ⟨1024 * t.val + c.val, by omega⟩
def tileV (v : Fin 4 → Fin 2048 → Fin 1024 → EReal) (bi : Fin 4) (t : Fin 2) (c : Fin 1024) (e : Fin 1024) : EReal :=
  v bi ⟨1024 * t.val + c.val, by omega⟩ e

/-- What the tiled computation yields for query row `r`: one tile for a row of the first query tile (its second
    key tile lies wholly after it), both tiles for a row of the second. -/
def attnOnline (q k v : Fin 4 → Fin 2048 → Fin 1024 → EReal) (bi : Fin 4) (r : Fin 2048) (e : Fin 1024) : EReal :=
  if r.val < 1024 then onlineOut (onlineStep (tileS q k bi r 0) (tileV v bi 0) online0) e
  else onlineOut (onlineStep (tileS q k bi r 1) (tileV v bi 1) (onlineStep (tileS q k bi r 0) (tileV v bi 0) online0)) e

end Attn

end
-- ==== Proof.KiPay0.lean ====
/-
  The projection kernel's stored values read at an index, over the extended reals.

  One grid step holds a block of 512 rows of x.  The block, cast to the narrow format (the identity here), is
  multiplied by a 1024 × 1024 weight with the contraction over the weight's FIRST axis, into a zero accumulator; the
  bias row is added to every row; the sum is cast again (the identity) and given a leading unit axis.  So the value
  stored at (0, r, e) is  ∑ h, x (0, r, h) · w (h, e) + b (0, e).
-/
import proofs.«402828_j13597866459507_3_alg».proof.Proof.Gen.KernelIdeal.Skeleton
import proofs.«402828_j13597866459507_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay0

open Cert.KernelIdeal Cert.KernelIdeal.Gen Idealize.ShloMosaic Idealize.ShloMosaic.ValueIdx
open scoped BigOperators

/-! ## The product's operand indices, axis by axis -/

/-- The left operand's row is the result's row. -/
theorem lhs_mm_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- The left operand's column is the contraction position. -/
theorem lhs_mm_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
/-- The right operand's row is the contraction position. -/
theorem rhs_mm_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
/-- The right operand's column is the result's column. -/
theorem rhs_mm_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-! ## The product into the zero accumulator -/

/-- The block product read at (r, e): the row r of the left operand against the column e of the right. -/
theorem mm_apply (a : FVec Ideal S512x1024 .bf16) (w : FVec Ideal S1024x1024 .bf16) (r : Fin 512) (e : Fin 1024) :
    matmul (F := Ideal) dot_S512x1024_S1024x1024_S512x1024_1_0_0_1_n_n none a w (constant S512x1024 .f32 0x00000000#32) (ix2 r e)
      = ∑ h : Fin 1024, a (ix2 r h) * w (ix2 h e) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r e) ((contrEquiv1 dot_S512x1024_S1024x1024_S512x1024_1_0_0_1_n_n 1024 rfl rfl).symm k) = ix2 r k := funext fun ax => Fin.ext (by
    match ax with
    | ⟨0, _⟩ => exact lhs_mm_0 _ _
    | ⟨1, _⟩ => exact (lhs_mm_1 _ _).trans hk)
  have er : dot_S512x1024_S1024x1024_S512x1024_1_0_0_1_n_n.rhsIdx (ix2 r e) ((contrEquiv1 dot_S512x1024_S1024x1024_S512x1024_1_0_0_1_n_n 1024 rfl rfl).symm k) = ix2 k e := funext fun ax => Fin.ext (by
    match ax with
    | ⟨0, _⟩ => exact (rhs_mm_0 _ _).trans hk
    | ⟨1, _⟩ => exact rhs_mm_1 _ _)
  rw [el, er]

/-! ## The cast block of x -/

/-- The block of x with its unit axis dropped and cast: (r, h) reads x at (0, r, h). -/
theorem k0_pay2_apply (x0 : Vec Ideal S1x512x1024 .f32) (r : Fin 512) (h : Fin 1024) :
    k0_pay2 (F := Ideal) x0 (ix2 r h) = x0 (ix3 (0 : Fin 1) r h) := by
  unfold k0_pay2
  exact shapeCast_1ab_ab_apply x0 Facts₀.shapeCasts_S1x512x1024_S512x1024 r h

/-! ## Product plus bias -/

/-- The product plus the bias row, before the last cast and reshape. -/
theorem k0_pay3_apply (x0 : Vec Ideal S1x512x1024 .f32) (w : Vec Ideal S1024x1024 .bf16) (b : Vec Ideal S1x1024 .f32)
    (r : Fin 512) (e : Fin 1024) :
    k0_pay3 (F := Ideal) x0 w b (ix2 r e)
      = (∑ h : Fin 1024, x0 (ix3 (0 : Fin 1) r h) * w (ix2 h e)) + b (ix2 (0 : Fin 1) e) := by
  unfold k0_pay3
  rw [shapeCast_self w, shapeCast_self b]
  refine (addf_apply _ _ _).trans ?_
  rw [mm_apply, broadcastTo_1b_ab_apply]
  exact congrArg (· + b (ix2 (0 : Fin 1) e)) (Finset.sum_congr rfl fun h _ => by rw [k0_pay2_apply])

/-- The Q projection's stored value at (0, r, e). -/
theorem k0_pay4_apply (x0 : Vec Ideal S1x512x1024 .f32) (w : Vec Ideal S1024x1024 .bf16) (b : Vec Ideal S1x1024 .f32)
    (r : Fin 512) (e : Fin 1024) :
    k0_pay4 (F := Ideal) x0 w b (ix3 (0 : Fin 1) r e)
      = (∑ h : Fin 1024, x0 (ix3 (0 : Fin 1) r h) * w (ix2 h e)) + b (ix2 (0 : Fin 1) e) := by
  unfold k0_pay4
  rw [shapeCast_self w, shapeCast_self b]
  refine (shapeCast_ab_1ab_apply _ _ (0 : Fin 1) r e).trans ?_
  refine (truncf_apply (ψ := .bf16) _ Facts₀.bitsLt_bf16_f32 (ix2 r e)).trans ?_
  refine (addf_apply _ _ _).trans ?_
  rw [mm_apply, broadcastTo_1b_ab_apply]
  exact congrArg (· + b (ix2 (0 : Fin 1) e)) (Finset.sum_congr rfl fun h _ => by rw [k0_pay2_apply])

/-- The K projection's stored value at (0, r, e). -/
theorem k0_pay5_apply (x0 : Vec Ideal S1x512x1024 .f32) (w : Vec Ideal S1024x1024 .bf16) (b : Vec Ideal S1x1024 .f32)
    (r : Fin 512) (e : Fin 1024) :
    k0_pay5 (F := Ideal) x0 w b (ix3 (0 : Fin 1) r e)
      = (∑ h : Fin 1024, x0 (ix3 (0 : Fin 1) r h) * w (ix2 h e)) + b (ix2 (0 : Fin 1) e) := by
  unfold k0_pay5
  rw [shapeCast_self w, shapeCast_self b]
  refine (shapeCast_ab_1ab_apply _ _ (0 : Fin 1) r e).trans ?_
  refine (truncf_apply (ψ := .bf16) _ Facts₀.bitsLt_bf16_f32 (ix2 r e)).trans ?_
  refine (addf_apply _ _ _).trans ?_
  rw [mm_apply, broadcastTo_1b_ab_apply]
  exact congrArg (· + b (ix2 (0 : Fin 1) e)) (Finset.sum_congr rfl fun h _ => by rw [k0_pay2_apply])

/-- The V projection's stored value at (0, r, e): the cast and reshape of the product plus bias. -/
theorem k0_pay13_apply (x0 : Vec Ideal S1x512x1024 .f32) (w : Vec Ideal S1024x1024 .bf16) (b : Vec Ideal S1x1024 .f32)
    (r : Fin 512) (e : Fin 1024) :
    k0_pay1 (F := Ideal) (k0_pay3 x0 w b) (ix3 (0 : Fin 1) r e)
      = (∑ h : Fin 1024, x0 (ix3 (0 : Fin 1) r h) * w (ix2 h e)) + b (ix2 (0 : Fin 1) e) := by
  unfold k0_pay1
  refine (shapeCast_ab_1ab_apply _ _ (0 : Fin 1) r e).trans ?_
  refine (truncf_apply (ψ := .bf16) _ Facts₀.bitsLt_bf16_f32 (ix2 r e)).trans ?_
  exact k0_pay3_apply x0 w b r e

end Cert.KernelIdeal.Pay0

end
-- ==== Proof.KiVal0.lean ====
/-
  What the projection call leaves in its three output arrays, over the extended reals: each is the linear layer of the
  argument arrays, index by index.

  Every grid point writes back one block of 512 rows of one batch; the block's value at (0, r, e) is the row of x
  against a column of the staged weight plus the staged bias.  The staged weight is the transpose of the argument
  weight (the cast is the identity here) and the staged bias is the argument bias with a unit axis, so the value is
  the linear layer at (batch, 512 · block + r, e).  The blocks tile the array, so the array is the linear layer.
-/
import proofs.«402828_j13597866459507_3_alg».proof.Proof.KiBound
import proofs.«402828_j13597866459507_3_alg».proof.Proof.KiPay0
import proofs.«402828_j13597866459507_3_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Val0

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ)

/-- The linear layer as an array: at (batch, position, feature). -/
def projArr (x : Attn.SX.Idx → EReal) (W : Attn.SW.Idx → EReal) (b : Attn.SB.Idx → EReal) : Attn.SX.Idx → EReal :=
  fun j => Attn.proj x W b (j 0) (j 1) (j 2)

/-! ## The grid's index maps, decided once -/

theorem hz3 : (![0, 0, 0] : Fin 3 → Nat) = fun _ => 0 := funext fun a => by fin_cases a <;> rfl
theorem hz2 : (![0, 0] : Fin 2 → Nat) = fun _ => 0 := funext fun a => by fin_cases a <;> rfl

/-- The index maps over the grid, decided: the activations' window moves with output window 7 on the batch and the
    row-block axes, the feature axis stays at block 0, and both indices stay below 4. -/
theorem idx_facts7 : ∀ t : Fin cfg0.N,
      win0_0.index t (0 : Fin 3) = win0_7.index t (0 : Fin 3)
    ∧ win0_0.index t (1 : Fin 3) = win0_7.index t (1 : Fin 3)
    ∧ win0_0.index t (2 : Fin 3) = 0
    ∧ win0_7.index t (2 : Fin 3) = 0
    ∧ win0_7.index t (0 : Fin 3) ≤ 3 ∧ win0_7.index t (1 : Fin 3) ≤ 3 :=
  (by decide +kernel : ∀ t : Fin grid0.N, _)

/-- Every (batch, row block) is some point's. -/
theorem idx_onto7 : ∀ (q0 : Fin 4) (q1 : Fin 4), ∃ t : Fin cfg0.N, win0_7.index t = ![q0.val, q1.val, 0] :=
  (by decide +kernel : ∀ (q0 : Fin 4) (q1 : Fin 4), ∃ t : Fin grid0.N, win0_7.index t = ![q0.val, q1.val, 0])

/-- The index maps over the grid, decided: the activations' window moves with output window 8 on the batch and the
    row-block axes, the feature axis stays at block 0, and both indices stay below 4. -/
theorem idx_facts8 : ∀ t : Fin cfg0.N,
      win0_0.index t (0 : Fin 3) = win0_8.index t (0 : Fin 3)
    ∧ win0_0.index t (1 : Fin 3) = win0_8.index t (1 : Fin 3)
    ∧ win0_0.index t (2 : Fin 3) = 0
    ∧ win0_8.index t (2 : Fin 3) = 0
    ∧ win0_8.index t (0 : Fin 3) ≤ 3 ∧ win0_8.index t (1 : Fin 3) ≤ 3 :=
  (by decide +kernel : ∀ t : Fin grid0.N, _)

/-- Every (batch, row block) is some point's. -/
theorem idx_onto8 : ∀ (q0 : Fin 4) (q1 : Fin 4), ∃ t : Fin cfg0.N, win0_8.index t = ![q0.val, q1.val, 0] :=
  (by decide +kernel : ∀ (q0 : Fin 4) (q1 : Fin 4), ∃ t : Fin grid0.N, win0_8.index t = ![q0.val, q1.val, 0])

/-- The index maps over the grid, decided: the activations' window moves with output window 9 on the batch and the
    row-block axes, the feature axis stays at block 0, and both indices stay below 4. -/
theorem idx_facts9 : ∀ t : Fin cfg0.N,
      win0_0.index t (0 : Fin 3) = win0_9.index t (0 : Fin 3)
    ∧ win0_0.index t (1 : Fin 3) = win0_9.index t (1 : Fin 3)
    ∧ win0_0.index t (2 : Fin 3) = 0
    ∧ win0_9.index t (2 : Fin 3) = 0
    ∧ win0_9.index t (0 : Fin 3) ≤ 3 ∧ win0_9.index t (1 : Fin 3) ≤ 3 :=
  (by decide +kernel : ∀ t : Fin grid0.N, _)

/-- Every (batch, row block) is some point's. -/
theorem idx_onto9 : ∀ (q0 : Fin 4) (q1 : Fin 4), ∃ t : Fin cfg0.N, win0_9.index t = ![q0.val, q1.val, 0] :=
  (by decide +kernel : ∀ (q0 : Fin 4) (q1 : Fin 4), ∃ t : Fin grid0.N, win0_9.index t = ![q0.val, q1.val, 0])

/-- Window 1 sits at block (0, 0) at every point. -/
theorem idx_zero1 : ∀ t : Fin cfg0.N, win0_1.index t (0 : Fin 2) = 0 ∧ win0_1.index t (1 : Fin 2) = 0 :=
  (by decide +kernel : ∀ t : Fin grid0.N, _)

/-- Window 2 sits at block (0, 0) at every point. -/
theorem idx_zero2 : ∀ t : Fin cfg0.N, win0_2.index t (0 : Fin 2) = 0 ∧ win0_2.index t (1 : Fin 2) = 0 :=
  (by decide +kernel : ∀ t : Fin grid0.N, _)

/-- Window 3 sits at block (0, 0) at every point. -/
theorem idx_zero3 : ∀ t : Fin cfg0.N, win0_3.index t (0 : Fin 2) = 0 ∧ win0_3.index t (1 : Fin 2) = 0 :=
  (by decide +kernel : ∀ t : Fin grid0.N, _)

/-- Window 4 sits at block (0, 0) at every point. -/
theorem idx_zero4 : ∀ t : Fin cfg0.N, win0_4.index t (0 : Fin 2) = 0 ∧ win0_4.index t (1 : Fin 2) = 0 :=
  (by decide +kernel : ∀ t : Fin grid0.N, _)

/-- Window 5 sits at block (0, 0) at every point. -/
theorem idx_zero5 : ∀ t : Fin cfg0.N, win0_5.index t (0 : Fin 2) = 0 ∧ win0_5.index t (1 : Fin 2) = 0 :=
  (by decide +kernel : ∀ t : Fin grid0.N, _)

/-- Window 6 sits at block (0, 0) at every point. -/
theorem idx_zero6 : ∀ t : Fin cfg0.N, win0_6.index t (0 : Fin 2) = 0 ∧ win0_6.index t (1 : Fin 2) = 0 :=
  (by decide +kernel : ∀ t : Fin grid0.N, _)

/-! ## What the host operations leave, read at an index -/

/-- The host operations leave the activations alone. -/
theorem vh_main_arg0 (c : Dev nD) : Run.Vh m c main_arg0 = m ((c : Thread nD τ).loc main_arg0) :=
  Run.after_host_keeps m c main_arg0 (by decide)

/-- The staged weight `main_v1`: the cast (the identity here) of the transpose of `main_arg1`, read at (h, e). -/
theorem vh_main_v1 (c : Dev nD) (h e : Fin 1024) :
    (Run.Vh m c main_v1 : S1024x1024.Idx → EReal) (ix2 h e) = (m ((c : Thread nD τ).loc main_arg1) : S1024x1024.Idx → EReal) (ix2 e h) := by
  have e1 : (Run.Vh m c main_v1 : S1024x1024.Idx → EReal)
      = (truncf (F := Ideal) .bf16 (transpose S1024x1024 [1, 0] (m ((c : Thread nD τ).loc main_arg1) : FVec Ideal S1024x1024 .f32) Facts₀.transposes_S1024x1024_S1024x1024_1_0 : FVec Ideal S1024x1024 .f32) Facts₀.bitsLt_bf16_f32 : FVec Ideal S1024x1024 .bf16) := by
    dsimp only [Run.Vh, Run.Wh, Run.Wl, hostOps0]; after_results
  rw [e1]
  exact transpose_ix2_apply _ _ h e

/-- The staged weight `main_v3`: the cast (the identity here) of the transpose of `main_arg3`, read at (h, e). -/
theorem vh_main_v3 (c : Dev nD) (h e : Fin 1024) :
    (Run.Vh m c main_v3 : S1024x1024.Idx → EReal) (ix2 h e) = (m ((c : Thread nD τ).loc main_arg3) : S1024x1024.Idx → EReal) (ix2 e h) := by
  have e1 : (Run.Vh m c main_v3 : S1024x1024.Idx → EReal)
      = (truncf (F := Ideal) .bf16 (transpose S1024x1024 [1, 0] (m ((c : Thread nD τ).loc main_arg3) : FVec Ideal S1024x1024 .f32) Facts₀.transposes_S1024x1024_S1024x1024_1_0 : FVec Ideal S1024x1024 .f32) Facts₀.bitsLt_bf16_f32 : FVec Ideal S1024x1024 .bf16) := by
    dsimp only [Run.Vh, Run.Wh, Run.Wl, hostOps0]; after_results
  rw [e1]
  exact transpose_ix2_apply _ _ h e

/-- The staged weight `main_v5`: the cast (the identity here) of the transpose of `main_arg5`, read at (h, e). -/
theorem vh_main_v5 (c : Dev nD) (h e : Fin 1024) :
    (Run.Vh m c main_v5 : S1024x1024.Idx → EReal) (ix2 h e) = (m ((c : Thread nD τ).loc main_arg5) : S1024x1024.Idx → EReal) (ix2 e h) := by
  have e1 : (Run.Vh m c main_v5 : S1024x1024.Idx → EReal)
      = (truncf (F := Ideal) .bf16 (transpose S1024x1024 [1, 0] (m ((c : Thread nD τ).loc main_arg5) : FVec Ideal S1024x1024 .f32) Facts₀.transposes_S1024x1024_S1024x1024_1_0 : FVec Ideal S1024x1024 .f32) Facts₀.bitsLt_bf16_f32 : FVec Ideal S1024x1024 .bf16) := by
    dsimp only [Run.Vh, Run.Wh, Run.Wl, hostOps0]; after_results
  rw [e1]
  exact transpose_ix2_apply _ _ h e

/-- The staged bias `main_v6`: `main_arg2` with a leading unit axis, read at (0, e). -/
theorem vh_main_v6 (c : Dev nD) (e : Fin 1024) :
    (Run.Vh m c main_v6 : S1x1024.Idx → EReal) (ix2 (0 : Fin 1) e) = (m ((c : Thread nD τ).loc main_arg2) : S1024.Idx → EReal) (ix1 e) := by
  have e1 : (Run.Vh m c main_v6 : S1x1024.Idx → EReal)
      = shapeCast S1x1024 (m ((c : Thread nD τ).loc main_arg2) : S1024.Idx → EReal) Facts₀.shapeCasts_S1024_S1x1024 := by
    dsimp only [Run.Vh, Run.Wh, Run.Wl, hostOps0]; after_results; rfl
  rw [e1]
  exact shapeCast_a_1a_apply _ _ (0 : Fin 1) e

/-- The staged bias `main_v7`: `main_arg4` with a leading unit axis, read at (0, e). -/
theorem vh_main_v7 (c : Dev nD) (e : Fin 1024) :
    (Run.Vh m c main_v7 : S1x1024.Idx → EReal) (ix2 (0 : Fin 1) e) = (m ((c : Thread nD τ).loc main_arg4) : S1024.Idx → EReal) (ix1 e) := by
  have e1 : (Run.Vh m c main_v7 : S1x1024.Idx → EReal)
      = shapeCast S1x1024 (m ((c : Thread nD τ).loc main_arg4) : S1024.Idx → EReal) Facts₀.shapeCasts_S1024_S1x1024 := by
    dsimp only [Run.Vh, Run.Wh, Run.Wl, hostOps0]; after_results; rfl
  rw [e1]
  exact shapeCast_a_1a_apply _ _ (0 : Fin 1) e

/-- The staged bias `main_v8`: `main_arg6` with a leading unit axis, read at (0, e). -/
theorem vh_main_v8 (c : Dev nD) (e : Fin 1024) :
    (Run.Vh m c main_v8 : S1x1024.Idx → EReal) (ix2 (0 : Fin 1) e) = (m ((c : Thread nD τ).loc main_arg6) : S1024.Idx → EReal) (ix1 e) := by
  have e1 : (Run.Vh m c main_v8 : S1x1024.Idx → EReal)
      = shapeCast S1x1024 (m ((c : Thread nD τ).loc main_arg6) : S1024.Idx → EReal) Facts₀.shapeCasts_S1024_S1x1024 := by
    dsimp only [Run.Vh, Run.Wh, Run.Wl, hostOps0]; after_results; rfl
  rw [e1]
  exact shapeCast_a_1a_apply _ _ (0 : Fin 1) e

/-! ## Blocks read at an index -/

/-- A block of 512 rows is determined by its values at (0, r, e). -/
theorem block_ext (Y Z : S1x512x1024.Idx → EReal)
    (h : ∀ (r : Fin 512) (e : Fin 1024), Y (ix3 (0 : Fin 1) r e) = Z (ix3 (0 : Fin 1) r e)) : Y = Z := by
  funext j
  have hj : j = ix3 (0 : Fin 1) (j 1) (j 2) := by
    funext a
    match a with
    | ⟨0, _⟩ => exact Fin.ext (by show (j 0).val = 0; have : (j 0).val < 1 := (j 0).isLt; omega)
    | ⟨1, _⟩ => rfl
    | ⟨2, _⟩ => rfl
  rw [hj]; exact h _ _

/-- Row r of a block of x against column e of the staged weight plus the staged bias is the linear layer at the
    row's place in the array, when the staged weight is the transposed weight and the staged bias the bias. -/
theorem proj_at (X : Attn.SX.Idx → EReal) (W : Attn.SW.Idx → EReal) (b : Attn.SB.Idx → EReal)
    (x0 : S1x512x1024.Idx → EReal) (w : S1024x1024.Idx → EReal) (bb : S1x1024.Idx → EReal)
    (bi : Fin 4) (s : Fin 2048) (r : Fin 512) (e : Fin 1024)
    (hx : ∀ h : Fin 1024, x0 (ix3 (0 : Fin 1) r h) = X (ix3 bi s h))
    (hw : ∀ h : Fin 1024, w (ix2 h e) = W (ix2 e h)) (hb : bb (ix2 (0 : Fin 1) e) = b (ix1 e)) :
    (∑ h : Fin 1024, x0 (ix3 (0 : Fin 1) r h) * w (ix2 h e)) + bb (ix2 (0 : Fin 1) e) = Attn.proj X W b bi s e := by
  unfold Attn.proj
  rw [hb]
  exact congrArg (· + b (ix1 e)) (Finset.sum_congr rfl fun h _ => by rw [hx, hw])

/-- Window 0's block at point `t` read at (0, r, h): the array at (batch, 512 · row block + r, h). -/
theorem blk0_read (t : Fin cfg0.N) (A : S4x2048x1024.Idx → EReal) (r : Fin 512) (h : Fin 1024) (bi : Fin 4) (s : Fin 2048)
    (hbi : bi.val = win0_0.index t (0 : Fin 3)) (hs : s.val = win0_0.index t (1 : Fin 3) * 512 + r.val)
    (h2 : win0_0.index t (2 : Fin 3) = 0) :
    ((cfg0.win 0).blk t).view.read (Elt Ideal) A (ix3 (0 : Fin 1) r h) = A (ix3 bi s h) := by
  show A (((cfg0.win 0).blk t).view.emb (ix3 (0 : Fin 1) r h)) = _
  refine congrArg A ?_
  funext a; apply Fin.ext
  match a with
  | ⟨0, _⟩ => show win0_0.index t (0 : Fin 3) * 1 + 1 * (0 : ℕ) = bi.val; omega
  | ⟨1, _⟩ => show win0_0.index t (1 : Fin 3) * 512 + 1 * r.val = s.val; omega
  | ⟨2, _⟩ => show win0_0.index t (2 : Fin 3) * 1024 + 1 * h.val = h.val; omega

/-- Window 7's block at point `t` read at (0, r, h): the array at (batch, 512 · row block + r, h). -/
theorem blk7_read (t : Fin cfg0.N) (A : S4x2048x1024.Idx → EReal) (r : Fin 512) (h : Fin 1024) (bi : Fin 4) (s : Fin 2048)
    (hbi : bi.val = win0_7.index t (0 : Fin 3)) (hs : s.val = win0_7.index t (1 : Fin 3) * 512 + r.val)
    (h2 : win0_7.index t (2 : Fin 3) = 0) :
    ((cfg0.win 7).blk t).view.read (Elt Ideal) A (ix3 (0 : Fin 1) r h) = A (ix3 bi s h) := by
  show A (((cfg0.win 7).blk t).view.emb (ix3 (0 : Fin 1) r h)) = _
  refine congrArg A ?_
  funext a; apply Fin.ext
  match a with
  | ⟨0, _⟩ => show win0_7.index t (0 : Fin 3) * 1 + 1 * (0 : ℕ) = bi.val; omega
  | ⟨1, _⟩ => show win0_7.index t (1 : Fin 3) * 512 + 1 * r.val = s.val; omega
  | ⟨2, _⟩ => show win0_7.index t (2 : Fin 3) * 1024 + 1 * h.val = h.val; omega

/-- Window 8's block at point `t` read at (0, r, h): the array at (batch, 512 · row block + r, h). -/
theorem blk8_read (t : Fin cfg0.N) (A : S4x2048x1024.Idx → EReal) (r : Fin 512) (h : Fin 1024) (bi : Fin 4) (s : Fin 2048)
    (hbi : bi.val = win0_8.index t (0 : Fin 3)) (hs : s.val = win0_8.index t (1 : Fin 3) * 512 + r.val)
    (h2 : win0_8.index t (2 : Fin 3) = 0) :
    ((cfg0.win 8).blk t).view.read (Elt Ideal) A (ix3 (0 : Fin 1) r h) = A (ix3 bi s h) := by
  show A (((cfg0.win 8).blk t).view.emb (ix3 (0 : Fin 1) r h)) = _
  refine congrArg A ?_
  funext a; apply Fin.ext
  match a with
  | ⟨0, _⟩ => show win0_8.index t (0 : Fin 3) * 1 + 1 * (0 : ℕ) = bi.val; omega
  | ⟨1, _⟩ => show win0_8.index t (1 : Fin 3) * 512 + 1 * r.val = s.val; omega
  | ⟨2, _⟩ => show win0_8.index t (2 : Fin 3) * 1024 + 1 * h.val = h.val; omega

/-- Window 9's block at point `t` read at (0, r, h): the array at (batch, 512 · row block + r, h). -/
theorem blk9_read (t : Fin cfg0.N) (A : S4x2048x1024.Idx → EReal) (r : Fin 512) (h : Fin 1024) (bi : Fin 4) (s : Fin 2048)
    (hbi : bi.val = win0_9.index t (0 : Fin 3)) (hs : s.val = win0_9.index t (1 : Fin 3) * 512 + r.val)
    (h2 : win0_9.index t (2 : Fin 3) = 0) :
    ((cfg0.win 9).blk t).view.read (Elt Ideal) A (ix3 (0 : Fin 1) r h) = A (ix3 bi s h) := by
  show A (((cfg0.win 9).blk t).view.emb (ix3 (0 : Fin 1) r h)) = _
  refine congrArg A ?_
  funext a; apply Fin.ext
  match a with
  | ⟨0, _⟩ => show win0_9.index t (0 : Fin 3) * 1 + 1 * (0 : ℕ) = bi.val; omega
  | ⟨1, _⟩ => show win0_9.index t (1 : Fin 3) * 512 + 1 * r.val = s.val; omega
  | ⟨2, _⟩ => show win0_9.index t (2 : Fin 3) * 1024 + 1 * h.val = h.val; omega

/-- Window 1 is the whole weight at every point. -/
theorem blk1_read (t : Fin cfg0.N) (A : S1024x1024.Idx → EReal) (h e : Fin 1024) :
    ((cfg0.win 1).blk t).view.read (Elt Ideal) A (ix2 h e) = A (ix2 h e) := by
  obtain ⟨z0, z1⟩ := idx_zero1 t
  show A (((cfg0.win 1).blk t).view.emb (ix2 h e)) = _
  refine congrArg A ?_
  funext a; apply Fin.ext
  match a with
  | ⟨0, _⟩ => show win0_1.index t (0 : Fin 2) * 1024 + 1 * h.val = h.val; omega
  | ⟨1, _⟩ => show win0_1.index t (1 : Fin 2) * 1024 + 1 * e.val = e.val; omega

/-- Window 3 is the whole weight at every point. -/
theorem blk3_read (t : Fin cfg0.N) (A : S1024x1024.Idx → EReal) (h e : Fin 1024) :
    ((cfg0.win 3).blk t).view.read (Elt Ideal) A (ix2 h e) = A (ix2 h e) := by
  obtain ⟨z0, z1⟩ := idx_zero3 t
  show A (((cfg0.win 3).blk t).view.emb (ix2 h e)) = _
  refine congrArg A ?_
  funext a; apply Fin.ext
  match a with
  | ⟨0, _⟩ => show win0_3.index t (0 : Fin 2) * 1024 + 1 * h.val = h.val; omega
  | ⟨1, _⟩ => show win0_3.index t (1 : Fin 2) * 1024 + 1 * e.val = e.val; omega

/-- Window 5 is the whole weight at every point. -/
theorem blk5_read (t : Fin cfg0.N) (A : S1024x1024.Idx → EReal) (h e : Fin 1024) :
    ((cfg0.win 5).blk t).view.read (Elt Ideal) A (ix2 h e) = A (ix2 h e) := by
  obtain ⟨z0, z1⟩ := idx_zero5 t
  show A (((cfg0.win 5).blk t).view.emb (ix2 h e)) = _
  refine congrArg A ?_
  funext a; apply Fin.ext
  match a with
  | ⟨0, _⟩ => show win0_5.index t (0 : Fin 2) * 1024 + 1 * h.val = h.val; omega
  | ⟨1, _⟩ => show win0_5.index t (1 : Fin 2) * 1024 + 1 * e.val = e.val; omega

/-- Window 2 is the whole bias row at every point. -/
theorem blk2_read (t : Fin cfg0.N) (A : S1x1024.Idx → EReal) (e : Fin 1024) :
    ((cfg0.win 2).blk t).view.read (Elt Ideal) A (ix2 (0 : Fin 1) e) = A (ix2 (0 : Fin 1) e) := by
  obtain ⟨z0, z1⟩ := idx_zero2 t
  show A (((cfg0.win 2).blk t).view.emb (ix2 (0 : Fin 1) e)) = _
  refine congrArg A ?_
  funext a; apply Fin.ext
  match a with
  | ⟨0, _⟩ => show win0_2.index t (0 : Fin 2) * 1 + 1 * (0 : ℕ) = 0; omega
  | ⟨1, _⟩ => show win0_2.index t (1 : Fin 2) * 1024 + 1 * e.val = e.val; omega

/-- Window 4 is the whole bias row at every point. -/
theorem blk4_read (t : Fin cfg0.N) (A : S1x1024.Idx → EReal) (e : Fin 1024) :
    ((cfg0.win 4).blk t).view.read (Elt Ideal) A (ix2 (0 : Fin 1) e) = A (ix2 (0 : Fin 1) e) := by
  obtain ⟨z0, z1⟩ := idx_zero4 t
  show A (((cfg0.win 4).blk t).view.emb (ix2 (0 : Fin 1) e)) = _
  refine congrArg A ?_
  funext a; apply Fin.ext
  match a with
  | ⟨0, _⟩ => show win0_4.index t (0 : Fin 2) * 1 + 1 * (0 : ℕ) = 0; omega
  | ⟨1, _⟩ => show win0_4.index t (1 : Fin 2) * 1024 + 1 * e.val = e.val; omega

/-- Window 6 is the whole bias row at every point. -/
theorem blk6_read (t : Fin cfg0.N) (A : S1x1024.Idx → EReal) (e : Fin 1024) :
    ((cfg0.win 6).blk t).view.read (Elt Ideal) A (ix2 (0 : Fin 1) e) = A (ix2 (0 : Fin 1) e) := by
  obtain ⟨z0, z1⟩ := idx_zero6 t
  show A (((cfg0.win 6).blk t).view.emb (ix2 (0 : Fin 1) e)) = _
  refine congrArg A ?_
  funext a; apply Fin.ext
  match a with
  | ⟨0, _⟩ => show win0_6.index t (0 : Fin 2) * 1 + 1 * (0 : ℕ) = 0; omega
  | ⟨1, _⟩ => show win0_6.index t (1 : Fin 2) * 1024 + 1 * e.val = e.val; omega

/-! ## Output window 7 -/

/-- What point `t` writes back is block `t` of the linear layer of the argument arrays. -/
theorem flushed7_eq (c : Dev nD) (t : Fin cfg0.N) :
    (R0.dat0 (Run.Vh m) c).flushed 7 t = ((cfg0.win 7).blk t).view.read (Elt Ideal)
      (projArr (m ((c : Thread nD τ).loc main_arg0)) (m ((c : Thread nD τ).loc main_arg1)) (m ((c : Thread nD τ).loc main_arg2))) := by
  show (cfg0.win 7).cut (grid0.coords t) ((R0.dat0 (Run.Vh m) c).after 7 t) = _
  rw [R0.after0_7]
  unfold R0.out0_7
  rw [View.canon_unit_zero hz3]
  simp only [View.ld_unit_zero (S := S1x512x1024) hz3, View.ld_unit_zero (S := S1024x1024) hz2, View.ld_unit_zero (S := S1x1024) hz2]
  obtain ⟨e0, e1, e2, e3, e4, e5⟩ := idx_facts7 t
  refine block_ext _ _ fun r e => ?_
  have hbi : win0_7.index t (0 : Fin 3) < 4 := by omega
  have hs : win0_7.index t (1 : Fin 3) * 512 + r.val < 2048 := by have := r.isLt; omega
  refine (Pay0.k0_pay4_apply _ _ _ r e).trans ?_
  refine (proj_at (m ((c : Thread nD τ).loc main_arg0)) (m ((c : Thread nD τ).loc main_arg1)) (m ((c : Thread nD τ).loc main_arg2)) _ _ _ ⟨_, hbi⟩ ⟨_, hs⟩ r e (fun h => ?_) (fun h => ?_) ?_).trans ?_
  · refine (blk0_read t _ r h ⟨_, hbi⟩ ⟨_, hs⟩ e0.symm (congrArg (· * 512 + r.val) e1.symm) e2).trans ?_
    exact congrFun (vh_main_arg0 m c) _
  · refine (blk1_read t _ h e).trans ?_
    exact vh_main_v1 m c h e
  · refine (blk2_read t _ e).trans ?_
    exact vh_main_v6 m c e
  · exact (blk7_read t (projArr (m ((c : Thread nD τ).loc main_arg0)) (m ((c : Thread nD τ).loc main_arg1)) (m ((c : Thread nD τ).loc main_arg2))) r e ⟨_, hbi⟩ ⟨_, hs⟩ rfl rfl e3).symm

/-- An index of the array is in point `t`'s block iff each coordinate is in the block's range on its axis. -/
theorem mem_blk7 (t : Fin cfg0.N) (i : S4x2048x1024.Idx) :
    i ∈ ((cfg0.win 7).blk t).view.set ↔ ∀ a : Fin 3, win0_7.index t a * S1x512x1024.size a ≤ (i a).val ∧ (i a).val < win0_7.index t a * S1x512x1024.size a + S1x512x1024.size a := by
  show i ∈ ((View.whole main_v9_0).slice (win0_7.rect t)).set ↔ _
  rw [View.set_slice_whole, Rect.mem_set_unit]
  exact Iff.rfl

/-- Every index is in some point's block: the point of its batch and its row block. -/
theorem cover7 (i : S4x2048x1024.Idx) :
    ∃ t : Fin cfg0.N, (cfg0.win 7).flush t = true ∧ i ∈ ((cfg0.win 7).blk t).view.set := by
  have hi0 : (i 0).val < 4 := (i 0).isLt
  have hi1 : (i 1).val < 2048 := (i 1).isLt
  have hi2 : (i 2).val < 1024 := (i 2).isLt
  obtain ⟨t, ht⟩ := idx_onto7 ⟨(i 0).val, hi0⟩ ⟨(i 1).val / 512, by omega⟩
  have q0 : win0_7.index t (0 : Fin 3) = (i 0).val := congrFun ht 0
  have q1 : win0_7.index t (1 : Fin 3) = (i 1).val / 512 := congrFun ht 1
  have q2 : win0_7.index t (2 : Fin 3) = 0 := congrFun ht 2
  refine ⟨t, flush0_7 t, ?_⟩
  rw [mem_blk7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 512 ≤ (i 1).val ∧ (i 1).val < win0_7.index t (1 : Fin 3) * 512 + 512; omega
  | ⟨2, _⟩ => show win0_7.index t (2 : Fin 3) * 1024 ≤ (i 2).val ∧ (i 2).val < win0_7.index t (2 : Fin 3) * 1024 + 1024; omega

/-- The array after the call: the linear layer of the argument arrays. -/
theorem final_q (c : Dev nD) : (R0.dat0 (Run.Vh m) c).arrAt 7 cfg0.N
    = projArr (m ((c : Thread nD τ).loc main_arg0)) (m ((c : Thread nD τ).loc main_arg1)) (m ((c : Thread nD τ).loc main_arg2)) :=
  (R0.dat0 (Run.Vh m) c).arrAt_eq_of_cover 7 (projArr (m ((c : Thread nD τ).loc main_arg0)) (m ((c : Thread nD τ).loc main_arg1)) (m ((c : Thread nD τ).loc main_arg2)))
    (fun t _ => flushed7_eq m c t) cover7

/-! ## Output window 8 -/

/-- What point `t` writes back is block `t` of the linear layer of the argument arrays. -/
theorem flushed8_eq (c : Dev nD) (t : Fin cfg0.N) :
    (R0.dat0 (Run.Vh m) c).flushed 8 t = ((cfg0.win 8).blk t).view.read (Elt Ideal)
      (projArr (m ((c : Thread nD τ).loc main_arg0)) (m ((c : Thread nD τ).loc main_arg3)) (m ((c : Thread nD τ).loc main_arg4))) := by
  show (cfg0.win 8).cut (grid0.coords t) ((R0.dat0 (Run.Vh m) c).after 8 t) = _
  rw [R0.after0_8]
  unfold R0.out0_8
  rw [View.canon_unit_zero hz3]
  simp only [View.ld_unit_zero (S := S1x512x1024) hz3, View.ld_unit_zero (S := S1024x1024) hz2, View.ld_unit_zero (S := S1x1024) hz2]
  obtain ⟨e0, e1, e2, e3, e4, e5⟩ := idx_facts8 t
  refine block_ext _ _ fun r e => ?_
  have hbi : win0_8.index t (0 : Fin 3) < 4 := by omega
  have hs : win0_8.index t (1 : Fin 3) * 512 + r.val < 2048 := by have := r.isLt; omega
  refine (Pay0.k0_pay5_apply _ _ _ r e).trans ?_
  refine (proj_at (m ((c : Thread nD τ).loc main_arg0)) (m ((c : Thread nD τ).loc main_arg3)) (m ((c : Thread nD τ).loc main_arg4)) _ _ _ ⟨_, hbi⟩ ⟨_, hs⟩ r e (fun h => ?_) (fun h => ?_) ?_).trans ?_
  · refine (blk0_read t _ r h ⟨_, hbi⟩ ⟨_, hs⟩ e0.symm (congrArg (· * 512 + r.val) e1.symm) e2).trans ?_
    exact congrFun (vh_main_arg0 m c) _
  · refine (blk3_read t _ h e).trans ?_
    exact vh_main_v3 m c h e
  · refine (blk4_read t _ e).trans ?_
    exact vh_main_v7 m c e
  · exact (blk8_read t (projArr (m ((c : Thread nD τ).loc main_arg0)) (m ((c : Thread nD τ).loc main_arg3)) (m ((c : Thread nD τ).loc main_arg4))) r e ⟨_, hbi⟩ ⟨_, hs⟩ rfl rfl e3).symm

/-- An index of the array is in point `t`'s block iff each coordinate is in the block's range on its axis. -/
theorem mem_blk8 (t : Fin cfg0.N) (i : S4x2048x1024.Idx) :
    i ∈ ((cfg0.win 8).blk t).view.set ↔ ∀ a : Fin 3, win0_8.index t a * S1x512x1024.size a ≤ (i a).val ∧ (i a).val < win0_8.index t a * S1x512x1024.size a + S1x512x1024.size a := by
  show i ∈ ((View.whole main_v9_1).slice (win0_8.rect t)).set ↔ _
  rw [View.set_slice_whole, Rect.mem_set_unit]
  exact Iff.rfl

/-- Every index is in some point's block: the point of its batch and its row block. -/
theorem cover8 (i : S4x2048x1024.Idx) :
    ∃ t : Fin cfg0.N, (cfg0.win 8).flush t = true ∧ i ∈ ((cfg0.win 8).blk t).view.set := by
  have hi0 : (i 0).val < 4 := (i 0).isLt
  have hi1 : (i 1).val < 2048 := (i 1).isLt
  have hi2 : (i 2).val < 1024 := (i 2).isLt
  obtain ⟨t, ht⟩ := idx_onto8 ⟨(i 0).val, hi0⟩ ⟨(i 1).val / 512, by omega⟩
  have q0 : win0_8.index t (0 : Fin 3) = (i 0).val := congrFun ht 0
  have q1 : win0_8.index t (1 : Fin 3) = (i 1).val / 512 := congrFun ht 1
  have q2 : win0_8.index t (2 : Fin 3) = 0 := congrFun ht 2
  refine ⟨t, flush0_8 t, ?_⟩
  rw [mem_blk8]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 512 ≤ (i 1).val ∧ (i 1).val < win0_8.index t (1 : Fin 3) * 512 + 512; omega
  | ⟨2, _⟩ => show win0_8.index t (2 : Fin 3) * 1024 ≤ (i 2).val ∧ (i 2).val < win0_8.index t (2 : Fin 3) * 1024 + 1024; omega

/-- The array after the call: the linear layer of the argument arrays. -/
theorem final_k (c : Dev nD) : (R0.dat0 (Run.Vh m) c).arrAt 8 cfg0.N
    = projArr (m ((c : Thread nD τ).loc main_arg0)) (m ((c : Thread nD τ).loc main_arg3)) (m ((c : Thread nD τ).loc main_arg4)) :=
  (R0.dat0 (Run.Vh m) c).arrAt_eq_of_cover 8 (projArr (m ((c : Thread nD τ).loc main_arg0)) (m ((c : Thread nD τ).loc main_arg3)) (m ((c : Thread nD τ).loc main_arg4)))
    (fun t _ => flushed8_eq m c t) cover8

/-! ## Output window 9 -/

/-- What point `t` writes back is block `t` of the linear layer of the argument arrays. -/
theorem flushed9_eq (c : Dev nD) (t : Fin cfg0.N) :
    (R0.dat0 (Run.Vh m) c).flushed 9 t = ((cfg0.win 9).blk t).view.read (Elt Ideal)
      (projArr (m ((c : Thread nD τ).loc main_arg0)) (m ((c : Thread nD τ).loc main_arg5)) (m ((c : Thread nD τ).loc main_arg6))) := by
  show (cfg0.win 9).cut (grid0.coords t) ((R0.dat0 (Run.Vh m) c).after 9 t) = _
  rw [R0.after0_9]
  unfold R0.out0_9
  rw [View.canon_unit_zero hz3]
  simp only [View.ld_unit_zero (S := S1x512x1024) hz3, View.ld_unit_zero (S := S1024x1024) hz2, View.ld_unit_zero (S := S1x1024) hz2]
  obtain ⟨e0, e1, e2, e3, e4, e5⟩ := idx_facts9 t
  refine block_ext _ _ fun r e => ?_
  have hbi : win0_9.index t (0 : Fin 3) < 4 := by omega
  have hs : win0_9.index t (1 : Fin 3) * 512 + r.val < 2048 := by have := r.isLt; omega
  refine (Pay0.k0_pay13_apply _ _ _ r e).trans ?_
  refine (proj_at (m ((c : Thread nD τ).loc main_arg0)) (m ((c : Thread nD τ).loc main_arg5)) (m ((c : Thread nD τ).loc main_arg6)) _ _ _ ⟨_, hbi⟩ ⟨_, hs⟩ r e (fun h => ?_) (fun h => ?_) ?_).trans ?_
  · refine (blk0_read t _ r h ⟨_, hbi⟩ ⟨_, hs⟩ e0.symm (congrArg (· * 512 + r.val) e1.symm) e2).trans ?_
    exact congrFun (vh_main_arg0 m c) _
  · refine (blk5_read t _ h e).trans ?_
    exact vh_main_v5 m c h e
  · refine (blk6_read t _ e).trans ?_
    exact vh_main_v8 m c e
  · exact (blk9_read t (projArr (m ((c : Thread nD τ).loc main_arg0)) (m ((c : Thread nD τ).loc main_arg5)) (m ((c : Thread nD τ).loc main_arg6))) r e ⟨_, hbi⟩ ⟨_, hs⟩ rfl rfl e3).symm

/-- An index of the array is in point `t`'s block iff each coordinate is in the block's range on its axis. -/
theorem mem_blk9 (t : Fin cfg0.N) (i : S4x2048x1024.Idx) :
    i ∈ ((cfg0.win 9).blk t).view.set ↔ ∀ a : Fin 3, win0_9.index t a * S1x512x1024.size a ≤ (i a).val ∧ (i a).val < win0_9.index t a * S1x512x1024.size a + S1x512x1024.size a := by
  show i ∈ ((View.whole main_v9_2).slice (win0_9.rect t)).set ↔ _
  rw [View.set_slice_whole, Rect.mem_set_unit]
  exact Iff.rfl

/-- Every index is in some point's block: the point of its batch and its row block. -/
theorem cover9 (i : S4x2048x1024.Idx) :
    ∃ t : Fin cfg0.N, (cfg0.win 9).flush t = true ∧ i ∈ ((cfg0.win 9).blk t).view.set := by
  have hi0 : (i 0).val < 4 := (i 0).isLt
  have hi1 : (i 1).val < 2048 := (i 1).isLt
  have hi2 : (i 2).val < 1024 := (i 2).isLt
  obtain ⟨t, ht⟩ := idx_onto9 ⟨(i 0).val, hi0⟩ ⟨(i 1).val / 512, by omega⟩
  have q0 : win0_9.index t (0 : Fin 3) = (i 0).val := congrFun ht 0
  have q1 : win0_9.index t (1 : Fin 3) = (i 1).val / 512 := congrFun ht 1
  have q2 : win0_9.index t (2 : Fin 3) = 0 := congrFun ht 2
  refine ⟨t, flush0_9 t, ?_⟩
  rw [mem_blk9]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 512 ≤ (i 1).val ∧ (i 1).val < win0_9.index t (1 : Fin 3) * 512 + 512; omega
  | ⟨2, _⟩ => show win0_9.index t (2 : Fin 3) * 1024 ≤ (i 2).val ∧ (i 2).val < win0_9.index t (2 : Fin 3) * 1024 + 1024; omega

/-- The array after the call: the linear layer of the argument arrays. -/
theorem final_v (c : Dev nD) : (R0.dat0 (Run.Vh m) c).arrAt 9 cfg0.N
    = projArr (m ((c : Thread nD τ).loc main_arg0)) (m ((c : Thread nD τ).loc main_arg5)) (m ((c : Thread nD τ).loc main_arg6)) :=
  (R0.dat0 (Run.Vh m) c).arrAt_eq_of_cover 9 (projArr (m ((c : Thread nD τ).loc main_arg0)) (m ((c : Thread nD τ).loc main_arg5)) (m ((c : Thread nD τ).loc main_arg6)))
    (fun t _ => flushed9_eq m c t) cover9

end Cert.KernelIdeal.Val0

end
-- ==== Proof.KiPay1.lean ====
/-
  One step of the attention kernel, row by row.

  On a query tile of 1024 rows against a key tile of 1024 keys the kernel forms the masked, scaled score tile
  (the inner products of the query rows with the key rows, times 1/32, and -∞ where the key lies after the query),
  takes each row's maximum against the running maximum, rescales the running sum and the running weighted sum by
  exp (old maximum - new maximum) and adds the row's exponentials and their products with the value rows.  Read at a
  row this is `Attn.onlineStep` of the row's scores and the tile's value rows; the reset values are `Attn.online0`
  and the final quotient is `Attn.onlineOut`.
-/
import proofs.«402828_j13597866459507_3_alg».proof.Proof.Gen.KernelIdeal.Skeleton
import proofs.«402828_j13597866459507_3_alg».proof.Proof.Spec
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value
import Idealize.ShloMosaic.Lib.StableHlo.Predicate

noncomputable section

namespace Cert.KernelIdeal.Pay1

open Cert.KernelIdeal Cert.KernelIdeal.Gen Idealize.ShloMosaic Idealize.ShloMosaic.ValueIdx
open scoped BigOperators

/-! ## The constants -/

/-- The word of -∞ denotes the bottom element. -/
theorem ofBits_neg_inf : Ideal.ofBits .f32 0xFF800000#32 = ⊥ := by simp [Ideal.ofBits, Ideal.ieee]

/-- The mask's fill value is the bottom element, by the table of named constants. -/
theorem neg_big_eq : Named.named (F := Ideal) Cert.KernelIdeal.κ "neg_big" (φ := .f32) 0xFF333332#32 = (⊥ : EReal) :=
  IdealRules.named_const.ideal_named_scalar _ _ _ _ rfl

/-! ## The causal mask -/

/-- The row number of the mask: the query tile's offset plus the row, as a natural number. -/
theorem row_word (qi : Fin 2) (r : Fin 1024) :
    (IntOp.addi (Scalar.muli (BitVec.ofNat 32 qi.val) 1024#32) (BitVec.ofNat 32 r.val)).toNat = 1024 * qi.val + r.val := by
  have hq := qi.isLt
  have hr := r.isLt
  show (BitVec.ofNat 32 qi.val * 1024#32 + BitVec.ofNat 32 r.val).toNat = _
  simp only [BitVec.toNat_add, BitVec.toNat_mul, BitVec.toNat_ofNat]
  omega

/-- The mask's bit at (r, c): set exactly when the key is not after the query. -/
theorem mask_bit (qi ki : Fin 2) (r c : Fin 1024) :
    IntOp.cmpi .sge (IntOp.addi (Scalar.muli (BitVec.ofNat 32 qi.val) 1024#32) (BitVec.ofNat 32 r.val))
        (IntOp.addi (Scalar.muli (BitVec.ofNat 32 ki.val) 1024#32) (BitVec.ofNat 32 c.val)) = 1#1
      ↔ 1024 * ki.val + c.val ≤ 1024 * qi.val + r.val := by
  have hq := qi.isLt
  have hk := ki.isLt
  have hr := r.isLt
  have hc := c.isLt
  rw [StableHlo.Predicate.sge_iff_toNat (by rw [row_word]; omega) (by rw [row_word]; omega), row_word, row_word]

/-! ## The two block products -/

theorem qk_lhs_0 (i : S1024x1024.Idx) (q : dot_S1024x1024_S1024x1024_S1024x1024_1_1_0_0_n_n.contr.Idx) : (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl
theorem qk_lhs_1 (i : S1024x1024.Idx) (q : dot_S1024x1024_S1024x1024_S1024x1024_1_1_0_0_n_n.contr.Idx) : (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem qk_rhs_0 (i : S1024x1024.Idx) (q : dot_S1024x1024_S1024x1024_S1024x1024_1_1_0_0_n_n.contr.Idx) : (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl
theorem qk_rhs_1 (i : S1024x1024.Idx) (q : dot_S1024x1024_S1024x1024_S1024x1024_1_1_0_0_n_n.contr.Idx) : (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The score product at (r, c): the inner product of row r of the left operand with row c of the right. -/
theorem qk_apply (A B : FVec Ideal S1024x1024 .bf16) (r c : Fin 1024) :
    matmul dot_S1024x1024_S1024x1024_S1024x1024_1_1_0_0_n_n none A B (constant S1024x1024 .f32 0x00000000#32) (ix2 r c) = ∑ e : Fin 1024, A (ix2 r e) * B (ix2 c e) := by
  simp only [matmul]
  rw [Ideal.matmul_constant_zero_apply, ← Equiv.sum_comp (contrEquiv1 dot_S1024x1024_S1024x1024_S1024x1024_1_1_0_0_n_n 1024 rfl rfl).symm]
  refine Finset.sum_congr rfl fun e _ => ?_
  have he := contrEquiv1_symm_val dot_S1024x1024_S1024x1024_S1024x1024_1_1_0_0_n_n 1024 rfl rfl e
  have el : dot_S1024x1024_S1024x1024_S1024x1024_1_1_0_0_n_n.lhsIdx (ix2 r c) ((contrEquiv1 dot_S1024x1024_S1024x1024_S1024x1024_1_1_0_0_n_n 1024 rfl rfl).symm e) = ix2 r e := funext fun a => Fin.ext (by
    match a with
    | ⟨0, _⟩ => exact qk_lhs_0 _ _
    | ⟨1, _⟩ => exact (qk_lhs_1 _ _).trans he)
  have er : dot_S1024x1024_S1024x1024_S1024x1024_1_1_0_0_n_n.rhsIdx (ix2 r c) ((contrEquiv1 dot_S1024x1024_S1024x1024_S1024x1024_1_1_0_0_n_n 1024 rfl rfl).symm e) = ix2 c e := funext fun a => Fin.ext (by
    match a with
    | ⟨0, _⟩ => exact qk_rhs_0 _ _
    | ⟨1, _⟩ => exact (qk_rhs_1 _ _).trans he)
  rw [el, er]

theorem pv_lhs_0 (i : S1024x1024.Idx) (q : dot_S1024x1024_S1024x1024_S1024x1024_1_0_0_1_n_n.contr.Idx) : (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl
theorem pv_lhs_1 (i : S1024x1024.Idx) (q : dot_S1024x1024_S1024x1024_S1024x1024_1_0_0_1_n_n.contr.Idx) : (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem pv_rhs_0 (i : S1024x1024.Idx) (q : dot_S1024x1024_S1024x1024_S1024x1024_1_0_0_1_n_n.contr.Idx) : (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem pv_rhs_1 (i : S1024x1024.Idx) (q : dot_S1024x1024_S1024x1024_S1024x1024_1_0_0_1_n_n.contr.Idx) : (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- The value product at (r, e): row r of the weights against column e of the value rows. -/
theorem pv_apply (A B : FVec Ideal S1024x1024 .bf16) (r e : Fin 1024) :
    matmul dot_S1024x1024_S1024x1024_S1024x1024_1_0_0_1_n_n none A B (constant S1024x1024 .f32 0x00000000#32) (ix2 r e) = ∑ c : Fin 1024, A (ix2 r c) * B (ix2 c e) := by
  simp only [matmul]
  rw [Ideal.matmul_constant_zero_apply, ← Equiv.sum_comp (contrEquiv1 dot_S1024x1024_S1024x1024_S1024x1024_1_0_0_1_n_n 1024 rfl rfl).symm]
  refine Finset.sum_congr rfl fun c _ => ?_
  have hc := contrEquiv1_symm_val dot_S1024x1024_S1024x1024_S1024x1024_1_0_0_1_n_n 1024 rfl rfl c
  have el : dot_S1024x1024_S1024x1024_S1024x1024_1_0_0_1_n_n.lhsIdx (ix2 r e) ((contrEquiv1 dot_S1024x1024_S1024x1024_S1024x1024_1_0_0_1_n_n 1024 rfl rfl).symm c) = ix2 r c := funext fun a => Fin.ext (by
    match a with
    | ⟨0, _⟩ => exact pv_lhs_0 _ _
    | ⟨1, _⟩ => exact (pv_lhs_1 _ _).trans hc)
  have er : dot_S1024x1024_S1024x1024_S1024x1024_1_0_0_1_n_n.rhsIdx (ix2 r e) ((contrEquiv1 dot_S1024x1024_S1024x1024_S1024x1024_1_0_0_1_n_n 1024 rfl rfl).symm c) = ix2 c e := funext fun a => Fin.ext (by
    match a with
    | ⟨0, _⟩ => exact (pv_rhs_0 _ _).trans hc
    | ⟨1, _⟩ => exact pv_rhs_1 _ _)
  rw [el, er]

/-! ## Layout operations and reductions at a row -/

/-- A column broadcast along the rows reads the column's entry of the row. -/
theorem col_bcast_apply {α : Type} (v : S1024x1.Idx → α) (r c : Fin 1024) :
    broadcastTo S1024x1024 v broadcasts_S1024x1_S1024x1024 (ix2 r c) = v (ix2 r (0 : Fin 1)) :=
  broadcastTo_apply v broadcasts_S1024x1_S1024x1024 (ix2 r c) (ix2 r (0 : Fin 1)) fun a => by
    match a with
    | ⟨0, _⟩ => rfl
    | ⟨1, _⟩ => rfl

/-- A vector viewed as a column reads its entry of the row. -/
theorem col_cast_apply {α : Type} (v : S1024.Idx → α) (r : Fin 1024) :
    shapeCast S1024x1 v shapeCasts_S1024_S1024x1 (ix2 r (0 : Fin 1)) = v (ix1 r) :=
  shapeCast_apply v shapeCasts_S1024_S1024x1 _ _ (by
    rw [Shape.rowMajor_val_one, Shape.rowMajor_val_two]
    show r.val = r.val * 1 + 0
    omega)

/-- The index over row r with k inserted on the reduced axis is (r, k). -/
theorem lift_row (r k : Fin 1024) : reduces_S1024x1024_S1024.lift (ix1 r) k = ix2 r k :=
  funext fun a => Fin.ext (by
    match a with
    | ⟨0, _⟩ => rfl
    | ⟨1, _⟩ => rfl)

/-- The row maxima, as a column, read at row r: the maximum of the row. -/
theorem rowmax_apply (X : FVec Ideal S1024x1024 .f32) (r : Fin 1024) :
    shapeCast S1024x1 (multiReduction .maximumf [1] S1024 X 0xFF800000#32 reduces_S1024x1024_S1024 (.inl rfl) rfl)
      shapeCasts_S1024_S1024x1 (ix2 r (0 : Fin 1)) = Attn.rowMax fun c : Fin 1024 => X (ix2 r c) := by
  refine (col_cast_apply _ r).trans ?_
  refine (Ideal.multiReduction_maximumf_single X _ reduces_S1024x1024_S1024 (.inl rfl) rfl (ix1 r)).trans ?_
  show (Finset.univ : Finset (Fin 1024)).fold max (Ideal.ofBits .f32 0xFF800000#32) (X ∘ reduces_S1024x1024_S1024.lift (ix1 r)) = _
  rw [ofBits_neg_inf]
  unfold Attn.rowMax
  congr 1
  funext c
  exact congrArg X (lift_row r c)

/-- The row sums, as a column, read at row r: the sum of the row. -/
theorem rowsum_apply (X : FVec Ideal S1024x1024 .f32) (r : Fin 1024) :
    shapeCast S1024x1 (multiReduction .add [1] S1024 X 0x00000000#32 reduces_S1024x1024_S1024 (.inl rfl) rfl)
      shapeCasts_S1024_S1024x1 (ix2 r (0 : Fin 1)) = ∑ c : Fin 1024, X (ix2 r c) := by
  refine (col_cast_apply _ r).trans ?_
  refine (Ideal.multiReduction_add_single X _ reduces_S1024x1024_S1024 (.inl rfl) rfl (ix1 r)).trans ?_
  show ∑ c : Fin 1024, X (reduces_S1024x1024_S1024.lift (ix1 r) c) = _
  exact Finset.sum_congr rfl fun c _ => congrArg X (lift_row r c)

/-! ## The score tile -/

/-- The masked, scaled score of query row r of tile qi against key row c of tile ki. -/
def sTile (qi ki : Fin 2) (qb kb : Vec Ideal S1x1024x1024 .bf16) (r : Fin 1024) (c : Fin 1024) : EReal :=
  if 1024 * ki.val + c.val ≤ 1024 * qi.val + r.val then
    (∑ e : Fin 1024, qb (ix3 (0 : Fin 1) r e) * kb (ix3 (0 : Fin 1) c e)) * Attn.scale
  else ⊥

theorem k1_pay9_apply (qi ki : Fin 2) (qb kb : Vec Ideal S1x1024x1024 .bf16) (r c : Fin 1024) :
    k1_pay9 (F := Ideal) (BitVec.ofNat 32 qi.val) (BitVec.ofNat 32 ki.val) qb kb (ix2 r c) = sTile qi ki qb kb r c := by
  unfold k1_pay9 sTile
  show Scalar.select (IntOp.cmpi .sge
      (IntOp.addi (Scalar.muli (BitVec.ofNat 32 qi.val) 1024#32) (iota .tc S1024x1024 32 [0] iota_S1024x1024_d0_w32 (ix2 r c)))
      (IntOp.addi (Scalar.muli (BitVec.ofNat 32 ki.val) 1024#32) (iota .tc S1024x1024 32 [1] iota_S1024x1024_d1_w32 (ix2 r c))))
    (matmul (F := Ideal) dot_S1024x1024_S1024x1024_S1024x1024_1_1_0_0_n_n none
        (shapeCast S1024x1024 qb shapeCasts_S1x1024x1024_S1024x1024) (shapeCast S1024x1024 kb shapeCasts_S1x1024x1024_S1024x1024)
        (constant S1024x1024 .f32 0x00000000#32) (ix2 r c) * Attn.scale)
    (Named.named (F := Ideal) κ "neg_big" (φ := .f32) 0xFF333332#32) = _
  rw [iota_single_apply, iota_single_apply, qk_apply, neg_big_eq]
  show Scalar.select (IntOp.cmpi .sge
      (IntOp.addi (Scalar.muli (BitVec.ofNat 32 qi.val) 1024#32) (BitVec.ofNat 32 r.val))
      (IntOp.addi (Scalar.muli (BitVec.ofNat 32 ki.val) 1024#32) (BitVec.ofNat 32 c.val))) _ _ = _
  by_cases h : 1024 * ki.val + c.val ≤ 1024 * qi.val + r.val
  · rw [if_pos h, (mask_bit qi ki r c).mpr h, select_one]
    congr 1
    refine Finset.sum_congr rfl fun e _ => ?_
    rw [shapeCast_1ab_ab_apply, shapeCast_1ab_ab_apply]
  · rw [if_neg h, eq_zero_of_ne_one (fun hb => h ((mask_bit qi ki r c).mp hb)), select_zero]

/-! ## One step at a row -/

/-- The exponential of a vector reads the exponential of the entry. -/
theorem exp_apply {s : Shape} {φ : FTy} (a : FVec Ideal s φ) (i : s.Idx) : exp a i = Ideal.exp (a i) := rfl

section Step
variable (qi ki : Fin 2) (qb kb vb : Vec Ideal S1x1024x1024 .bf16) (mo lo : Vec Ideal S1024x1 .f32)
  (acc : Vec Ideal S1024x1024 .f32) (r : Fin 1024)

/-- The new running maximum of row r. -/
theorem pay10_row :
    k1_pay10 (F := Ideal) (BitVec.ofNat 32 qi.val) (BitVec.ofNat 32 ki.val) qb kb mo (ix2 r (0 : Fin 1))
      = max (mo (ix2 r (0 : Fin 1))) (Attn.rowMax (sTile qi ki qb kb r)) := by
  unfold k1_pay10
  refine (maximumf_apply _ _ _).trans ?_
  rw [rowmax_apply]
  exact congrArg (max (mo (ix2 r (0 : Fin 1)))) (congrArg Attn.rowMax (funext fun c => k1_pay9_apply qi ki qb kb r c))

/-- The rescaling factor of row r: exp (old maximum - new maximum). -/
theorem pay11_row :
    k1_pay11 (F := Ideal) (BitVec.ofNat 32 qi.val) (BitVec.ofNat 32 ki.val) qb kb mo mo (ix2 r (0 : Fin 1))
      = Ideal.exp (mo (ix2 r (0 : Fin 1)) - max (mo (ix2 r (0 : Fin 1))) (Attn.rowMax (sTile qi ki qb kb r))) := by
  unfold k1_pay11
  refine (exp_apply _ _).trans (congrArg Ideal.exp ?_)
  refine (subf_apply _ _ _).trans ?_
  rw [pay10_row]

/-- The weight of key c for row r: exp (score - new maximum). -/
theorem pay12_row (c : Fin 1024) :
    k1_pay12 (F := Ideal) (BitVec.ofNat 32 qi.val) (BitVec.ofNat 32 ki.val) qb kb mo (ix2 r c)
      = Ideal.exp (sTile qi ki qb kb r c - max (mo (ix2 r (0 : Fin 1))) (Attn.rowMax (sTile qi ki qb kb r))) := by
  unfold k1_pay12
  refine (exp_apply _ _).trans (congrArg Ideal.exp ?_)
  refine (subf_apply _ _ _).trans ?_
  rw [col_bcast_apply, pay10_row, k1_pay9_apply]

/-- The new running sum of row r. -/
theorem pay13_row :
    k1_pay4 (F := Ideal) (k1_pay13 (BitVec.ofNat 32 qi.val) (BitVec.ofNat 32 ki.val) qb kb mo mo lo) (ix2 r (0 : Fin 1))
      = Ideal.exp (mo (ix2 r (0 : Fin 1)) - max (mo (ix2 r (0 : Fin 1))) (Attn.rowMax (sTile qi ki qb kb r))) * lo (ix2 r (0 : Fin 1))
        + ∑ c : Fin 1024, Ideal.exp (sTile qi ki qb kb r c - max (mo (ix2 r (0 : Fin 1))) (Attn.rowMax (sTile qi ki qb kb r))) := by
  unfold k1_pay4 k1_pay13
  rw [shapeCast_self]
  refine (addf_apply _ _ _).trans ?_
  rw [mulf_apply, pay11_row, rowsum_apply]
  exact congrArg (_ + ·) (Finset.sum_congr rfl fun c _ => pay12_row qi ki qb kb mo r c)

/-- The new running weighted sum of row r at feature e. -/
theorem pay5_row (e : Fin 1024) :
    k1_pay5 (F := Ideal) (k1_pay8 vb) (k1_pay11 (BitVec.ofNat 32 qi.val) (BitVec.ofNat 32 ki.val) qb kb mo mo)
        (k1_pay12 (BitVec.ofNat 32 qi.val) (BitVec.ofNat 32 ki.val) qb kb mo) acc (ix2 r e)
      = Ideal.exp (mo (ix2 r (0 : Fin 1)) - max (mo (ix2 r (0 : Fin 1))) (Attn.rowMax (sTile qi ki qb kb r))) * acc (ix2 r e)
        + ∑ c : Fin 1024, Ideal.exp (sTile qi ki qb kb r c - max (mo (ix2 r (0 : Fin 1))) (Attn.rowMax (sTile qi ki qb kb r)))
            * vb (ix3 (0 : Fin 1) c e) := by
  unfold k1_pay5
  rw [shapeCast_self]
  refine (addf_apply _ _ _).trans ?_
  rw [mulf_apply, col_bcast_apply, pay11_row, pv_apply]
  refine congrArg (_ + ·) (Finset.sum_congr rfl fun c _ => ?_)
  rw [truncf_apply, pay12_row]
  unfold k1_pay8
  rw [shapeCast_1ab_ab_apply]

/-- One step of the kernel at row r is one step of the running form. -/
theorem step_row :
    ( k1_pay6 (F := Ideal) (k1_pay10 (BitVec.ofNat 32 qi.val) (BitVec.ofNat 32 ki.val) qb kb mo) (ix2 r (0 : Fin 1)),
      k1_pay4 (F := Ideal) (k1_pay13 (BitVec.ofNat 32 qi.val) (BitVec.ofNat 32 ki.val) qb kb mo mo lo) (ix2 r (0 : Fin 1)),
      fun e : Fin 1024 => k1_pay5 (F := Ideal) (k1_pay8 vb) (k1_pay11 (BitVec.ofNat 32 qi.val) (BitVec.ofNat 32 ki.val) qb kb mo mo)
        (k1_pay12 (BitVec.ofNat 32 qi.val) (BitVec.ofNat 32 ki.val) qb kb mo) acc (ix2 r e) )
    = Attn.onlineStep (sTile qi ki qb kb r) (fun c e => vb (ix3 (0 : Fin 1) c e))
        (mo (ix2 r (0 : Fin 1)), lo (ix2 r (0 : Fin 1)), fun e => acc (ix2 r e)) := by
  unfold Attn.onlineStep
  refine Prod.ext ?_ (Prod.ext ?_ (funext fun e => ?_))
  · refine Eq.trans ?_ (pay10_row qi ki qb kb mo r)
    unfold k1_pay6
    rw [shapeCast_self]
  · exact pay13_row qi ki qb kb mo lo r
  · exact pay5_row qi ki qb kb vb mo acc r e

end Step

/-! ## The reset values and the final quotient -/

/-- The reset values at row r are the running form's initial state. -/
theorem reset_row (r : Fin 1024) :
    (k1_pay1 (F := Ideal) (ix2 r (0 : Fin 1)), k1_pay2 (F := Ideal) (ix2 r (0 : Fin 1)), fun e : Fin 1024 => k1_pay3 (F := Ideal) (ix2 r e))
      = (Attn.online0 : Attn.Run 1024) := by
  unfold k1_pay1 k1_pay2 k1_pay3 Attn.online0
  simp only [shapeCast_self]
  exact Prod.ext ofBits_neg_inf (Prod.ext Ideal.ofBits_zero_f32 (funext fun _ => Ideal.ofBits_zero_f32))

/-- The stored result at row r, feature e: the running weighted sum over the running sum. -/
theorem out_row (acc : Vec Ideal S1024x1024 .f32) (l : Vec Ideal S1024x1 .f32) (r e : Fin 1024) (mo0 : EReal) :
    k1_pay7 (F := Ideal) acc l (ix3 (0 : Fin 1) r e)
      = Attn.onlineOut (mo0, l (ix2 r (0 : Fin 1)), fun e => acc (ix2 r e)) e := by
  unfold k1_pay7 Attn.onlineOut
  refine (shapeCast_ab_1ab_apply _ _ _ _ _).trans ?_
  refine (divf_apply _ _ _).trans ?_
  rw [col_bcast_apply]

end Cert.KernelIdeal.Pay1

end
-- ==== Proof.KiVal1.lean ====
/-
  The attention call's carried state after each grid point, row by row, in closed form, and the block it writes.

  The grid is (batch, query tile, key tile) = 4 × 2 × 2 with the key tile innermost: point t is batch t / 4, query
  tile (t / 2) mod 2, key tile t mod 2.  After an even point (key tile 0) each row of the state is the empty running
  state with key tile 0 folded in.  An odd point (key tile 1) leaves the state alone for the first query tile and folds
  key tile 1 in for the second; the block it writes is the quotient of the weighted sum by the sum, which is the tiled
  attention of the query row.
-/
import proofs.«402828_j13597866459507_3_alg».proof.Proof.KiR1Defs
import proofs.«402828_j13597866459507_3_alg».proof.Proof.KiPay1
import proofs.«402828_j13597866459507_3_alg».proof.Proof.Spec
import Idealize.ShloMosaic.Lib.ValueIdx

noncomputable section

namespace Cert.KernelIdeal.Val1

open Cert.KernelIdeal Cert.KernelIdeal.Gen Idealize.ShloMosaic Idealize.ShloMosaic.TcCoe Idealize.SL.Sem
open Idealize.ShloMosaic.ValueIdx
open scoped BigOperators

variable (V : (c : Dev nD) → (b : Ref sig .tc) → Buf (Elt Ideal) ((c : Thread nD τ).loc b))

/-- The query, key and value arrays the call is entered from, by coordinates. -/
def qf (c : Dev nD) : Fin 4 → Fin 2048 → Fin 1024 → EReal :=
  fun b s e => (V c main_v9_0 : S4x2048x1024.Idx → EReal) (ix3 b s e)
def kf (c : Dev nD) : Fin 4 → Fin 2048 → Fin 1024 → EReal :=
  fun b s e => (V c main_v9_1 : S4x2048x1024.Idx → EReal) (ix3 b s e)
def vf (c : Dev nD) : Fin 4 → Fin 2048 → Fin 1024 → EReal :=
  fun b s e => (V c main_v9_2 : S4x2048x1024.Idx → EReal) (ix3 b s e)

/-- Row `r` of a state: its maximum, its sum and its row of the weighted sum. -/
def rowSt (s : R1.St Ideal) (r : Fin 1024) : Attn.Run 1024 :=
  (s.1 (ix2 r (0 : Fin 1)), s.2.1 (ix2 r (0 : Fin 1)), fun e => s.2.2 (ix2 r e))

/-- The batch of point `t`. -/
abbrev batchOf (t : Fin cfg1.N) : Fin 4 := ⟨t.val / 4, by have h : t.val < 16 := lt_of_lt_of_eq t.isLt N_1; omega⟩
/-- The query row, in the whole sequence, of row `r` of point `t`'s query tile. -/
abbrev rowOf (t : Fin cfg1.N) (r : Fin 1024) : Fin 2048 := ⟨1024 * ((t.val / 2) % 2) + r.val, by omega⟩

/-! ## The grid's coordinates and the windows' block indices, decided over the sixteen points -/

theorem idx_facts : ∀ t : Fin cfg1.N,
    win1_0.index t (0 : Fin 3) = t.val / 4 ∧ win1_0.index t (1 : Fin 3) = (t.val / 2) % 2 ∧ win1_0.index t (2 : Fin 3) = 0
    ∧ win1_1.index t (0 : Fin 3) = t.val / 4 ∧ win1_1.index t (1 : Fin 3) = min (t.val % 2) ((t.val / 2) % 2) ∧ win1_1.index t (2 : Fin 3) = 0
    ∧ win1_2.index t (0 : Fin 3) = t.val / 4 ∧ win1_2.index t (1 : Fin 3) = min (t.val % 2) ((t.val / 2) % 2) ∧ win1_2.index t (2 : Fin 3) = 0
    ∧ (grid1.coords t 1).val = (t.val / 2) % 2 ∧ (grid1.coords t 2).val = t.val % 2 :=
  (by decide +kernel : ∀ t : Fin grid1.N, _)

/-! ## The blocks a point reads, by coordinates -/

/-- The query block of point `t` is rows 1024 qi … of batch t / 4 of q. -/
theorem qblk_apply (c : Dev nD) (t : Fin cfg1.N) (r e : Fin 1024) :
    R1.iblk1 V c 0 t (ix3 (0 : Fin 1) r e) = qf V c (batchOf t) (rowOf t r) e := by
  obtain ⟨e0, e1, e2, -⟩ := idx_facts t
  unfold R1.iblk1 qf
  show V c main_v9_0 (((cfg1.win 0).blk t).view.emb (ix3 (0 : Fin 1) r e)) = V c main_v9_0 (ix3 (batchOf t) (rowOf t r) e)
  refine congrArg (V c main_v9_0) (funext fun a => Fin.ext ?_)
  match a with
  | ⟨0, _⟩ => show win1_0.index t (0 : Fin 3) * 1 + 1 * (0 : Fin 1).val = t.val / 4; rw [e0]; simp
  | ⟨1, _⟩ => show win1_0.index t (1 : Fin 3) * 1024 + 1 * r.val = 1024 * ((t.val / 2) % 2) + r.val; omega
  | ⟨2, _⟩ => show win1_0.index t (2 : Fin 3) * 1024 + 1 * e.val = e.val; omega

/-- The key block of point `t`, when the point's key tile `ki` is not after its query tile. -/
theorem kblk_apply (c : Dev nD) (t : Fin cfg1.N) (ki : Fin 2) (hki : ki.val = t.val % 2) (hle : ki.val ≤ (t.val / 2) % 2)
    (cc e : Fin 1024) :
    R1.iblk1 V c 1 t (ix3 (0 : Fin 1) cc e) = kf V c (batchOf t) ⟨1024 * ki.val + cc.val, by omega⟩ e := by
  obtain ⟨-, -, -, e0, e1, e2, -⟩ := idx_facts t
  unfold R1.iblk1 kf
  show V c main_v9_1 (((cfg1.win 1).blk t).view.emb (ix3 (0 : Fin 1) cc e)) = V c main_v9_1 (ix3 (batchOf t) ⟨1024 * ki.val + cc.val, by omega⟩ e)
  refine congrArg (V c main_v9_1) (funext fun a => Fin.ext ?_)
  match a with
  | ⟨0, _⟩ => show win1_1.index t (0 : Fin 3) * 1 + 1 * (0 : Fin 1).val = t.val / 4; rw [e0]; simp
  | ⟨1, _⟩ => show win1_1.index t (1 : Fin 3) * 1024 + 1 * cc.val = 1024 * ki.val + cc.val; omega
  | ⟨2, _⟩ => show win1_1.index t (2 : Fin 3) * 1024 + 1 * e.val = e.val; omega

/-- The value block of point `t`, likewise. -/
theorem vblk_apply (c : Dev nD) (t : Fin cfg1.N) (ki : Fin 2) (hki : ki.val = t.val % 2) (hle : ki.val ≤ (t.val / 2) % 2)
    (cc e : Fin 1024) :
    R1.iblk1 V c 2 t (ix3 (0 : Fin 1) cc e) = vf V c (batchOf t) ⟨1024 * ki.val + cc.val, by omega⟩ e := by
  obtain ⟨-, -, -, -, -, -, e0, e1, e2, -⟩ := idx_facts t
  unfold R1.iblk1 vf
  show V c main_v9_2 (((cfg1.win 2).blk t).view.emb (ix3 (0 : Fin 1) cc e)) = V c main_v9_2 (ix3 (batchOf t) ⟨1024 * ki.val + cc.val, by omega⟩ e)
  refine congrArg (V c main_v9_2) (funext fun a => Fin.ext ?_)
  match a with
  | ⟨0, _⟩ => show win1_2.index t (0 : Fin 3) * 1 + 1 * (0 : Fin 1).val = t.val / 4; rw [e0]; simp
  | ⟨1, _⟩ => show win1_2.index t (1 : Fin 3) * 1024 + 1 * cc.val = 1024 * ki.val + cc.val; omega
  | ⟨2, _⟩ => show win1_2.index t (2 : Fin 3) * 1024 + 1 * e.val = e.val; omega

/-! ## A point's step, row by row -/

/-- The reset state's rows are the empty running state. -/
theorem rowSt_reset (r : Fin 1024) : rowSt (R1.reset (F := Ideal)) r = Attn.online0 := by
  unfold rowSt R1.reset
  exact Pay1.reset_row r

/-- One fold of the kernel, at a point of query tile `qi` and key tile `ki`, is one step of the running form on each row. -/
theorem rowSt_upd (i : grid1.Coords) (qi ki : Fin 2) (hqi : (i 1).val = qi.val) (hki : (i 2).val = ki.val)
    (qb kb vb : Vec Ideal S1x1024x1024 .bf16) (s : R1.St Ideal) (r : Fin 1024) :
    rowSt (R1.upd i qb kb vb s) r
      = Attn.onlineStep (Pay1.sTile qi ki qb kb r) (fun c e => vb (ix3 (0 : Fin 1) c e)) (rowSt s r) := by
  unfold R1.upd rowSt
  rw [hqi, hki]
  exact Pay1.step_row qi ki qb kb vb s.1 s.2.1 s.2.2 r

/-- The written block, row by row: the quotient of the running form. -/
theorem out1_3_apply (s : R1.St Ideal) (r e : Fin 1024) :
    R1.out1_3 s (ix3 (0 : Fin 1) r e) = Attn.onlineOut (rowSt s r) e := by
  unfold R1.out1_3 rowSt
  exact Pay1.out_row s.2.2 s.2.1 r e (s.1 (ix2 r (0 : Fin 1)))

/-! ## The kernel's tiles are the specification's -/

/-- The scores the kernel masks and scales at point `t` are the causal scores of key tile `ki`. -/
theorem sTile_eq (c : Dev nD) (t : Fin cfg1.N) (qi ki : Fin 2) (hqi : qi.val = (t.val / 2) % 2) (hki : ki.val = t.val % 2)
    (hle : ki.val ≤ (t.val / 2) % 2) (r : Fin 1024) :
    Pay1.sTile qi ki (R1.iblk1 V c 0 t) (R1.iblk1 V c 1 t) r = Attn.tileS (qf V c) (kf V c) (batchOf t) (rowOf t r) ki := by
  funext cc
  unfold Pay1.sTile Attn.tileS Attn.score
  simp only [qblk_apply V c t, kblk_apply V c t ki hki hle, hqi]

/-- The value rows the kernel reads at point `t` are key tile `ki`'s. -/
theorem vTile_eq (c : Dev nD) (t : Fin cfg1.N) (ki : Fin 2) (hki : ki.val = t.val % 2) (hle : ki.val ≤ (t.val / 2) % 2) :
    (fun cc e => R1.iblk1 V c 2 t (ix3 (0 : Fin 1) cc e)) = Attn.tileV (vf V c) (batchOf t) ki := by
  funext cc e
  unfold Attn.tileV
  exact vblk_apply V c t ki hki hle cc e

/-! ## The step at a point -/

/-- At key tile 0 the step resets and folds key tile 0, whatever the state before. -/
theorem step_even (c : Dev nD) (t : Fin cfg1.N) (hk : t.val % 2 = 0) (s : R1.St Ideal) (r : Fin 1024) :
    rowSt (R1.stepSt (grid1.coords t) (R1.iblk1 V c 0 t) (R1.iblk1 V c 1 t) (R1.iblk1 V c 2 t) s) r
      = Attn.onlineStep (Attn.tileS (qf V c) (kf V c) (batchOf t) (rowOf t r) 0) (Attn.tileV (vf V c) (batchOf t) 0) Attn.online0 := by
  obtain ⟨-, -, -, -, -, -, -, -, -, g1, g2⟩ := idx_facts t
  have hq : (t.val / 2) % 2 < 2 := Nat.mod_lt _ (by decide)
  unfold R1.stepSt
  rw [if_pos (g2.trans hk)]
  refine (rowSt_upd (grid1.coords t) ⟨(t.val / 2) % 2, hq⟩ 0 g1 (g2.trans hk) (R1.iblk1 V c 0 t) (R1.iblk1 V c 1 t) (R1.iblk1 V c 2 t) R1.reset r).trans ?_
  rw [rowSt_reset, sTile_eq V c t ⟨(t.val / 2) % 2, hq⟩ 0 rfl hk.symm (Nat.zero_le _) r, vTile_eq V c t 0 hk.symm (Nat.zero_le _)]

/-- At key tile 1 the step leaves the first query tile's state alone and folds key tile 1 into the second's. -/
theorem step_odd (c : Dev nD) (t : Fin cfg1.N) (hk : t.val % 2 = 1) (s : R1.St Ideal) (r : Fin 1024) :
    rowSt (R1.stepSt (grid1.coords t) (R1.iblk1 V c 0 t) (R1.iblk1 V c 1 t) (R1.iblk1 V c 2 t) s) r
      = if (t.val / 2) % 2 = 0 then rowSt s r
        else Attn.onlineStep (Attn.tileS (qf V c) (kf V c) (batchOf t) (rowOf t r) 1) (Attn.tileV (vf V c) (batchOf t) 1) (rowSt s r) := by
  obtain ⟨-, -, -, -, -, -, -, -, -, g1, g2⟩ := idx_facts t
  unfold R1.stepSt
  rw [if_neg (show ¬ (grid1.coords t 2).val = 0 by rw [g2, hk]; decide)]
  by_cases hq0 : (t.val / 2) % 2 = 0
  · rw [if_pos (g1.trans hq0), if_pos hq0]
  · have hq1 : (t.val / 2) % 2 = 1 := by omega
    rw [if_neg (show ¬ (grid1.coords t 1).val = 0 by rw [g1]; exact hq0), if_neg hq0]
    refine (rowSt_upd (grid1.coords t) 1 1 (g1.trans hq1) (g2.trans hk) (R1.iblk1 V c 0 t) (R1.iblk1 V c 1 t) (R1.iblk1 V c 2 t) s r).trans ?_
    rw [sTile_eq V c t 1 1 hq1.symm hk.symm (le_of_eq hq1.symm) r, vTile_eq V c t 1 hk.symm (le_of_eq hq1.symm)]

/-! ## The state after each point -/

theorem state_even_nat (c : Dev nD) (n : ℕ) (hn : n < cfg1.N) (hk : n % 2 = 0) (r : Fin 1024) :
    rowSt (R1.scAt V c n hn) r
      = Attn.onlineStep (Attn.tileS (qf V c) (kf V c) (batchOf ⟨n, hn⟩) (rowOf ⟨n, hn⟩ r) 0) (Attn.tileV (vf V c) (batchOf ⟨n, hn⟩) 0) Attn.online0 := by
  cases n with
  | zero => rw [R1.scAt_zero]; exact step_even V c ⟨0, hn⟩ hk _ r
  | succ m => rw [R1.scAt_succ]; exact step_even V c ⟨m + 1, hn⟩ hk _ r

/-- After a point at key tile 0, row `r` of the state is key tile 0 folded into the empty state. -/
theorem state_even (c : Dev nD) (t : Fin cfg1.N) (hk : t.val % 2 = 0) (r : Fin 1024) :
    rowSt (R1.scAt V c t.val t.isLt) r
      = Attn.onlineStep (Attn.tileS (qf V c) (kf V c) (batchOf t) (rowOf t r) 0) (Attn.tileV (vf V c) (batchOf t) 0) Attn.online0 :=
  state_even_nat V c t.val t.isLt hk r

theorem out_odd_nat (c : Dev nD) (n : ℕ) (hn : n < cfg1.N) (hk : n % 2 = 1) (r e : Fin 1024) :
    R1.out1_3 (R1.scAt V c n hn) (ix3 (0 : Fin 1) r e)
      = Attn.attnOnline (qf V c) (kf V c) (vf V c) (batchOf ⟨n, hn⟩) (rowOf ⟨n, hn⟩ r) e := by
  cases n with
  | zero => exact absurd hk (by decide)
  | succ m =>
    have hm : m < cfg1.N := Nat.lt_of_succ_lt hn
    have hme : m % 2 = 0 := by omega
    have hB : batchOf ⟨m, hm⟩ = batchOf ⟨m + 1, hn⟩ := Fin.ext (by show m / 4 = (m + 1) / 4; omega)
    have hR : rowOf ⟨m, hm⟩ r = rowOf ⟨m + 1, hn⟩ r :=
      Fin.ext (by show 1024 * ((m / 2) % 2) + r.val = 1024 * (((m + 1) / 2) % 2) + r.val; omega)
    have hst := state_even_nat V c m hm hme r
    rw [hB, hR] at hst
    rw [out1_3_apply, R1.scAt_succ, step_odd V c ⟨m + 1, hn⟩ hk _ r, hst]
    unfold Attn.attnOnline
    by_cases hq0 : ((m + 1) / 2) % 2 = 0
    · rw [if_pos hq0, if_pos (show (rowOf ⟨m + 1, hn⟩ r).val < 1024 by
        show 1024 * (((m + 1) / 2) % 2) + r.val < 1024; omega)]
    · rw [if_neg hq0, if_neg (show ¬ (rowOf ⟨m + 1, hn⟩ r).val < 1024 by
        show ¬ 1024 * (((m + 1) / 2) % 2) + r.val < 1024; omega)]

/-- The block a point at key tile 1 writes is the tiled attention of its query rows. -/
theorem out_odd (c : Dev nD) (t : Fin cfg1.N) (hk : t.val % 2 = 1) (r e : Fin 1024) :
    R1.out1_3 (R1.scAt V c t.val t.isLt) (ix3 (0 : Fin 1) r e)
      = Attn.attnOnline (qf V c) (kf V c) (vf V c) (batchOf t) (rowOf t r) e :=
  out_odd_nat V c t.val t.isLt hk r e

end Cert.KernelIdeal.Val1

end
-- ==== Proof.LibOnlineSoftmax.lean ====
/-
  The softmax-weighted average of finitely many real values, whose scores are each -∞ or real and at least one real,
  computed two ways on the extended reals: in one pass, every weight exp (s c - M) / ∑ exp (s c' - M) with M the
  maximum score; and by the running form, which visits the scores tile by tile keeping a running maximum, a running
  sum of exponentials and a running weighted sum, the last two rescaled by exp (old maximum - new maximum) at each
  tile, the quotient taken once at the end.

  Both are brought to one normal form in the reals.  A score x has the real weight w x = exp x (0 at -∞), and
  exp (x - m) = w x · exp (-m) for every real m: so whatever real m the sums are taken relative to, the factor
  exp (-m) cancels in the quotient, which is (∑ w (s c) · v c) / (∑ w (s c)).  The running state after any number of
  tiles is (m, W · exp (-m), A · exp (-m)) with W and A the sums of the weights and of the weighted values over the
  keys visited so far: a tile adds its own sums to W and A and changes m only.
-/
import Idealize.ShloMosaic.PureOps.Ideal
import Mathlib.Data.EReal.Inv
import Mathlib.Data.Finset.Fold
import Mathlib.Algebra.BigOperators.Group.Finset.Basic
import Mathlib.Algebra.Order.BigOperators.Group.Finset
import Mathlib.Analysis.Complex.Exponential
import Mathlib.Tactic.FieldSimp
import Mathlib.Tactic.Ring
import Mathlib.Tactic.LinearCombination

noncomputable section

namespace Cert.LibOnlineSoftmax

open Idealize.ShloMosaic
open scoped BigOperators

/-- The coercion of a finite sum of reals is the sum of the coercions. -/
theorem coe_finset_sum {α : Type*} (t : Finset α) (f : α → ℝ) :
    ((∑ c ∈ t, f c : ℝ) : EReal) = ∑ c ∈ t, (f c : EReal) := by
  classical
  induction t using Finset.induction_on with
  | empty => simp
  | insert a t ha ih => rw [Finset.sum_insert ha, Finset.sum_insert ha, EReal.coe_add, ih]

/-- The weight exp x of a score as a real number: 0 at -∞. -/
def expW (x : EReal) : ℝ := (Ideal.exp x).toReal

/-- The weight of -∞ is 0. -/
theorem expW_bot : expW ⊥ = 0 := by rw [expW, Ideal.exp_bot, EReal.toReal_zero]

/-- The weight of a real score is its exponential. -/
theorem expW_coe (r : ℝ) : expW (r : EReal) = Real.exp r := by rw [expW, Ideal.exp_coe, EReal.toReal_coe]

/-- A weight is never negative. -/
theorem expW_nonneg {x : EReal} (hx : x = ⊥ ∨ ∃ r : ℝ, x = (r : EReal)) : 0 ≤ expW x := by
  rcases hx with rfl | ⟨r, rfl⟩
  · rw [expW_bot]
  · rw [expW_coe]; exact (Real.exp_pos r).le

/-- The weight of a real score is positive. -/
theorem expW_pos {x : EReal} (hx : ∃ r : ℝ, x = (r : EReal)) : 0 < expW x := by
  obtain ⟨r, rfl⟩ := hx
  rw [expW_coe]; exact Real.exp_pos r

/-- A score that is -∞ or real, shifted down by a real m and exponentiated, is its weight times exp (-m). -/
theorem exp_sub_coe {x : EReal} (hx : x = ⊥ ∨ ∃ r : ℝ, x = (r : EReal)) (m : ℝ) :
    Ideal.exp (x - (m : EReal)) = ((expW x * Real.exp (-m) : ℝ) : EReal) := by
  rcases hx with rfl | ⟨r, rfl⟩
  · rw [EReal.bot_sub, Ideal.exp_bot, expW_bot, zero_mul, EReal.coe_zero]
  · rw [← EReal.coe_sub, Ideal.exp_coe, expW_coe, ← Real.exp_add, sub_eq_add_neg]

variable {ι : Type*} [Fintype ι]

/-- The total weight is positive as soon as one score is real. -/
theorem sum_expW_pos (s : ι → EReal) (hs : ∀ c, s c = ⊥ ∨ ∃ r : ℝ, s c = (r : EReal))
    (h1 : ∃ c, ∃ r : ℝ, s c = (r : EReal)) : 0 < ∑ c, expW (s c) := by
  obtain ⟨c, hc⟩ := h1
  exact Finset.sum_pos' (fun i _ => expW_nonneg (hs i)) ⟨c, Finset.mem_univ c, expW_pos hc⟩

/-- The maximum of finitely many scores, each -∞ or real, is -∞ or real. -/
theorem fold_max_bot_or_coe (s : ι → EReal) (hs : ∀ c, s c = ⊥ ∨ ∃ r : ℝ, s c = (r : EReal)) :
    (Finset.univ : Finset ι).fold max ⊥ s = ⊥ ∨ ∃ m : ℝ, (Finset.univ : Finset ι).fold max ⊥ s = (m : EReal) := by
  have hlt : (Finset.univ : Finset ι).fold max ⊥ s < ⊤ := by
    rw [Finset.fold_max_lt]
    refine ⟨bot_lt_top, fun c _ => ?_⟩
    rcases hs c with h | ⟨r, h⟩ <;> rw [h]
    · exact bot_lt_top
    · exact EReal.coe_lt_top r
  by_cases hb : (Finset.univ : Finset ι).fold max ⊥ s = ⊥
  · exact Or.inl hb
  · exact Or.inr ⟨_, (EReal.coe_toReal hlt.ne hb).symm⟩

/-- … and it is real as soon as one score is. -/
theorem fold_max_coe (s : ι → EReal) (hs : ∀ c, s c = ⊥ ∨ ∃ r : ℝ, s c = (r : EReal))
    (h1 : ∃ c, ∃ r : ℝ, s c = (r : EReal)) : ∃ m : ℝ, (Finset.univ : Finset ι).fold max ⊥ s = (m : EReal) := by
  rcases fold_max_bot_or_coe s hs with hb | h
  · exfalso
    obtain ⟨c, r, hc⟩ := h1
    have hle : (r : EReal) ≤ (Finset.univ : Finset ι).fold max ⊥ s := by
      rw [Finset.le_fold_max]; exact Or.inr ⟨c, Finset.mem_univ c, hc ▸ le_rfl⟩
    rw [hb] at hle
    exact EReal.coe_ne_bot r (le_bot_iff.mp hle)
  · exact h

/-- The larger of a real and a maximum of scores each -∞ or real is real. -/
theorem max_coe_fold_coe (m : ℝ) (s : ι → EReal) (hs : ∀ c, s c = ⊥ ∨ ∃ r : ℝ, s c = (r : EReal)) :
    ∃ m' : ℝ, max (m : EReal) ((Finset.univ : Finset ι).fold max ⊥ s) = (m' : EReal) := by
  rcases fold_max_bot_or_coe s hs with hb | ⟨m₁, h⟩
  · exact ⟨m, by rw [hb, max_bot_right]⟩
  · rcases le_total m m₁ with hle | hle
    · exact ⟨m₁, by rw [h, max_eq_right (EReal.coe_le_coe_iff.2 hle)]⟩
    · exact ⟨m, by rw [h, max_eq_left (EReal.coe_le_coe_iff.2 hle)]⟩

/-- The sum of the exponentials of the scores relative to a real m: the total weight times exp (-m). -/
theorem sum_exp_sub_coe (s : ι → EReal) (hs : ∀ c, s c = ⊥ ∨ ∃ r : ℝ, s c = (r : EReal)) (m : ℝ) :
    ∑ c, Ideal.exp (s c - (m : EReal)) = (((∑ c, expW (s c)) * Real.exp (-m) : ℝ) : EReal) := by
  rw [Finset.sum_mul, coe_finset_sum]
  exact Finset.sum_congr rfl fun c _ => exp_sub_coe (hs c) m

/-- The weighted sum of real values relative to a real m: the sum of weight times value, times exp (-m). -/
theorem sum_exp_sub_mul_coe (s v : ι → EReal) (hs : ∀ c, s c = ⊥ ∨ ∃ r : ℝ, s c = (r : EReal))
    (hv : ∀ c, ∃ x : ℝ, v c = (x : EReal)) (m : ℝ) :
    ∑ c, Ideal.exp (s c - (m : EReal)) * v c
      = (((∑ c, expW (s c) * (v c).toReal) * Real.exp (-m) : ℝ) : EReal) := by
  rw [Finset.sum_mul, coe_finset_sum]
  refine Finset.sum_congr rfl fun c _ => ?_
  obtain ⟨x, hx⟩ := hv c
  rw [exp_sub_coe (hs c) m, hx, EReal.toReal_coe, ← EReal.coe_mul]
  congr 1; ring

/-- THE QUOTIENT AT THE END. A weighted sum A · exp (-m) over a positive total weight W · exp (-m) is A / W. -/
theorem div_tracks (A W m : ℝ) (hW : 0 < W) :
    Ideal.div ((A * Real.exp (-m) : ℝ) : EReal) ((W * Real.exp (-m) : ℝ) : EReal) = ((A / W : ℝ) : EReal) := by
  have hE : 0 < Real.exp (-m) := Real.exp_pos _
  rw [Ideal.div_coe (ne_of_gt (mul_pos hW hE)), ← EReal.coe_mul]
  congr 1
  field_simp

/-- THE ONE-PASS FORM relative to any real m: the weights exp (s c - m) / ∑ exp (s c' - m) applied to real values
    give (∑ w (s c) · v c) / (∑ w (s c)). -/
theorem softmax_shift (s v : ι → EReal) (hs : ∀ c, s c = ⊥ ∨ ∃ r : ℝ, s c = (r : EReal))
    (h1 : ∃ c, ∃ r : ℝ, s c = (r : EReal)) (hv : ∀ c, ∃ x : ℝ, v c = (x : EReal)) (m : ℝ) :
    ∑ c, Ideal.div (Ideal.exp (s c - (m : EReal))) (∑ c', Ideal.exp (s c' - (m : EReal))) * v c
      = (((∑ c, expW (s c) * (v c).toReal) / (∑ c, expW (s c)) : ℝ) : EReal) := by
  have hW : 0 < ∑ c, expW (s c) := sum_expW_pos s hs h1
  have hE : 0 < Real.exp (-m) := Real.exp_pos _
  rw [sum_exp_sub_coe s hs m, Finset.sum_div, coe_finset_sum]
  refine Finset.sum_congr rfl fun c _ => ?_
  obtain ⟨x, hx⟩ := hv c
  rw [Ideal.div_coe (ne_of_gt (mul_pos hW hE)), exp_sub_coe (hs c) m, hx, EReal.toReal_coe, ← EReal.coe_mul,
    ← EReal.coe_mul]
  congr 1
  field_simp

/-- THE ONE-PASS FORM relative to the maximum score. -/
theorem softmax_nf (s v : ι → EReal) (hs : ∀ c, s c = ⊥ ∨ ∃ r : ℝ, s c = (r : EReal))
    (h1 : ∃ c, ∃ r : ℝ, s c = (r : EReal)) (hv : ∀ c, ∃ x : ℝ, v c = (x : EReal)) :
    ∑ c, Ideal.div (Ideal.exp (s c - (Finset.univ : Finset ι).fold max ⊥ s))
        (∑ c', Ideal.exp (s c' - (Finset.univ : Finset ι).fold max ⊥ s)) * v c
      = (((∑ c, expW (s c) * (v c).toReal) / (∑ c, expW (s c)) : ℝ) : EReal) := by
  obtain ⟨m, hm⟩ := fold_max_coe s hs h1
  rw [hm]
  exact softmax_shift s v hs h1 hv m

/-- THE FIRST TILE of the running form, from the state (-∞, 0, 0): with one real score in the tile the new maximum
    is a real m, and the two sums are the tile's total weight and weighted sum, times exp (-m). -/
theorem step_init (s v : ι → EReal) (hs : ∀ c, s c = ⊥ ∨ ∃ r : ℝ, s c = (r : EReal))
    (h1 : ∃ c, ∃ r : ℝ, s c = (r : EReal)) (hv : ∀ c, ∃ x : ℝ, v c = (x : EReal)) :
    ∃ m : ℝ, max ⊥ ((Finset.univ : Finset ι).fold max ⊥ s) = (m : EReal) ∧
      Ideal.exp (⊥ - max ⊥ ((Finset.univ : Finset ι).fold max ⊥ s)) * 0
          + ∑ c, Ideal.exp (s c - max ⊥ ((Finset.univ : Finset ι).fold max ⊥ s))
        = (((∑ c, expW (s c)) * Real.exp (-m) : ℝ) : EReal) ∧
      Ideal.exp (⊥ - max ⊥ ((Finset.univ : Finset ι).fold max ⊥ s)) * 0
          + ∑ c, Ideal.exp (s c - max ⊥ ((Finset.univ : Finset ι).fold max ⊥ s)) * v c
        = (((∑ c, expW (s c) * (v c).toReal) * Real.exp (-m) : ℝ) : EReal) := by
  obtain ⟨m, hm⟩ := fold_max_coe s hs h1
  refine ⟨m, ?_, ?_, ?_⟩
  · rw [hm, max_bot_left]
  · rw [hm, max_bot_left, mul_zero, zero_add]; exact sum_exp_sub_coe s hs m
  · rw [hm, max_bot_left, mul_zero, zero_add]; exact sum_exp_sub_mul_coe s v hs hv m

/-- A LATER TILE of the running form. From a state (m, W · exp (-m), A · exp (-m)) with m real, a tile of scores
    each -∞ or real (all -∞ allowed) with real values leads to (m', (W + tile's weight) · exp (-m'),
    (A + tile's weighted sum) · exp (-m')) for a real m'. -/
theorem step_next (M L A : EReal) (m Wt At : ℝ) (hM : M = (m : EReal))
    (hL : L = ((Wt * Real.exp (-m) : ℝ) : EReal)) (hA : A = ((At * Real.exp (-m) : ℝ) : EReal))
    (s v : ι → EReal) (hs : ∀ c, s c = ⊥ ∨ ∃ r : ℝ, s c = (r : EReal)) (hv : ∀ c, ∃ x : ℝ, v c = (x : EReal)) :
    ∃ m' : ℝ, max M ((Finset.univ : Finset ι).fold max ⊥ s) = (m' : EReal) ∧
      Ideal.exp (M - max M ((Finset.univ : Finset ι).fold max ⊥ s)) * L
          + ∑ c, Ideal.exp (s c - max M ((Finset.univ : Finset ι).fold max ⊥ s))
        = (((Wt + ∑ c, expW (s c)) * Real.exp (-m') : ℝ) : EReal) ∧
      Ideal.exp (M - max M ((Finset.univ : Finset ι).fold max ⊥ s)) * A
          + ∑ c, Ideal.exp (s c - max M ((Finset.univ : Finset ι).fold max ⊥ s)) * v c
        = (((At + ∑ c, expW (s c) * (v c).toReal) * Real.exp (-m') : ℝ) : EReal) := by
  subst hM hL hA
  obtain ⟨m', hm'⟩ := max_coe_fold_coe m s hs
  have hE : Real.exp (m - m') * Real.exp (-m) = Real.exp (-m') := by
    rw [← Real.exp_add]; congr 1; ring
  refine ⟨m', hm', ?_, ?_⟩
  · rw [hm', ← EReal.coe_sub, Ideal.exp_coe, sum_exp_sub_coe s hs m', ← EReal.coe_mul, ← EReal.coe_add]
    congr 1
    linear_combination Wt * hE
  · rw [hm', ← EReal.coe_sub, Ideal.exp_coe, sum_exp_sub_mul_coe s v hs hv m', ← EReal.coe_mul, ← EReal.coe_add]
    congr 1
    linear_combination At * hE

/-- ONE TILE. The running form over a single tile, quotient taken, is the one-pass softmax average. -/
theorem online_one_eq_softmax (s v : ι → EReal) (hs : ∀ c, s c = ⊥ ∨ ∃ r : ℝ, s c = (r : EReal))
    (h1 : ∃ c, ∃ r : ℝ, s c = (r : EReal)) (hv : ∀ c, ∃ x : ℝ, v c = (x : EReal)) :
    Ideal.div
        (Ideal.exp (⊥ - max ⊥ ((Finset.univ : Finset ι).fold max ⊥ s)) * 0
          + ∑ c, Ideal.exp (s c - max ⊥ ((Finset.univ : Finset ι).fold max ⊥ s)) * v c)
        (Ideal.exp (⊥ - max ⊥ ((Finset.univ : Finset ι).fold max ⊥ s)) * 0
          + ∑ c, Ideal.exp (s c - max ⊥ ((Finset.univ : Finset ι).fold max ⊥ s)))
      = ∑ c, Ideal.div (Ideal.exp (s c - (Finset.univ : Finset ι).fold max ⊥ s))
          (∑ c', Ideal.exp (s c' - (Finset.univ : Finset ι).fold max ⊥ s)) * v c := by
  obtain ⟨m, -, hL, hA⟩ := step_init s v hs h1 hv
  rw [hL, hA, div_tracks _ _ m (sum_expW_pos s hs h1), softmax_nf s v hs h1 hv]

end Cert.LibOnlineSoftmax

end
-- ==== Proof.LibBlockSum.lean ====
/-
  A sum over the first `N·B` naturals taken block by block, `B` consecutive terms at a time: the bookkeeping
  step between a column sum over all rows of an array and the same sum accumulated over consecutive row blocks
  of equal height. Stated for any additive commutative monoid (so for the extended reals as well), over a summand
  defined on every natural so that no bound proofs enter the statement; the `Fin` forms read the summand at the
  values of the indices.
-/
import Mathlib.Algebra.BigOperators.Fin
import Mathlib.Algebra.BigOperators.Intervals

open scoped BigOperators

namespace Cert.LibBlockSum

variable {β : Type*} [AddCommMonoid β]

/-- The first `(N + 1)·B` terms are the first `N·B` terms and then the `B` terms of block `N`. -/
theorem sum_range_succ_block (g : ℕ → β) (B N : ℕ) :
    ∑ i ∈ Finset.range (B * (N + 1)), g i
      = ∑ i ∈ Finset.range (B * N), g i + ∑ k ∈ Finset.range B, g (B * N + k) := by
  rw [Nat.mul_succ, Finset.sum_range_add]

/-- The first `N·B` terms, block by block: block `s` holds the terms `B·s … B·s + B − 1`. -/
theorem sum_range_blocks (g : ℕ → β) (B : ℕ) :
    ∀ N : ℕ, ∑ i ∈ Finset.range (B * N), g i = ∑ s ∈ Finset.range N, ∑ k ∈ Finset.range B, g (B * s + k)
  | 0 => by simp
  | N + 1 => by rw [sum_range_succ_block, sum_range_blocks g B N, Finset.sum_range_succ]

/-- The same with both index sets as `Fin` types: a sum over `Fin M`, `M = B·N`, is the sum over the `N` blocks
    of the sum over the `B` positions inside a block. -/
theorem sum_fin_blocks (g : ℕ → β) {M B N : ℕ} (h : B * N = M) :
    ∑ r : Fin M, g r.val = ∑ s ∈ Finset.range N, ∑ k : Fin B, g (B * s + k.val) := by
  subst h
  rw [Fin.sum_univ_eq_sum_range (fun i => g i) (B * N), sum_range_blocks]
  exact Finset.sum_congr rfl fun s _ => (Fin.sum_univ_eq_sum_range (fun k => g (B * s + k)) B).symm

/-- The partial form an induction over the blocks uses: the terms below `B·(n + 1)` are those below `B·n` and
    block `n`'s, the block's as a `Fin` sum. -/
theorem sum_range_succ_block_fin (g : ℕ → β) (B n : ℕ) :
    ∑ i ∈ Finset.range (B * (n + 1)), g i = ∑ i ∈ Finset.range (B * n), g i + ∑ k : Fin B, g (B * n + k.val) := by
  rw [sum_range_succ_block, Fin.sum_univ_eq_sum_range (fun k => g (B * n + k)) B]

/-- AN ACCUMULATOR OVER THE BLOCKS. A quantity that is zero plus block 0's sum at step 0 and at each later step adds
    the next block's sum to what it was, is after step `n` the sum of all the terms below the end of block `n`
    (the bound proofs of the steps are threaded, as a recursion over the points of a grid carries them). -/
theorem fold_eq_prefix (g : ℕ → β) (B : ℕ) {N : ℕ} (s : (n : ℕ) → n < N → β)
    (h0 : ∀ h : 0 < N, s 0 h = 0 + ∑ k : Fin B, g (B * 0 + k.val))
    (hs : ∀ (n : ℕ) (h : n + 1 < N), s (n + 1) h = s n (Nat.lt_of_succ_lt h) + ∑ k : Fin B, g (B * (n + 1) + k.val)) :
    ∀ (n : ℕ) (h : n < N), s n h = ∑ i ∈ Finset.range (B * (n + 1)), g i
  | 0, h => by
    rw [h0 h, sum_range_succ_block_fin, Nat.mul_zero, Finset.range_zero, Finset.sum_empty]
  | n + 1, h => by
    rw [hs n h, fold_eq_prefix g B s h0 hs n (Nat.lt_of_succ_lt h), ← sum_range_succ_block_fin]

/-- … so after the step whose block ends at `M` it is the whole sum over `Fin M`. -/
theorem fold_eq_total (g : ℕ → β) (B : ℕ) {M N : ℕ} (s : (n : ℕ) → n < N → β)
    (h0 : ∀ h : 0 < N, s 0 h = 0 + ∑ k : Fin B, g (B * 0 + k.val))
    (hs : ∀ (n : ℕ) (h : n + 1 < N), s (n + 1) h = s n (Nat.lt_of_succ_lt h) + ∑ k : Fin B, g (B * (n + 1) + k.val))
    (n : ℕ) (h : n < N) (hM : B * (n + 1) = M) : s n h = ∑ r : Fin M, g r.val := by
  subst hM
  rw [fold_eq_prefix g B s h0 hs n h, Fin.sum_univ_eq_sum_range (fun i => g i) (B * (n + 1))]

end Cert.LibBlockSum
-- ==== Proof.Online.lean ====
/-
  Causal attention over two key tiles of 1024: the one-pass softmax average over all 2048 keys equals the running
  form that folds the key tiles one at a time.

  A score of query row r against key c is real when c ≤ r and -∞ when c > r, and key 0 is never after the query:
  so each row of scores is a family of values each -∞ or real with one real, and each of the two forms is the
  quotient (∑ w c · v c) / (∑ w c) of real sums, w c the real weight exp (score c) (0 at -∞).  The sum over the
  2048 keys is the sum over the first tile plus the sum over the second.  For a row of the first query tile every
  key of the second key tile is after it, its weights vanish, and the running form stops after one tile; for a row of
  the second query tile the running form visits both.
-/
import proofs.«402828_j13597866459507_3_alg».proof.Proof.Spec
import proofs.«402828_j13597866459507_3_alg».proof.Proof.LibOnlineSoftmax
import proofs.«402828_j13597866459507_3_alg».proof.Proof.LibBlockSum
import Mathlib.Algebra.BigOperators.Fin

noncomputable section

namespace Attn

open Idealize.ShloMosaic Cert.LibOnlineSoftmax
open scoped BigOperators

/-- The scaling word denotes the real 1/32. -/
theorem scale_real : scale = ((1 / 32 : ℝ) : EReal) := by
  simp [Ideal.ofBits, Ideal.ieee, -EReal.coe_mul]; norm_num

/-- A key not after the query has a real score: a finite sum of products of reals, times a real. -/
theorem score_real (q k : Fin 4 → Fin 2048 → Fin 1024 → EReal)
    (hq : ∀ b s e, ∃ x : ℝ, q b s e = (x : EReal)) (hk : ∀ b s e, ∃ x : ℝ, k b s e = (x : EReal))
    (bi : Fin 4) (r c : Fin 2048) (h : c.val ≤ r.val) : ∃ x : ℝ, score q k bi r c = (x : EReal) := by
  choose qr hqr using hq
  choose kr hkr using hk
  refine ⟨(∑ e, qr bi r e * kr bi c e) * (1 / 32), ?_⟩
  rw [score, if_pos h, scale_real, EReal.coe_mul, coe_finset_sum]
  congr 1
  exact Finset.sum_congr rfl fun e _ => by rw [hqr, hkr, EReal.coe_mul]

/-- A key after the query has score -∞. -/
theorem score_masked (q k : Fin 4 → Fin 2048 → Fin 1024 → EReal) (bi : Fin 4) (r c : Fin 2048)
    (h : r.val < c.val) : score q k bi r c = ⊥ := by
  rw [score, if_neg (by omega)]

/-- Every score is -∞ or real. -/
theorem score_bot_or_real (q k : Fin 4 → Fin 2048 → Fin 1024 → EReal)
    (hq : ∀ b s e, ∃ x : ℝ, q b s e = (x : EReal)) (hk : ∀ b s e, ∃ x : ℝ, k b s e = (x : EReal))
    (bi : Fin 4) (r c : Fin 2048) : score q k bi r c = ⊥ ∨ ∃ x : ℝ, score q k bi r c = (x : EReal) := by
  by_cases h : c.val ≤ r.val
  · exact Or.inr (score_real q k hq hk bi r c h)
  · exact Or.inl (score_masked q k bi r c (by omega))

/-- Position c of key tile t is a key. -/
theorem tile_lt (t : Fin 2) (c : Fin 1024) : 1024 * t.val + c.val < 2048 := by omega

/-- A sum over the 2048 keys is the sum over the first key tile plus the sum over the second. -/
theorem sum_tiles {β : Type*} [AddCommMonoid β] (g : Fin 2048 → β) :
    ∑ c, g c = ∑ c : Fin 1024, g ⟨1024 * (0 : Fin 2).val + c.val, tile_lt 0 c⟩
      + ∑ c : Fin 1024, g ⟨1024 * (1 : Fin 2).val + c.val, tile_lt 1 c⟩ := by
  have h := Fin.sum_univ_add (a := 1024) (b := 1024) g
  refine h.trans ?_
  congr 1 <;> refine Finset.sum_congr rfl fun c _ => ?_ <;> congr 1 <;> ext <;> simp

/-- The running form after one tile, quotient taken, written out. -/
theorem onlineOut_one {ι : Type} [Fintype ι] {d : Nat} (s : ι → EReal) (v : ι → Fin d → EReal) (e : Fin d) :
    onlineOut (onlineStep s v online0) e
      = Ideal.div
          (Ideal.exp (⊥ - max ⊥ ((Finset.univ : Finset ι).fold max ⊥ s)) * 0
            + ∑ c, Ideal.exp (s c - max ⊥ ((Finset.univ : Finset ι).fold max ⊥ s)) * v c e)
          (Ideal.exp (⊥ - max ⊥ ((Finset.univ : Finset ι).fold max ⊥ s)) * 0
            + ∑ c, Ideal.exp (s c - max ⊥ ((Finset.univ : Finset ι).fold max ⊥ s))) := rfl

/-- The running form after two tiles, quotient taken, written out in terms of the state after the first. -/
theorem onlineOut_two {ι : Type} [Fintype ι] {d : Nat} (s : ι → EReal) (v : ι → Fin d → EReal) (st : Run d) (e : Fin d) :
    onlineOut (onlineStep s v st) e
      = Ideal.div
          (Ideal.exp (st.1 - max st.1 ((Finset.univ : Finset ι).fold max ⊥ s)) * st.2.2 e
            + ∑ c, Ideal.exp (s c - max st.1 ((Finset.univ : Finset ι).fold max ⊥ s)) * v c e)
          (Ideal.exp (st.1 - max st.1 ((Finset.univ : Finset ι).fold max ⊥ s)) * st.2.1
            + ∑ c, Ideal.exp (s c - max st.1 ((Finset.univ : Finset ι).fold max ⊥ s))) := rfl

/-- THE EQUALITY. Attention as the one-pass softmax average is attention as the running form over the key tiles. -/
theorem attn_eq_online (q k v : Fin 4 → Fin 2048 → Fin 1024 → EReal)
    (hq : ∀ b s e, ∃ x : ℝ, q b s e = (x : EReal)) (hk : ∀ b s e, ∃ x : ℝ, k b s e = (x : EReal))
    (hv : ∀ b s e, ∃ x : ℝ, v b s e = (x : EReal))
    (bi : Fin 4) (r : Fin 2048) (e : Fin 1024) :
    attn q k v bi r e = attnOnline q k v bi r e := by
  have hs : ∀ c, score q k bi r c = ⊥ ∨ ∃ x : ℝ, score q k bi r c = (x : EReal) :=
    fun c => score_bot_or_real q k hq hk bi r c
  have h0 : ∃ c, ∃ x : ℝ, score q k bi r c = (x : EReal) :=
    ⟨⟨0, by omega⟩, score_real q k hq hk bi r _ (Nat.zero_le _)⟩
  have hL : attn q k v bi r e
      = (((∑ c, expW (score q k bi r c) * (v bi c e).toReal) / (∑ c, expW (score q k bi r c)) : ℝ) : EReal) :=
    softmax_nf (score q k bi r) (fun c => v bi c e) hs h0 (fun c => hv bi c e)
  have hs' : ∀ t c, tileS q k bi r t c = ⊥ ∨ ∃ x : ℝ, tileS q k bi r t c = (x : EReal) := fun t c => hs _
  have hv' : ∀ (t : Fin 2) (c : Fin 1024), ∃ x : ℝ, tileV v bi t c e = (x : EReal) := fun t c => hv bi _ e
  have h00 : ∃ c, ∃ x : ℝ, tileS q k bi r 0 c = (x : EReal) :=
    ⟨⟨0, by omega⟩, score_real q k hq hk bi r _ (by simp)⟩
  have hW : ∑ c, expW (score q k bi r c)
      = ∑ c : Fin 1024, expW (tileS q k bi r 0 c) + ∑ c : Fin 1024, expW (tileS q k bi r 1 c) :=
    sum_tiles (fun c => expW (score q k bi r c))
  have hA : ∑ c, expW (score q k bi r c) * (v bi c e).toReal
      = ∑ c : Fin 1024, expW (tileS q k bi r 0 c) * (tileV v bi 0 c e).toReal
        + ∑ c : Fin 1024, expW (tileS q k bi r 1 c) * (tileV v bi 1 c e).toReal :=
    sum_tiles (fun c => expW (score q k bi r c) * (v bi c e).toReal)
  have hpos0 : 0 < ∑ c : Fin 1024, expW (tileS q k bi r 0 c) := sum_expW_pos _ (hs' 0) h00
  obtain ⟨m0, hm0, hL0, hA0⟩ := step_init (tileS q k bi r 0) (fun c => tileV v bi 0 c e) (hs' 0) h00 (hv' 0)
  rw [hL, hW, hA]
  by_cases hr : r.val < 1024
  · have hbot : ∀ c : Fin 1024, tileS q k bi r 1 c = ⊥ := fun c => score_masked q k bi r _ (by simp; omega)
    have z1 : ∑ c : Fin 1024, expW (tileS q k bi r 1 c) = 0 :=
      Finset.sum_eq_zero fun c _ => by rw [hbot c, expW_bot]
    have z2 : ∑ c : Fin 1024, expW (tileS q k bi r 1 c) * (tileV v bi 1 c e).toReal = 0 :=
      Finset.sum_eq_zero fun c _ => by rw [hbot c, expW_bot, zero_mul]
    rw [attnOnline, if_pos hr, onlineOut_one, hL0, hA0, div_tracks _ _ m0 hpos0, z1, z2, add_zero, add_zero]
  · obtain ⟨m1, -, hL1, hA1⟩ := step_next _ _ _ m0 _ _ hm0 hL0 hA0 (tileS q k bi r 1)
      (fun c => tileV v bi 1 c e) (hs' 1) (hv' 1)
    have hpos : 0 < ∑ c : Fin 1024, expW (tileS q k bi r 0 c) + ∑ c : Fin 1024, expW (tileS q k bi r 1 c) :=
      add_pos_of_pos_of_nonneg hpos0 (Finset.sum_nonneg fun c _ => expW_nonneg (hs' 1 c))
    rw [attnOnline, if_neg hr, onlineOut_two]
    exact ((congrArg₂ Ideal.div hA1 hL1).trans (div_tracks _ _ m1 hpos)).symm

end Attn

end
-- ==== Proof.Finite.lean ====
/-
  The argument arrays hold real numbers, and a linear layer of real arrays is real.

  The precondition says of every entry x of each of the seven argument arrays that |x| < +∞, where |x| = max x (-x)
  on the extended reals: so x is neither +∞ nor -∞, that is, x is a real number.  A finite sum of products of reals
  plus a real is a real.
-/
import proofs.«402828_j13597866459507_3_alg».proof.Defs
import proofs.«402828_j13597866459507_3_alg».proof.Proof.Gen.Pre_finite_inputs
import proofs.«402828_j13597866459507_3_alg».proof.Proof.Spec
import Idealize.ShloMosaic.Lib.ReduceAll
import Idealize.ShloMosaic.Lib.ValueIdx

noncomputable section

namespace Cert.Finite

open Idealize.ShloMosaic Idealize.ShloMosaic.ValueIdx Idealize.ShloMosaic.TcCoe Idealize.SL.Sem
open Cert.Pre_finite_inputs (S_)
open scoped BigOperators

/-- The word 0x7F800000 denotes +∞. -/
theorem inf_word : Ideal.ofBits .f32 0x7F800000#32 = (⊤ : EReal) := by
  simp [Ideal.ofBits, Ideal.ieee]

/-- An extended real whose absolute value max x (-x) is below +∞ is a real number. -/
theorem real_of_abs_lt (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | coe r => exact ⟨r, rfl⟩
  | top => simp [Ideal.cmp] at h

/-- The rank-0 shape has one index. -/
instance : Subsingleton S_.Idx := ⟨fun a b => funext fun d => d.elim0⟩

/-- One array: if the conjunction over all entries of "|x| < +∞" is 1, every entry is a real number. -/
theorem all_real {s : Shape} {axes : List (Fin s.rank)} (a : s.Idx → EReal)
    (hb : S_.BroadcastsInDim s (![] : Fin 0 → Fin s.rank)) (hr : s.ReducesTo axes S_) (hu : 0 < S_.numel)
    (init : S_.Idx → BitVec 1)
    (h : Host.reduce IntOp.andi
          (cmpf (F := Ideal) (φ := .f32) .olt (Host.absf (F := Ideal) (φ := .f32) a)
            (broadcastInDim s ![] hb (constant (F := Ideal) S_ .f32 0x7F800000#32)))
          init hr hu ix0 = 1#1) (i : s.Idx) : ∃ r : ℝ, a i = (r : EReal) :=
  real_of_abs_lt (a i) (Host.reduce_andi_all _ init hr hu ix0 h i)

/-- Under the precondition every entry of each of the seven argument arrays is a real number: the predicate is the
    conjunction, array by array, of "every |x| < +∞". -/
theorem args_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i, ∃ x : ℝ, m ((c.tc : Thread Cert.KernelIdeal.nD Cert.KernelIdeal.τ).loc Cert.KernelIdeal.main_arg0) i = (x : EReal))
    ∧ (∀ i, ∃ x : ℝ, m ((c.tc : Thread Cert.KernelIdeal.nD Cert.KernelIdeal.τ).loc Cert.KernelIdeal.main_arg1) i = (x : EReal))
    ∧ (∀ i, ∃ x : ℝ, m ((c.tc : Thread Cert.KernelIdeal.nD Cert.KernelIdeal.τ).loc Cert.KernelIdeal.main_arg2) i = (x : EReal))
    ∧ (∀ i, ∃ x : ℝ, m ((c.tc : Thread Cert.KernelIdeal.nD Cert.KernelIdeal.τ).loc Cert.KernelIdeal.main_arg3) i = (x : EReal))
    ∧ (∀ i, ∃ x : ℝ, m ((c.tc : Thread Cert.KernelIdeal.nD Cert.KernelIdeal.τ).loc Cert.KernelIdeal.main_arg4) i = (x : EReal))
    ∧ (∀ i, ∃ x : ℝ, m ((c.tc : Thread Cert.KernelIdeal.nD Cert.KernelIdeal.τ).loc Cert.KernelIdeal.main_arg5) i = (x : EReal))
    ∧ (∀ i, ∃ x : ℝ, m ((c.tc : Thread Cert.KernelIdeal.nD Cert.KernelIdeal.τ).loc Cert.KernelIdeal.main_arg6) i = (x : EReal)) := by
  have e := congrFun (h c) ix0
  dsimp only [Cert.Pre_finite_inputs.fn, Cert.Pre_finite_inputs.fn_part1] at e
  obtain ⟨e5, h6⟩ := IntOp.andi_eq_one.1 e
  obtain ⟨e4, h5⟩ := IntOp.andi_eq_one.1 e5
  obtain ⟨e3, h4⟩ := IntOp.andi_eq_one.1 e4
  obtain ⟨e2, h3⟩ := IntOp.andi_eq_one.1 e3
  obtain ⟨e1, h2⟩ := IntOp.andi_eq_one.1 e2
  obtain ⟨h0, h1⟩ := IntOp.andi_eq_one.1 e1
  exact ⟨all_real _ _ _ _ _ h0, all_real _ _ _ _ _ h1, all_real _ _ _ _ _ h2, all_real _ _ _ _ _ h3,
    all_real _ _ _ _ _ h4, all_real _ _ _ _ _ h5, all_real _ _ _ _ _ h6⟩

/-- A finite sum of real numbers is a real number. -/
theorem sum_real {ι : Type} (s : Finset ι) (f : ι → EReal) (hf : ∀ i ∈ s, ∃ r : ℝ, f i = (r : EReal)) :
    ∃ r : ℝ, ∑ i ∈ s, f i = (r : EReal) :=
  Finset.sum_induction f (fun y => ∃ r : ℝ, y = (r : EReal))
    (fun _ _ ⟨ra, ha⟩ ⟨rb, hb⟩ => ⟨ra + rb, by rw [ha, hb, EReal.coe_add]⟩) ⟨0, EReal.coe_zero.symm⟩ hf

/-- A linear layer of real arrays is real: each product of two reals is real, their sum is real, and so is the sum
    plus the bias. -/
theorem proj_real (x : Attn.SX.Idx → EReal) (W : Attn.SW.Idx → EReal) (b : Attn.SB.Idx → EReal)
    (hx : ∀ i, ∃ r : ℝ, x i = (r : EReal)) (hW : ∀ i, ∃ r : ℝ, W i = (r : EReal)) (hb : ∀ i, ∃ r : ℝ, b i = (r : EReal))
    (bi : Fin 4) (s : Fin 2048) (e : Fin 1024) : ∃ r : ℝ, Attn.proj x W b bi s e = (r : EReal) := by
  obtain ⟨t, ht⟩ := sum_real Finset.univ (fun h : Fin 1024 => x (ix3 bi s h) * W (ix2 e h)) (fun h _ => by
    obtain ⟨p, hp⟩ := hx (ix3 bi s h)
    obtain ⟨q, hq⟩ := hW (ix2 e h)
    exact ⟨p * q, by rw [hp, hq, EReal.coe_mul]⟩)
  obtain ⟨u, hu⟩ := hb (ix1 e)
  exact ⟨t + u, by unfold Attn.proj; rw [ht, hu, EReal.coe_add]⟩

end Cert.Finite

end
-- ==== Proof.KiFinal.lean ====
/-
  The attention call's result array is attention of the arguments.

  Each grid point at key tile 1 writes one block of the result: query tile qi of batch b, its row r holding the
  running quotient of global query row 1024 qi + r.  Those eight blocks tile the whole [4, 2048, 1024] array, so the
  array after the call is the tiled attention of the three projected arrays, index by index; the projected arrays
  are the linear layers of the arguments; and, every argument entry being a real number, the tiled form is the plain
  softmax form.
-/
import proofs.«402828_j13597866459507_3_alg».proof.Proof.KiRun
import proofs.«402828_j13597866459507_3_alg».proof.Proof.KiVal0
import proofs.«402828_j13597866459507_3_alg».proof.Proof.KiVal1
import proofs.«402828_j13597866459507_3_alg».proof.Proof.Online
import proofs.«402828_j13597866459507_3_alg».proof.Proof.Finite
import Idealize.ShloMosaic.Lib.Pipeline.Value
import Idealize.ShloMosaic.Lib.ValueIdx

set_option maxRecDepth 16384

noncomputable section

namespace Cert.KernelIdeal.Final

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

/-- The tiled attention of the three arrays the call is entered with, as one array. -/
def attnArr (V : (c : Dev nD) → (b : Ref sig .tc) → Buf (Elt Ideal) ((c : Thread nD τ).loc b)) (c : Dev nD) : S4x2048x1024.Idx → EReal :=
  fun j => Attn.attnOnline (Val1.qf V c) (Val1.kf V c) (Val1.vf V c) (j 0) (j 1) (j 2)

/-- The result window's block index at point t = 4·batch + 2·qi + ki is (batch, qi, 0). -/
theorem idx3 : ∀ t : Fin cfg1.N, win1_3.index t (0 : Fin 3) = t.val / 4 ∧ win1_3.index t (1 : Fin 3) = (t.val / 2) % 2
    ∧ win1_3.index t (2 : Fin 3) = 0 :=
  (by decide +kernel : ∀ t : Fin grid1.N, _)

/-- What a point at key tile 1 writes back is its block of the tiled attention. -/
theorem flushed3_eq (c : Dev nD) (t : Fin cfg1.N) (hf : (cfg1.win 3).flush t = true) :
    (R1.dat1 (Run.Vq m) c).flushed 3 t = ((cfg1.win 3).blk t).view.read (Elt Ideal) (attnArr (Run.Vq m) c) := by
  show (cfg1.win 3).cut (grid1.coords t) ((R1.dat1 (Run.Vq m) c).after 3 t) = _
  rw [R1.after1_3]
  have hk : t.val % 2 = 1 := (flush1_3 t).mp hf
  obtain ⟨e0, e1, e2⟩ := idx3 t
  funext j
  have hj0 : (j 0).val < 1 := (j 0).isLt
  have hj1 : (j 1).val < 1024 := (j 1).isLt
  have hj2 : (j 2).val < 1024 := (j 2).isLt
  have hj : j = ix3 (0 : Fin 1) (⟨(j 1).val, hj1⟩ : Fin 1024) (⟨(j 2).val, hj2⟩ : Fin 1024) := by
    funext a; apply Fin.ext
    match a with
    | ⟨0, _⟩ => show (j 0).val = 0; omega
    | ⟨1, _⟩ => rfl
    | ⟨2, _⟩ => rfl
  show R1.out1_3 (R1.scAt (Run.Vq m) c t.val t.isLt) j = attnArr (Run.Vq m) c (((cfg1.win 3).blk t).view.emb j)
  rw [hj, Val1.out_odd (Run.Vq m) c t hk ⟨(j 1).val, hj1⟩ ⟨(j 2).val, hj2⟩]
  unfold attnArr
  have h0 : ((((cfg1.win 3).blk t).view.emb (ix3 (0 : Fin 1) (⟨(j 1).val, hj1⟩ : Fin 1024) (⟨(j 2).val, hj2⟩ : Fin 1024))) 0 : Fin 4) = Val1.batchOf t :=
    Fin.ext (by show win1_3.index t (0 : Fin 3) * 1 + 1 * 0 = t.val / 4; omega)
  have h1 : ((((cfg1.win 3).blk t).view.emb (ix3 (0 : Fin 1) (⟨(j 1).val, hj1⟩ : Fin 1024) (⟨(j 2).val, hj2⟩ : Fin 1024))) 1 : Fin 2048) = Val1.rowOf t ⟨(j 1).val, hj1⟩ :=
    Fin.ext (by show win1_3.index t (1 : Fin 3) * 1024 + 1 * (j 1).val = 1024 * ((t.val / 2) % 2) + (j 1).val; omega)
  have h2 : ((((cfg1.win 3).blk t).view.emb (ix3 (0 : Fin 1) (⟨(j 1).val, hj1⟩ : Fin 1024) (⟨(j 2).val, hj2⟩ : Fin 1024))) 2 : Fin 1024) = ⟨(j 2).val, hj2⟩ :=
    Fin.ext (by show win1_3.index t (2 : Fin 3) * 1024 + 1 * (j 2).val = (j 2).val; omega)
  rw [h0, h1, h2]
  rfl

/-- An index of the array is in point `t`'s block iff each coordinate is in the block's range on its axis. -/
theorem mem_blk3 (t : Fin cfg1.N) (i : S4x2048x1024.Idx) :
    i ∈ ((cfg1.win 3).blk t).view.set ↔ ∀ a : Fin 3, win1_3.index t a * S1x1024x1024.size a ≤ (i a).val
      ∧ (i a).val < win1_3.index t a * S1x1024x1024.size a + S1x1024x1024.size a := by
  show i ∈ ((View.whole main_v10).slice (win1_3.rect t)).set ↔ _
  rw [View.set_slice_whole, Rect.mem_set_unit]
  exact Iff.rfl

/-- Every index of the result array lies in the block some point at key tile 1 writes back: the point of its batch
    and of its row's query tile. -/
theorem cover3 (i : S4x2048x1024.Idx) :
    ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 1024 := (i 2).isLt
  have hN : cfg1.N = 16 := N_1
  let t : Fin cfg1.N := ⟨4 * (i 0).val + 2 * ((i 1).val / 1024) + 1, by omega⟩
  have htv : t.val = 4 * (i 0).val + 2 * ((i 1).val / 1024) + 1 := rfl
  obtain ⟨e0, e1, e2⟩ := idx3 t
  refine ⟨t, (flush1_3 t).mpr (by omega), ?_⟩
  rw [mem_blk3]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 1024 ≤ (i 2).val ∧ (i 2).val < win1_3.index t (2 : Fin 3) * 1024 + 1024; omega

/-- The result array after the call: the tiled attention of the three projected arrays. -/
theorem final3 (c : Dev nD) : (R1.dat1 (Run.Vq m) c).arrAt 3 cfg1.N = attnArr (Run.Vq m) c :=
  (R1.dat1 (Run.Vq m) c).arrAt_eq_of_cover 3 (attnArr (Run.Vq m) c) (fun t hf => flushed3_eq m c t hf) cover3

/-! ## The projected arrays are the linear layers of the arguments -/

theorem qf_eq (c : Dev nD) : Val1.qf (Run.Vq m) c = Attn.proj (m ((c : Thread nD τ).loc main_arg0)) (m ((c : Thread nD τ).loc main_arg1)) (m ((c : Thread nD τ).loc main_arg2)) := by
  funext b s e
  have h : Run.Vq m c main_v9_0 = Val0.projArr (m ((c : Thread nD τ).loc main_arg0)) (m ((c : Thread nD τ).loc main_arg1)) (m ((c : Thread nD τ).loc main_arg2)) :=
    (Run.Wq_arr m c 7).trans (Val0.final_q m c)
  unfold Val1.qf
  rw [h]
  rfl

theorem kf_eq (c : Dev nD) : Val1.kf (Run.Vq m) c = Attn.proj (m ((c : Thread nD τ).loc main_arg0)) (m ((c : Thread nD τ).loc main_arg3)) (m ((c : Thread nD τ).loc main_arg4)) := by
  funext b s e
  have h : Run.Vq m c main_v9_1 = Val0.projArr (m ((c : Thread nD τ).loc main_arg0)) (m ((c : Thread nD τ).loc main_arg3)) (m ((c : Thread nD τ).loc main_arg4)) :=
    (Run.Wq_arr m c 8).trans (Val0.final_k m c)
  unfold Val1.kf
  rw [h]
  rfl

theorem vf_eq (c : Dev nD) : Val1.vf (Run.Vq m) c = Attn.proj (m ((c : Thread nD τ).loc main_arg0)) (m ((c : Thread nD τ).loc main_arg5)) (m ((c : Thread nD τ).loc main_arg6)) := by
  funext b s e
  have h : Run.Vq m c main_v9_2 = Val0.projArr (m ((c : Thread nD τ).loc main_arg0)) (m ((c : Thread nD τ).loc main_arg5)) (m ((c : Thread nD τ).loc main_arg6)) :=
    (Run.Wq_arr m c 9).trans (Val0.final_v m c)
  unfold Val1.vf
  rw [h]
  rfl

/-- Under the precondition (every argument entry a real number) the result array is attention of the arguments. -/
theorem kernel_value (h : Cert.Pre_KernelIdeal (hPre_finite_inputs := Cert.Pre_finite_inputs.Gen.facts) m) (c : Dev nD) :
    (R1.dat1 (Run.Vq m) c).arrAt 3 cfg1.N
      = Attn.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [final3]
  obtain ⟨h0, h1, h2, h3, h4, h5, h6⟩ := Cert.Finite.args_real m h c
  funext j
  unfold attnArr Attn.G
  rw [qf_eq, kf_eq, vf_eq]
  exact (Attn.attn_eq_online _ _ _ (Cert.Finite.proj_real _ _ _ h0 h1 h2) (Cert.Finite.proj_real _ _ _ h0 h3 h4)
    (Cert.Finite.proj_real _ _ _ h0 h5 h6) (j 0) (j 1) (j 2)).symm

/-- The idealized kernel's run, read: the result array at attention of the arguments, the arguments unchanged. -/
theorem run_value (ρ : Dev nD → PrngReg) (h : Cert.Pre_KernelIdeal (hPre_finite_inputs := Cert.Pre_finite_inputs.Gen.facts) m) :
    θ_run defs (onTc (τ := τ) (main (F := Ideal))) ⟨m, fun _ => 0, ρ⟩ (fun r => ∀ c : Dev nD,
      r.2.mem ((c.tc : Thread nD τ).loc main_v10)
        = Attn.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r hr c =>
    ⟨(Run.result_eq m r hr c).trans (kernel_value m h c),
     (hr c _ (Run.mem_uc main_arg0 (by decide))).trans (Run.Wy_main_arg0 m c),
     (hr c _ (Run.mem_uc main_arg1 (by decide))).trans (Run.Wy_main_arg1 m c),
     (hr c _ (Run.mem_uc main_arg2 (by decide))).trans (Run.Wy_main_arg2 m c),
     (hr c _ (Run.mem_uc main_arg3 (by decide))).trans (Run.Wy_main_arg3 m c),
     (hr c _ (Run.mem_uc main_arg4 (by decide))).trans (Run.Wy_main_arg4 m c),
     (hr c _ (Run.mem_uc main_arg5 (by decide))).trans (Run.Wy_main_arg5 m c),
     (hr c _ (Run.mem_uc main_arg6 (by decide))).trans (Run.Wy_main_arg6 m c)⟩) (Run.run_all m ρ)

end Cert.KernelIdeal.Final

end
-- ==== Proof.RefValue.lean ====
import proofs.«402828_j13597866459507_3_alg».proof.Proof.Gen.ReferenceIdeal.Run
import proofs.«402828_j13597866459507_3_alg».proof.Proof.Gen.ReferenceIdeal.Read
import proofs.«402828_j13597866459507_3_alg».proof.Proof.Spec
import Idealize.ShloMosaic.Lib.StableHlo.Predicate
import Idealize.ShloMosaic.PureOps.Reduce
import Idealize.ShloMosaic.PureOps.Ideal.Laws
import Idealize.ShloMosaic.Lib.ValueIdx

/-! The reference's result, one stage at a time, as one function of the argument arrays. -/

noncomputable section

namespace Cert.ReferenceIdeal.RefValue

open Cert.ReferenceIdeal Cert.ReferenceIdeal.Gen Idealize.ShloMosaic Idealize.ShloMosaic.ValueIdx Idealize.ShloMosaic.TcCoe
  Idealize.SL.Sem Idealize.ShloMosaic.StableHlo
open scoped BigOperators

/-- The activations, a weight matrix, a bias, as the reference's buffers hold them at the extended reals. -/
abbrev TX : Type := (⟨S4x2048x1024, .f32⟩ : BufTy).Contents (Elt Ideal)
abbrev TW : Type := (⟨S1024x1024, .f32⟩ : BufTy).Contents (Elt Ideal)
abbrev TB : Type := (⟨S1024, .f32⟩ : BufTy).Contents (Elt Ideal)

/-! ## The two words the program carries -/

/-- The word 0xFF800000 is -∞. -/
theorem ofBits_negInf : Ideal.ofBits .f32 0xFF800000#32 = (⊥ : EReal) := by simp [Ideal.ofBits, Ideal.ieee]

/-- The word 0x00000000 is zero. -/
theorem ofBits_zero : Ideal.ofBits .f32 0x00000000#32 = (0 : EReal) := by simp [Ideal.ofBits, Ideal.ieee]

/-! ## The three linear layers -/

/-- The first product and its bias: the query rows. -/
theorem v3_eq (x0 : TX) (x1 : TW) (x2 : TB) (b : Fin 4) (s : Fin 2048) (e : Fin 1024) :
    Read.val_main_v3 (F := Ideal) x0 x1 x2 (ix3 b s e) = Attn.proj x0 x1 x2 b s e := by
  have el : ∀ k : Fin 1024, Read.lidx_main_v0 (ix3 b s e) k = ix3 b s k := fun k => funext fun a => Fin.ext (by
    match a with | ⟨0, _⟩ => rfl | ⟨1, _⟩ => rfl | ⟨2, _⟩ => rfl)
  have er : ∀ k : Fin 1024, Read.ridx_main_v0 (ix3 b s e) k = ix2 e k := fun k => funext fun a => Fin.ext (by
    match a with | ⟨0, _⟩ => rfl | ⟨1, _⟩ => rfl)
  have eb : Read.idx_main_v1 (Read.idx_main_v2 (ix3 b s e)) = ix1 e := funext fun a => Fin.ext (by
    match a with | ⟨0, _⟩ => rfl)
  rw [Read.val_main_v3_apply, Read.val_main_v0_apply, Read.val_main_v2_apply, Read.val_main_v1_apply, eb]
  simp only [el, er, Ideal.addf_def]
  rfl

/-- The second: the key rows. -/
theorem v7_eq (x0 : TX) (x3 : TW) (x4 : TB) (b : Fin 4) (s : Fin 2048) (e : Fin 1024) :
    Read.val_main_v7 (F := Ideal) x0 x3 x4 (ix3 b s e) = Attn.proj x0 x3 x4 b s e := by
  have el : ∀ k : Fin 1024, Read.lidx_main_v4 (ix3 b s e) k = ix3 b s k := fun k => funext fun a => Fin.ext (by
    match a with | ⟨0, _⟩ => rfl | ⟨1, _⟩ => rfl | ⟨2, _⟩ => rfl)
  have er : ∀ k : Fin 1024, Read.ridx_main_v4 (ix3 b s e) k = ix2 e k := fun k => funext fun a => Fin.ext (by
    match a with | ⟨0, _⟩ => rfl | ⟨1, _⟩ => rfl)
  have eb : Read.idx_main_v5 (Read.idx_main_v6 (ix3 b s e)) = ix1 e := funext fun a => Fin.ext (by
    match a with | ⟨0, _⟩ => rfl)
  rw [Read.val_main_v7_apply, Read.val_main_v4_apply, Read.val_main_v6_apply, Read.val_main_v5_apply, eb]
  simp only [el, er, Ideal.addf_def]
  rfl

/-- The third: the value rows. -/
theorem v11_eq (x0 : TX) (x5 : TW) (x6 : TB) (b : Fin 4) (s : Fin 2048) (e : Fin 1024) :
    Read.val_main_v11 (F := Ideal) x0 x5 x6 (ix3 b s e) = Attn.proj x0 x5 x6 b s e := by
  have el : ∀ k : Fin 1024, Read.lidx_main_v8 (ix3 b s e) k = ix3 b s k := fun k => funext fun a => Fin.ext (by
    match a with | ⟨0, _⟩ => rfl | ⟨1, _⟩ => rfl | ⟨2, _⟩ => rfl)
  have er : ∀ k : Fin 1024, Read.ridx_main_v8 (ix3 b s e) k = ix2 e k := fun k => funext fun a => Fin.ext (by
    match a with | ⟨0, _⟩ => rfl | ⟨1, _⟩ => rfl)
  have eb : Read.idx_main_v9 (Read.idx_main_v10 (ix3 b s e)) = ix1 e := funext fun a => Fin.ext (by
    match a with | ⟨0, _⟩ => rfl)
  rw [Read.val_main_v11_apply, Read.val_main_v8_apply, Read.val_main_v10_apply, Read.val_main_v9_apply, eb]
  simp only [el, er, Ideal.addf_def]
  rfl

/-! ## The scores -/

/-- The scaled inner product of query row `r` and key row `c`. -/
theorem v14_eq (x0 : TX) (x1 : TW) (x2 : TB) (x3 : TW) (x4 : TB) (b : Fin 4) (r c : Fin 2048) :
    Read.val_main_v14 (F := Ideal) x0 x1 x2 x3 x4 (ix3 b r c)
      = (∑ e : Fin 1024, Attn.proj x0 x1 x2 b r e * Attn.proj x0 x3 x4 b c e) * Attn.scale := by
  have el : ∀ k : Fin 1024, Read.lidx_main_v12 (ix3 b r c) k = ix3 b r k := fun k => funext fun a => Fin.ext (by
    match a with | ⟨0, _⟩ => rfl | ⟨1, _⟩ => rfl | ⟨2, _⟩ => rfl)
  have er : ∀ k : Fin 1024, Read.ridx_main_v12 (ix3 b r c) k = ix3 b c k := fun k => funext fun a => Fin.ext (by
    match a with | ⟨0, _⟩ => rfl | ⟨1, _⟩ => rfl | ⟨2, _⟩ => rfl)
  rw [Read.val_main_v14_apply, Read.val_main_v12_apply, Read.val_main_v13_apply, Read.val_main_cst_apply]
  simp only [el, er, v3_eq, v7_eq, Ideal.mulf_def, Ideal.ofBits_def]

/-- The mask bit at row `r`, column `c` is set exactly when the column is not after the row. -/
theorem mask_eq_one_iff (b : Fin 4) (r c : Fin 2048) :
    Read.val_main_call1_v1 (F := Ideal) (ix3 b r c) = 1#1 ↔ c.val ≤ r.val := by
  rw [Read.val_main_call1_v1_apply, Read.val_main_v17_apply, Read.val_main_v16_apply, Read.val_main_call0_v4_apply,
    Read.val_main_call0_v2_apply, Read.val_main_call0_v0_apply, Read.val_main_call0_v1_apply, Read.val_main_call0_c_apply,
    Read.val_main_call0_v3_apply, Read.val_main_v15_apply, Read.val_main_c_apply, Read.val_main_call0_v5_apply,
    Read.val_main_call0_c_0_apply]
  show Scalar.select (IntOp.cmpi .sge (IntOp.addi (BitVec.ofNat 32 r.val) 0#32) (BitVec.ofNat 32 c.val)) 1#1 0#1 = 1#1 ↔ c.val ≤ r.val
  have hr : (BitVec.ofNat 32 r.val).toNat = r.val := by
    rw [BitVec.toNat_ofNat]; exact Nat.mod_eq_of_lt (by have := r.isLt; omega)
  have hc : (BitVec.ofNat 32 c.val).toNat = c.val := by
    rw [BitVec.toNat_ofNat]; exact Nat.mod_eq_of_lt (by have := c.isLt; omega)
  have h0 : IntOp.addi (BitVec.ofNat 32 r.val) 0#32 = BitVec.ofNat 32 r.val := by
    unfold IntOp.addi; exact BitVec.add_zero _
  have hcmp := Predicate.sge_iff_toNat (a := BitVec.ofNat 32 r.val) (b := BitVec.ofNat 32 c.val)
    (by rw [hr]; have := r.isLt; omega) (by rw [hc]; have := c.isLt; omega)
  rw [hr, hc] at hcmp
  rw [h0]
  unfold Scalar.select
  by_cases h : IntOp.cmpi .sge (BitVec.ofNat 32 r.val) (BitVec.ofNat 32 c.val) = 1#1
  · rw [if_pos (show _ = (1 : BitVec 1) from h)]; exact ⟨fun _ => hcmp.1 h, fun _ => rfl⟩
  · rw [if_neg (show ¬ _ = (1 : BitVec 1) from h)]; exact ⟨fun h' => absurd h' (by decide), fun h' => absurd (hcmp.2 h') h⟩

/-- The masked score is the causal score of the three linear layers' rows. -/
theorem v18_eq (x0 : TX) (x1 : TW) (x2 : TB) (x3 : TW) (x4 : TB) (b : Fin 4) (r c : Fin 2048) :
    Read.val_main_v18 (F := Ideal) x0 x1 x2 x3 x4 (ix3 b r c)
      = Attn.score (Attn.proj x0 x1 x2) (Attn.proj x0 x3 x4) b r c := by
  rw [Read.val_main_v18_apply, Read.val_main_call1_v2_apply, Read.val_main_call1_v0_apply, Read.val_main_cst_0_apply, v14_eq]
  unfold Scalar.select Attn.score
  rw [Ideal.ofBits_def, ofBits_negInf]
  exact if_congr (mask_eq_one_iff b r c) rfl rfl

/-! ## The row maximum -/

/-- The reduction drops the key axis. -/
theorem hRed : S4x2048x2048.Reduces [(2 : Fin S4x2048x2048.rank)] S4x2048 := by decide

/-- The index over (batch, query row) with key `c` inserted on the dropped axis. -/
theorem lift_eq (b : Fin 4) (r c : Fin 2048) : hRed.lift (ix2 b r) c = ix3 b r c :=
  funext fun a => Fin.ext (by match a with | ⟨0, _⟩ => rfl | ⟨1, _⟩ => rfl | ⟨2, _⟩ => rfl)

/-- The maximum over the keys of a query row's masked scores. -/
theorem v19_eq (x0 : TX) (x1 : TW) (x2 : TB) (x3 : TW) (x4 : TB) (b : Fin 4) (r : Fin 2048) :
    Read.val_main_v19 (F := Ideal) x0 x1 x2 x3 x4 (ix2 b r)
      = Attn.rowMax (Attn.score (Attn.proj x0 x1 x2) (Attn.proj x0 x3 x4) b r) := by
  unfold Read.val_main_v19
  rw [Host.reduce_eq_fold_single (FloatOps.maximumf (F := Ideal) (φ := .f32)) _ _ reducesTo_S4x2048x2048_S4x2048_d2 hRed h_S_]
  have hf : (Read.val_main_v18 (F := Ideal) x0 x1 x2 x3 x4 ∘ hRed.lift (ix2 b r))
      = Attn.score (Attn.proj x0 x1 x2) (Attn.proj x0 x3 x4) b r :=
    funext fun (c : Fin 2048) =>
      (congrArg (Read.val_main_v18 (F := Ideal) x0 x1 x2 x3 x4) (lift_eq b r c)).trans (v18_eq x0 x1 x2 x3 x4 b r c)
  rw [hf, Read.val_main_cst_1_apply, Ideal.ofBits_def, ofBits_negInf]
  rfl

/-- The same maximum, after the maximum with -∞ and the two broadcasts, at every key of the row. -/
theorem v23_eq (x0 : TX) (x1 : TW) (x2 : TB) (x3 : TW) (x4 : TB) (b : Fin 4) (r c : Fin 2048) :
    Read.val_main_v23 (F := Ideal) x0 x1 x2 x3 x4 (ix3 b r c)
      = Attn.rowMax (Attn.score (Attn.proj x0 x1 x2) (Attn.proj x0 x3 x4) b r) := by
  have e1 : Read.idx_main_v22 (Read.idx_main_v23 (ix3 b r c)) = ix2 b r := funext fun a => Fin.ext (by
    match a with | ⟨0, _⟩ => rfl | ⟨1, _⟩ => rfl)
  rw [Read.val_main_v23_apply, Read.val_main_v22_apply, e1, Read.val_main_v21_apply, Read.val_main_v20_apply,
    Read.val_main_cst_2_apply, v19_eq, Ideal.maximumf_def, Ideal.ofBits_def, ofBits_negInf]
  exact max_bot_left _

/-! ## The weights -/

/-- The exponential of a score less its row's maximum. -/
theorem v25_eq (x0 : TX) (x1 : TW) (x2 : TB) (x3 : TW) (x4 : TB) (b : Fin 4) (r c : Fin 2048) :
    Read.val_main_v25 (F := Ideal) x0 x1 x2 x3 x4 (ix3 b r c)
      = Ideal.exp (Attn.score (Attn.proj x0 x1 x2) (Attn.proj x0 x3 x4) b r c
          - Attn.rowMax (Attn.score (Attn.proj x0 x1 x2) (Attn.proj x0 x3 x4) b r)) := by
  rw [Read.val_main_v25_apply, Read.val_main_v24_apply, v18_eq, v23_eq, Ideal.hostUnary_exp_def, Ideal.subf_def]

/-- The sum of a row's exponentials. -/
theorem v26_eq (x0 : TX) (x1 : TW) (x2 : TB) (x3 : TW) (x4 : TB) (b : Fin 4) (r : Fin 2048) :
    Read.val_main_v26 (F := Ideal) x0 x1 x2 x3 x4 (ix2 b r)
      = ∑ c : Fin 2048, Ideal.exp (Attn.score (Attn.proj x0 x1 x2) (Attn.proj x0 x3 x4) b r c
          - Attn.rowMax (Attn.score (Attn.proj x0 x1 x2) (Attn.proj x0 x3 x4) b r)) := by
  have e : ∀ k : Fin 2048, Read.idx_main_v26 (ix2 b r) k = ix3 b r k := fun k => funext fun a => Fin.ext (by
    match a with | ⟨0, _⟩ => rfl | ⟨1, _⟩ => rfl | ⟨2, _⟩ => rfl)
  rw [Read.val_main_v26_apply, Read.val_main_cst_3_apply, Ideal.ofBits_def, ofBits_zero, zero_add]
  simp only [e, v25_eq]

/-- A weight: the exponential over the row's sum. -/
theorem v29_eq (x0 : TX) (x1 : TW) (x2 : TB) (x3 : TW) (x4 : TB) (b : Fin 4) (r c : Fin 2048) :
    Read.val_main_v29 (F := Ideal) x0 x1 x2 x3 x4 (ix3 b r c)
      = Ideal.div (Ideal.exp (Attn.score (Attn.proj x0 x1 x2) (Attn.proj x0 x3 x4) b r c
            - Attn.rowMax (Attn.score (Attn.proj x0 x1 x2) (Attn.proj x0 x3 x4) b r)))
          (∑ c' : Fin 2048, Ideal.exp (Attn.score (Attn.proj x0 x1 x2) (Attn.proj x0 x3 x4) b r c'
            - Attn.rowMax (Attn.score (Attn.proj x0 x1 x2) (Attn.proj x0 x3 x4) b r))) := by
  have e1 : Read.idx_main_v27 (Read.idx_main_v28 (ix3 b r c)) = ix2 b r := funext fun a => Fin.ext (by
    match a with | ⟨0, _⟩ => rfl | ⟨1, _⟩ => rfl)
  rw [Read.val_main_v29_apply, Read.val_main_v28_apply, Read.val_main_v27_apply, e1, v25_eq, v26_eq, Ideal.hostDivf_def]

/-! ## The result -/

/-- The weights against the value rows: attention at (batch, query row, feature). -/
theorem v30_eq (x0 : TX) (x1 : TW) (x2 : TB) (x3 : TW) (x4 : TB) (x5 : TW) (x6 : TB) (b : Fin 4) (r : Fin 2048) (e : Fin 1024) :
    Read.val_main_v30 (F := Ideal) x0 x1 x2 x3 x4 x5 x6 (ix3 b r e)
      = Attn.attn (Attn.proj x0 x1 x2) (Attn.proj x0 x3 x4) (Attn.proj x0 x5 x6) b r e := by
  have el : ∀ k : Fin 2048, Read.lidx_main_v30 (ix3 b r e) k = ix3 b r k := fun k => funext fun a => Fin.ext (by
    match a with | ⟨0, _⟩ => rfl | ⟨1, _⟩ => rfl | ⟨2, _⟩ => rfl)
  have er : ∀ k : Fin 2048, Read.ridx_main_v30 (ix3 b r e) k = ix3 b k e := fun k => funext fun a => Fin.ext (by
    match a with | ⟨0, _⟩ => rfl | ⟨1, _⟩ => rfl | ⟨2, _⟩ => rfl)
  rw [Read.val_main_v30_apply]
  simp only [el, er, v29_eq, v11_eq]
  rfl

/-- The reference's result is the attention of its seven arguments. -/
theorem res_eq (m : (ℓ : Loc nD τ sig) → Buf (Elt Ideal) ℓ) (c : Dev nD) :
    Value.res_main_v30 (F := Ideal) m c
      = Attn.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  rw [Read.val_main_v30_eq]
  funext i
  obtain ⟨b, r, e, rfl⟩ : ∃ (b : Fin 4) (r : Fin 2048) (e : Fin 1024), i = ix3 b r e := ⟨i 0, i 1, i 2, eq_ix3 i⟩
  exact v30_eq _ _ _ _ _ _ _ b r e

/-- Every weakly fair execution of the reference terminates with its result the attention of the arguments' launch
    contents, the arguments unchanged. -/
theorem run_G (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v30)
        = Attn.G (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run _ _ _).mono (fun _ h c => ⟨(h c).1.trans (res_eq m c), (h c).2⟩) (Value.run (F := Ideal) m ρ)

end Cert.ReferenceIdeal.RefValue

end
-- ==== Proof.lean ====
/-
  A causal single-head attention kernel — a fused Q/K/V projection, then attention computed tile by tile with a
  running maximum, a running sum of exponentials and a running weighted sum — against the plain masked-softmax
  attention, over the extended reals.

  Both sides form q, k, v = x · Wᵀ + b, scale the scores q · kᵀ by 1/32, and mask the keys after the query with -∞
  (the kernel's mask fill is a finite word that stands for -∞ and is read so).  The plain form subtracts each row's
  maximum over all 2048 keys, exponentiates, divides by the row sum and applies the weights to v.  The tiled form
  visits two key tiles of 1024, rescales its partial sums by exp (old maximum - new maximum) when the maximum
  grows, and divides once at the end.  Every argument entry being a real number, exp (s - M) for a masked score is
  exp (-∞) = 0, every row has an unmasked key, so every maximum is real and every row sum is at least 1; then
  exp (m₁ - m₂) · exp (s - m₁) = exp (s - m₂) and (∑ e · v) / L = ∑ (e / L) · v make the two forms equal.

  The kernel's two calls run to the end and leave the arguments alone: the first stores three blocks per point
  from blocks it loaded; the second carries its three running arrays from point to point and writes a block of the
  result at the last key tile of each query tile.  The reference's run and its value are read off its operations.
-/
import proofs.«402828_j13597866459507_3_alg».proof.Defs
import proofs.«402828_j13597866459507_3_alg».proof.Proof.Gen.Kernel
import proofs.«402828_j13597866459507_3_alg».proof.Proof.Gen.KernelIdeal
import proofs.«402828_j13597866459507_3_alg».proof.Proof.Gen.ReferenceIdeal
import proofs.«402828_j13597866459507_3_alg».proof.Proof.Gen.Pre_finite_inputs
import proofs.«402828_j13597866459507_3_alg».proof.Proof.KbRun
import proofs.«402828_j13597866459507_3_alg».proof.Proof.KiRun
import proofs.«402828_j13597866459507_3_alg».proof.Proof.KiFinal
import proofs.«402828_j13597866459507_3_alg».proof.Proof.RefValue
import Idealize.ShloMosaic.PureOps.IdealRules
import Idealize.ShloMosaic.Adequacy
import Idealize.ShloMosaic.Init

noncomputable section

namespace Cert.Proof

open Idealize.ShloMosaic Idealize.SL.Sem

/-- The word-level kernel runs to the end and leaves its arguments alone. -/
theorem frame_k : Cert.frame_Kernel (hKernel := Cert.Kernel.Gen.facts) (hPre_finite_inputs := Cert.Pre_finite_inputs.Gen.facts) :=
  fun m ρ _ => Cert.Kernel.Run.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Run.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run_G m ρ)

/-- The one rewrite of the idealization: the mask fill, a finite word standing for -∞, denotes -∞. -/
theorem preserves : Cert.preserves_Kernel_KernelIdeal :=
  IdealRules.named_const.statement Cert.KernelIdeal.κ "neg_big" .f32 0xFF333332#32 ⊥ rfl

/-- From memories agreeing on the arguments both programs end with the result array at attention of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Attn.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Final.run_value m ρ hpre, ?_⟩
  refine (θ_run Cert.ReferenceIdeal.defs _ _).mono (fun r h c => ⟨?_, (h c).2⟩) (Cert.ReferenceIdeal.RefValue.run_G m' ρ')
  obtain ⟨a0, a1, a2, a3, a4, a5, a6⟩ := hagree c
  rw [(h c).1, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
